-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x6 : Shape := ⟨2, ![128, 6]⟩
abbrev S6 : Shape := ⟨1, ![6]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x6 : S_.BroadcastsInDim S128x6 (![] : Fin 0 → Fin S128x6.rank)
  reducesTo_S128x6_S_d0_1 : S128x6.ReducesTo [0, 1] S_
  bcast_S_S6 : S_.BroadcastsInDim S6 (![] : Fin 0 → Fin S6.rank)
  reducesTo_S6_S_d0 : S6.ReducesTo [0] S_

variable [Facts]

def fn_part3 {F : FTy → Type} [FloatOps F] (main_arg13 : FVec F S128x6 .f32) (main_arg14 : FVec F S6 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x6 .f32 := Host.absf main_arg13
  let main_cst_20 : FVec F S_ .f32 := constant S_ .f32 0x7F800000#32
  let main_v55 : FVec F S128x6 .f32 := broadcastInDim S128x6 ![] bcast_S_S128x6 main_cst_20
  let main_v56 : IVec S128x6 1 := cmpf .olt main_v54 main_v55
  let main_c_21 : IVec S_ 1 := constantI S_ 1 1#1
  let main_v57 : IVec S_ 1 := (fun x v => Host.reduce IntOp.andi x v reducesTo_S128x6_S_d0_1 h_S_) main_v56 main_c_21
  let main_v58 : IVec S_ 1 := andi main_v53 main_v57
  let main_v59 : FVec F S6 .f32 := Host.absf main_arg14
  let main_cst_22 : FVec F S_ .f32 := constant S_ .f32 0x7F800000#32
  let main_v60 : FVec F S6 .f32 := broadcastInDim S6 ![] bcast_S_S6 main_cst_22
  let main_v61 : IVec S6 1 := cmpf .olt main_v59 main_v60
  let main_c_23 : IVec S_ 1 := constantI S_ 1 1#1
  let main_v62 : IVec S_ 1 := (fun x v => Host.reduce IntOp.andi x v reducesTo_S6_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128x128 .f32) (main_arg12 : FVec F S128 .f32) (main_arg13 : FVec F S128x6 .f32) (main_arg14 : FVec F S6 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x6 .f32) (main_arg14 : FVec F S6 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x1600000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x6 .f32) (main_arg14 : FVec F S6 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x6 : Shape := ⟨2, ![128, 6]⟩
abbrev S6 : Shape := ⟨1, ![6]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S50000x1 : Shape := ⟨2, ![50000, 1]⟩
abbrev S1x6 : Shape := ⟨2, ![1, 6]⟩
abbrev S512x6 : Shape := ⟨2, ![512, 6]⟩
abbrev S2000x128 : Shape := ⟨2, ![2000, 128]⟩
abbrev S2000x1 : Shape := ⟨2, ![2000, 1]⟩
abbrev S512x128 : Shape := ⟨2, ![512, 128]⟩
abbrev S512x1 : Shape := ⟨2, ![512, 1]⟩
abbrev S1x512 : Shape := ⟨2, ![1, 512]⟩
abbrev S2000x512 : Shape := ⟨2, ![2000, 512]⟩

abbrev nBuf : Space → Nat
  | .hbm => 64
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x6, .f32⟩
  | .hbm, ⟨14, _⟩ => ⟨S6, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S50000x128, .bf16⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .bf16⟩
  | .hbm, ⟨29, _⟩ => ⟨S1600000x128, .f32⟩
  | .hbm, ⟨30, _⟩ => ⟨S_, .f32⟩
  | .hbm, ⟨31, _⟩ => ⟨S50000x128, .f32⟩
  | .hbm, ⟨32, _⟩ => ⟨S1600000x1, .i32⟩
  | .hbm, ⟨33, _⟩ => ⟨S50000x128, .f32⟩
  | .hbm, ⟨34, _⟩ => ⟨S128x128, .bf16⟩
  | .hbm, ⟨35, _⟩ => ⟨S128x128, .bf16⟩
  | .hbm, ⟨36, _⟩ => ⟨S1x128, .f32⟩
  | .hbm, ⟨37, _⟩ => ⟨S1x128, .f32⟩
  | .hbm, ⟨38, _⟩ => ⟨S50000x128, .f32⟩
  | .hbm, ⟨39, _⟩ => ⟨S50000x128, .bf16⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .bf16⟩
  | .hbm, ⟨49, _⟩ => ⟨S1600000x128, .f32⟩
  | .hbm, ⟨50, _⟩ => ⟨S_, .f32⟩
  | .hbm, ⟨51, _⟩ => ⟨S50000x128, .f32⟩
  | .hbm, ⟨52, _⟩ => ⟨S1600000x1, .i32⟩
  | .hbm, ⟨53, _⟩ => ⟨S50000x128, .f32⟩
  | .hbm, ⟨54, _⟩ => ⟨S50000x1, .i32⟩
  | .hbm, ⟨55, _⟩ => ⟨S128x128, .bf16⟩
  | .hbm, ⟨56, _⟩ => ⟨S128x128, .bf16⟩
  | .hbm, ⟨57, _⟩ => ⟨S128x128, .bf16⟩
  | .hbm, ⟨58, _⟩ => ⟨S128x6, .bf16⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x6, .f32⟩
  | .hbm, ⟨63, _⟩ => ⟨S512x6, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x1, .i32⟩
  | .local _ .vmem, ⟨15, _⟩ => ⟨S2000x1, .i32⟩
  | .local _ .vmem, ⟨16, _⟩ => ⟨S128x128, .bf16⟩
  | .local _ .vmem, ⟨17, _⟩ => ⟨S1x128, .f32⟩
  | .local _ .vmem, ⟨18, _⟩ => ⟨S128x128, .bf16⟩
  | .local _ .vmem, ⟨19, _⟩ => ⟨S1x128, .f32⟩
  | .local _ .vmem, ⟨20, _⟩ => ⟨S128x128, .bf16⟩
  | .local _ .vmem, ⟨21, _⟩ => ⟨S1x128, .f32⟩
  | .local _ .vmem, ⟨22, _⟩ => ⟨S128x6, .bf16⟩
  | .local _ .vmem, ⟨23, _⟩ => ⟨S1x6, .f32⟩
  | .local _ .vmem, ⟨24, _⟩ => ⟨S512x6, .f32⟩
  | .local _ .vmem, ⟨25, _⟩ => ⟨S512x128, .f32⟩
  | .local _ .vmem, ⟨26, _⟩ => ⟨S512x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_1 : Ref sig .tc := ⟨.hbm, 40, rfl⟩
abbrev main_v22 : Ref sig .tc := ⟨.hbm, 41, rfl⟩
abbrev main_v23 : Ref sig .tc := ⟨.hbm, 42, rfl⟩
abbrev main_c_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_scratch0 : Ref sig .tc := ⟨.vmem, 25, rfl⟩
abbrev cc1_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v51 : BitVec 1 := Scalar.cmpi .eq arg0 c24_i32
  let v52 : BitVec 32 := Scalar.extui v51
  let c0_i32_28 : BitVec 32 := 0#32
  let v53 : BitVec 1 := Scalar.cmpi .ne v52 c0_i32_28
  v53

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x6 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x6 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S512x6 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S50000_S50000x1 : S50000.ShapeCasts S50000x1
  shapeCasts_S6_S1x6 : S6.ShapeCasts S1x6
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S1x512_d1_w32 : S1x512.Iotas .tc 32 [1]
  broadcasts_S2000x1_S2000x512 : S2000x1.Broadcasts S2000x512
  broadcasts_S1x512_S2000x512 : S1x512.Broadcasts S2000x512
  natLt_1_32 : 1 < 32
  broadcasts_S512x1_S512x128 : S512x1.Broadcasts S512x128
  broadcasts_S1x128_S512x128 : S1x128.Broadcasts S512x128
  inb_S128x6_S128x6_0_0 : ∀ a, (![0, 0] : Fin 2 → Nat) a + S128x6.size a ≤ S128x6.size a
  h_S128x6 : 0 < S128x6.numel
  shapeCasts_S128x6_S128x6 : S128x6.ShapeCasts S128x6
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S512x6 : S1x6.Broadcasts S512x6
  inb_S512x6_S512x6_0_0 : ∀ a, (![0, 0] : Fin 2 → Nat) a + S512x6.size a ≤ S512x6.size a
  h_S512x6 : 0 < S512x6.numel
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  dot_S2000x128_S128x128_S2000x128_1_0_0_1_n_n_wf : DotDims.WF S2000x128 S128x128 S2000x128 [1] [0] [0] [1] [] []
  dot_S2000x512_S2000x128_S512x128_0_0_1_1_n_n_wf : DotDims.WF S2000x512 S2000x128 S512x128 [0] [0] [1] [1] [] []
  dot_S2000x512_S2000x1_S512x1_0_0_1_1_n_n_wf : DotDims.WF S2000x512 S2000x1 S512x1 [0] [0] [1] [1] [] []
  dot_S512x128_S128x128_S512x128_1_0_0_1_n_n_wf : DotDims.WF S512x128 S128x128 S512x128 [1] [0] [0] [1] [] []
  dot_S512x128_S128x6_S512x6_1_0_0_1_n_n_wf : DotDims.WF S512x128 S128x6 S512x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .i32 = 32 ∨ (Rect.block (s := S50000x1) S2000x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .bf16 = 32 ∨ (Rect.block (s := S128x128) S128x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x6.size a ≤ S128x6.size a
  hwx1_9 : ∀ i : grid1.Coords, EltTy.bits .bf16 = 32 ∨ (Rect.block (s := S128x6) S128x6.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x6.size a ≤ S1x6.size a
  hwx1_10 : ∀ i : grid1.Coords, EltTy.bits .f32 = 32 ∨ (Rect.block (s := S1x6) S1x6.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S512x6.size a ≤ S512x6.size a
  hwx1_11 : ∀ i : grid1.Coords, EltTy.bits .f32 = 32 ∨ (Rect.block (s := S512x6) S512x6.size (cc1_transform_11 i) (hinb1_11 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def dot_S2000x512_S2000x1_S512x1_0_0_1_1_n_n : DotDims S2000x512 S2000x1 S512x1 where
  lhsContracting := [0]
  rhsContracting := [0]
  lhsNonContracting := [1]
  rhsNonContracting := [1]
  lhsBatch := []
  rhsBatch := []
  wf := dot_S2000x512_S2000x1_S512x1_0_0_1_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x6_S512x6_1_0_0_1_n_n : DotDims S512x128 S128x6 S512x6 where
  lhsContracting := [1]
  rhsContracting := [0]
  lhsNonContracting := [0]
  rhsNonContracting := [1]
  lhsBatch := []
  rhsBatch := []
  wf := dot_S512x128_S128x6_S512x6_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v40) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v37) S128x6.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v41) S1x6.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v42) S512x6.size cc1_transform_11 reads1_11 true true 1 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev idle1 : Fin 12 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k1_cond2 i == 1#1) | ⟨_ + 12, h⟩ => absurd h (Nat.not_lt.2 (Nat.le_add_left _ _))

class Facts : Prop extends Facts₀ where

variable [Facts]
-- ==== ReferenceIdeal.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x6 : Shape := ⟨2, ![128, 6]⟩
abbrev S6 : Shape := ⟨1, ![6]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S512x6 : Shape := ⟨2, ![512, 6]⟩
abbrev S1x6 : Shape := ⟨2, ![1, 6]⟩

abbrev nBuf : Space → Nat
  | .hbm => 110
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x6, .f32⟩
  | .hbm, ⟨14, _⟩ => ⟨S6, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S50000x128, .f32⟩
  | .hbm, ⟨30, _⟩ => ⟨S1600000x1, .i32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S_, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S50000x128, .f32⟩
  | .hbm, ⟨58, _⟩ => ⟨S1600000x1, .i32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S512x128, .f32⟩
  | .hbm, ⟨77, _⟩ => ⟨S50000x1, .i32⟩
  | .hbm, ⟨78, _⟩ => ⟨S512x128, .f32⟩
  | .hbm, ⟨79, _⟩ => ⟨S_, .f32⟩
  | .hbm, ⟨80, _⟩ => ⟨S50000, .f32⟩
  | .hbm, ⟨81, _⟩ => ⟨S_, .f32⟩
  | .hbm, ⟨82, _⟩ => ⟨S512, .f32⟩
  | .hbm, ⟨83, _⟩ => ⟨S50000x1, .i32⟩
  | .hbm, ⟨84, _⟩ => ⟨S512, .f32⟩
  | .hbm, ⟨85, _⟩ => ⟨S_, .f32⟩
  | .hbm, ⟨86, _⟩ => ⟨S512, .f32⟩
  | .hbm, ⟨87, _⟩ => ⟨S512, .f32⟩
  | .hbm, ⟨88, _⟩ => ⟨S512x1, .f32⟩
  | .hbm, ⟨89, _⟩ => ⟨S512x128, .f32⟩
  | .hbm, ⟨90, _⟩ => ⟨S512x128, .f32⟩
  | .hbm, ⟨91, _⟩ => ⟨S512x128, .f32⟩
  | .hbm, ⟨92, _⟩ => ⟨S1x128, .f32⟩
  | .hbm, ⟨93, _⟩ => ⟨S512x128, .f32⟩
  | .hbm, ⟨94, _⟩ => ⟨S512x128, .f32⟩
  | .hbm, ⟨95, _⟩ => ⟨S_, .f32⟩
  | .hbm, ⟨96, _⟩ => ⟨S512x128, .f32⟩
  | .hbm, ⟨97, _⟩ => ⟨S512x128, .f32⟩
  | .hbm, ⟨98, _⟩ => ⟨S512x6, .f32⟩
  | .hbm, ⟨99, _⟩ => ⟨S1x6, .f32⟩
  | .hbm, ⟨100, _⟩ => ⟨S512x6, .f32⟩
  | .hbm, ⟨101, _⟩ => ⟨S512x6, .f32⟩
  | .hbm, ⟨102, _⟩ => ⟨S512x6, .f32⟩
  | .hbm, ⟨103, _⟩ => ⟨S512x6, .f32⟩
  | .hbm, ⟨104, _⟩ => ⟨S_, .f32⟩
  | .hbm, ⟨105, _⟩ => ⟨S512x6, .f32⟩
  | .hbm, ⟨106, _⟩ => ⟨S512x6, .f32⟩
  | .hbm, ⟨107, _⟩ => ⟨S_, .f32⟩
  | .hbm, ⟨108, _⟩ => ⟨S512x6, .f32⟩
  | .hbm, ⟨109, _⟩ => ⟨S512x6, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_cst : Ref sig .tc := ⟨.hbm, 37, rfl⟩
abbrev main_call0_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_cst : Ref sig .tc := ⟨.hbm, 44, rfl⟩
abbrev main_call1_v0 : Ref sig .tc := ⟨.hbm, 45, rfl⟩
abbrev main_v24 : Ref sig .tc := ⟨.hbm, 46, rfl⟩
abbrev main_c_1 : Ref sig .tc := ⟨.hbm, 47, rfl⟩
abbrev main_v25 : Ref sig .tc := ⟨.hbm, 48, rfl⟩
abbrev main_v26 : Ref sig .tc := ⟨.hbm, 49, rfl⟩
abbrev main_c_2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call2_cst : Ref sig .tc := ⟨.hbm, 65, rfl⟩
abbrev main_call2_v0 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_call3_cst : Ref sig .tc := ⟨.hbm, 72, rfl⟩
abbrev main_call3_v0 : Ref sig .tc := ⟨.hbm, 73, rfl⟩
abbrev main_v45 : Ref sig .tc := ⟨.hbm, 74, rfl⟩
abbrev main_cst_4 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_5 : Ref sig .tc := ⟨.hbm, 79, rfl⟩
abbrev main_v49 : Ref sig .tc := ⟨.hbm, 80, rfl⟩
abbrev main_cst_6 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_7 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_call4_cst : Ref sig .tc := ⟨.hbm, 95, rfl⟩
abbrev main_call4_v0 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_8 : Ref sig .tc := ⟨.hbm, 104, rfl⟩
abbrev main_v69 : Ref sig .tc := ⟨.hbm, 105, rfl⟩
abbrev main_v70 : Ref sig .tc := ⟨.hbm, 106, rfl⟩
abbrev main_cst_9 : Ref sig .tc := ⟨.hbm, 107, rfl⟩
abbrev main_v71 : Ref sig .tc := ⟨.hbm, 108, rfl⟩
abbrev main_v72 : Ref sig .tc := ⟨.hbm, 109, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  bcast_S6_S1x6_1 : S6.BroadcastsInDim S1x6 (![1] : Fin 1 → Fin S1x6.rank)
  bcast_S1x6_S512x6_0_1 : S1x6.BroadcastsInDim S512x6 (![0, 1] : Fin 2 → Fin S512x6.rank)
  bcast_S_S512x6 : S_.BroadcastsInDim S512x6 (![] : Fin 0 → Fin S512x6.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x128_S512x128_1_0_0_1_n_n_wf : DotDims.WF S512x128 S128x128 S512x128 [1] [0] [0] [1] [] []
  dot_S512x128_S128x6_S512x6_1_0_0_1_n_n_wf : DotDims.WF S512x128 S128x6 S512x6 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x6_S512x6_1_0_0_1_n_n : DotDims S512x128 S128x6 S512x6 where
  lhsContracting := [1]
  rhsContracting := [0]
  lhsNonContracting := [0]
  rhsNonContracting := [1]
  lhsBatch := []
  rhsBatch := []
  wf := dot_S512x128_S128x6_S512x6_1_0_0_1_n_n_wf

class Facts : Prop extends Facts₀ where

variable [Facts]
-- ==== Proof.KMlpTile.lean ====
/-
  The first kernel region: one tile of 5000 nodes through the two-layer perceptron.
  At a grid point the body reads the tile's rows of the node features and of the neighbour sums, the two weight
  matrices and the two bias rows, and stores relu(relu((x + a) · Wa + ba) · Wb + bb) over its whole output block.
  Nothing is kept between points, so what the output block holds after the body is one pure function of the
  seven blocks the point was handed (`tileOut`), and the region's proof data names exactly that.
-/
import proofs.«405799_j23536420782504_2_alg».proof.Proof.Gen.Kernel.Launch
import proofs.«405799_j23536420782504_2_alg».proof.Proof.Gen.Kernel.Skeleton
import proofs.«405799_j23536420782504_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles of a tile, of a weight matrix and of a bias row. -/
abbrev rTile : Rect S5000x128 := Rect.unit (s := S5000x128) ![0, 0] S5000x128.size inb_S5000x128_S5000x128_0_0
abbrev rMat : Rect S128x128 := Rect.unit (s := S128x128) ![0, 0] S128x128.size inb_S128x128_S128x128_0_0
abbrev rRow : Rect S1x128 := Rect.unit (s := S1x128) ![0, 0] S1x128.size inb_S1x128_S1x128_0_0

/-- What the body leaves in the output block: its one store, of the perceptron's value on the six blocks read. -/
def tileOut (x a : Vec F S5000x128 .f32) (wa : Vec F S128x128 .bf16) (ba : Vec F S1x128 .f32)
    (wb : Vec F S128x128 .bf16) (bb : Vec F S1x128 .f32) : Vec F S5000x128 .f32 :=
  View.canon [⟨rTile, k0_pay1 (View.ld x rTile) (View.ld a rTile) (View.ld wa rMat) (View.ld ba rRow) (View.ld wb rMat) (View.ld bb rRow)⟩]

theorem tile_cover (p0 : Vec F S5000x128 .f32) (y : S5000x128.Idx) :
    ∃ pc ∈ ([⟨rTile, p0⟩] : List (View.Piece (Elt F) S5000x128 .f32)), y ∈ pc.1.set :=
  View.cover_of_tiled [⟨rTile, p0⟩] S5000x128.size (by rfl) y

set_option maxHeartbeats 4000000 in
/-- The body on whole staging buffers: the six inputs keep their contents, the output ends at `tileOut`. -/
theorem body_run (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S128x128 .bf16) (harg5 : arg5.IsWhole) (arg6 : Memref sig .tc .vmem S1x128 .f32) (harg6 : arg6.IsWhole)
    (arg7 : Memref sig .tc .vmem S5000x128 .f32) (harg7 : arg7.IsWhole)
    (x a : Vec F S5000x128 .f32) (wa : Vec F S128x128 .bf16) (ba : Vec F S1x128 .f32) (wb : Vec F S128x128 .bf16) (bb : Vec F S1x128 .f32)
    (K : PUnit → sProp 𝕄) :
    iprop(owns (c : Thread nD τ) arg1 fullShare x ∗ owns (c : Thread nD τ) arg2 fullShare a
        ∗ owns (c : Thread nD τ) arg3 fullShare wa ∗ owns (c : Thread nD τ) arg4 fullShare ba
        ∗ owns (c : Thread nD τ) arg5 fullShare wb ∗ owns (c : Thread nD τ) arg6 fullShare bb
        ∗ (∃ d, owns (c : Thread nD τ) arg7 fullShare d)
        ∗ (iprop(owns (c : Thread nD τ) arg1 fullShare x ∗ owns (c : Thread nD τ) arg2 fullShare a
            ∗ owns (c : Thread nD τ) arg3 fullShare wa ∗ owns (c : Thread nD τ) arg4 fullShare ba
            ∗ owns (c : Thread nD τ) arg5 fullShare wb ∗ owns (c : Thread nD τ) arg6 fullShare bb
            ∗ owns (c : Thread nD τ) arg7 fullShare (tileOut x a wa ba wb bb)) -∗ K ⟨⟩))
      ⊢ wp frame (wpE (defs₀ (F := F)) Variants.none c none) E
          (cc0__gin_mlp_kernel i arg1 harg1 arg2 harg2 arg3 harg3 arg4 harg4 arg5 harg5 arg6 harg6 arg7 harg7) K := by
  simp only [cc0__gin_mlp_kernel_eq_skeleton]; unfold cc0__gin_mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact H7
  ipureintro
  exact View.read_writes_eq_canon _ _ _ (tile_cover _)

/-! ## The region's proof data -/

/-- Proof data of the first region on core `c`: the arrays as the region finds them; after the body each input
    block as fetched and the output block at `tileOut` of the six input blocks; the class's invariant (the scoped
    rest and the generator register, untouched); nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => tileOut (blk V c 0 t) (blk V c 1 t) (blk V c 2 t) (blk V c 3 t) (blk V c 4 t) (blk V c 5 t)
  Φ _ := Pipeline.ΦA spec0 c
  q _ := fullShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = blk V c 5 t := by dsimp only [dat]
theorem after_6 (c : Dev nD) (t : Fin cfg0.N) : (dat V c).after 6 t
    = tileOut (blk V c 0 t) (blk V c 1 t) (blk V c 2 t) (blk V c 3 t) (blk V c 4 t) (blk V c 5 t) := by dsimp only [dat]

/-! An input window's current buffer holds its block at every point, whether this point fetched it or an earlier
    one did: its block index has not moved since, the window is never cut and never idle. -/

theorem before_0 (c : Dev nD) (t : Fin cfg0.N) (d) : (dat V c).before 0 t d = blk V c 0 t :=
  ((dat V c).before_in_eq_fetched 0 rfl (fun _ => rfl) (fun _ _ _ => rfl)
      (fun t => by rw [after_0]; unfold Dat.blockOf blk; rw [dat_A]; try rfl) t d).trans
    (by unfold Dat.fetched Dat.blockOf blk; rw [dat_A]; try rfl)
theorem before_1 (c : Dev nD) (t : Fin cfg0.N) (d) : (dat V c).before 1 t d = blk V c 1 t :=
  ((dat V c).before_in_eq_fetched 1 rfl (fun _ => rfl) (fun _ _ _ => rfl)
      (fun t => by rw [after_1]; unfold Dat.blockOf blk; rw [dat_A]; try rfl) t d).trans
    (by unfold Dat.fetched Dat.blockOf blk; rw [dat_A]; try rfl)
theorem before_2 (c : Dev nD) (t : Fin cfg0.N) (d) : (dat V c).before 2 t d = blk V c 2 t :=
  ((dat V c).before_in_eq_fetched 2 rfl (fun _ => rfl) (fun _ _ _ => rfl)
      (fun t => by rw [after_2]; unfold Dat.blockOf blk; rw [dat_A]; try rfl) t d).trans
    (by unfold Dat.fetched Dat.blockOf blk; rw [dat_A]; try rfl)
theorem before_3 (c : Dev nD) (t : Fin cfg0.N) (d) : (dat V c).before 3 t d = blk V c 3 t :=
  ((dat V c).before_in_eq_fetched 3 rfl (fun _ => rfl) (fun _ _ _ => rfl)
      (fun t => by rw [after_3]; unfold Dat.blockOf blk; rw [dat_A]; try rfl) t d).trans
    (by unfold Dat.fetched Dat.blockOf blk; rw [dat_A]; try rfl)
theorem before_4 (c : Dev nD) (t : Fin cfg0.N) (d) : (dat V c).before 4 t d = blk V c 4 t :=
  ((dat V c).before_in_eq_fetched 4 rfl (fun _ => rfl) (fun _ _ _ => rfl)
      (fun t => by rw [after_4]; unfold Dat.blockOf blk; rw [dat_A]; try rfl) t d).trans
    (by unfold Dat.fetched Dat.blockOf blk; rw [dat_A]; try rfl)
theorem before_5 (c : Dev nD) (t : Fin cfg0.N) (d) : (dat V c).before 5 t d = blk V c 5 t :=
  ((dat V c).before_in_eq_fetched 5 rfl (fun _ => rfl) (fun _ _ _ => rfl)
      (fun t => by rw [after_5]; unfold Dat.blockOf blk; rw [dat_A]; try rfl) t d).trans
    (by unfold Dat.fetched Dat.blockOf blk; rw [dat_A]; try rfl)

/-! ## The body obligation -/

/-- At every point: the six inputs' buffers hold their blocks, so the body's run applies; the invariant and the
    core's dues pass through unread. -/
theorem obligation (c : Dev nD) : BodyObligation (dat (F := F) V c) (defs₀ (F := F)) Variants.none () Set.univ := fun t => by
  rw [bigSep_W0, bigSep_W0]
  show iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d))
      ∗ (∃ d, owns (c : Thread nD τ) (st0_2 t) fullShare ((dat V c).before 2 t d))
      ∗ (∃ d, owns (c : Thread nD τ) (st0_3 t) fullShare ((dat V c).before 3 t d))
      ∗ (∃ d, owns (c : Thread nD τ) (st0_4 t) fullShare ((dat V c).before 4 t d))
      ∗ (∃ d, owns (c : Thread nD τ) (st0_5 t) fullShare ((dat V c).before 5 t d))
      ∗ (∃ d, owns (c : Thread nD τ) (st0_6 t) fullShare ((dat V c).before 6 t d)))
    ⊢ wp frame (wpE (defs₀ (F := F)) Variants.none c none) Set.univ (bodyAt0 t) (fun _ =>
      iprop((dat V c).Φ t.succ ∗ (dat V c).owesAt () t.succ
        ∗ owns (c : Thread nD τ) (st0_0 t) fullShare ((dat V c).after 0 t)
        ∗ owns (c : Thread nD τ) (st0_1 t) fullShare ((dat V c).after 1 t)
        ∗ owns (c : Thread nD τ) (st0_2 t) fullShare ((dat V c).after 2 t)
        ∗ owns (c : Thread nD τ) (st0_3 t) fullShare ((dat V c).after 3 t)
        ∗ owns (c : Thread nD τ) (st0_4 t) fullShare ((dat V c).after 4 t)
        ∗ owns (c : Thread nD τ) (st0_5 t) fullShare ((dat V c).after 5 t)
        ∗ owns (c : Thread nD τ) (st0_6 t) fullShare ((dat V c).after 6 t)))
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  unfold bodyAt0
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_run c Set.univ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

end Cert.Kernel.Mlp

end
-- ==== Proof.KPoolStep.lean ====
import proofs.«405799_j23536420782504_2_alg».proof.Proof.Gen.Kernel.Launch
import proofs.«405799_j23536420782504_2_alg».proof.Proof.Gen.Kernel.Skeleton
import proofs.«405799_j23536420782504_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-!
  The second kernel region, one grid point: a tile of 2000 nodes goes through the second layer's perceptron, and its
  rows are added into two accumulators kept between points — per-graph sums (512 × 128) and per-graph counts (512 × 1) —
  as the product of the tile's one-hot graph-id matrix with the rows (with a column of ones, for the counts).
  At the first point the accumulators are zeroed before the update; at the last the output block is written:
  the pooled means through the classifier head and the sigmoid. At the other points the output block is left as found.
  Each of the three cases is one run of the body; what it leaves is stated over the body's own pure terms.
-/

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch is taken: the grid coordinate is zero (the condition as the body computes it). -/
abbrev atFirst (i : grid1.Coords) : Prop := (Scalar.cmpi .ne (Scalar.extui (Scalar.cmpi .eq (BitVec.ofNat 32 (i 0).val) 0#32)) 0#32) = 1#1
/-- The finalising branch is taken: the grid coordinate is the last. -/
abbrev atLast (i : grid1.Coords) : Prop := k1_cond2 i = 1#1

theorem zeros2 : (![0, 0] : Fin 2 → Nat) = fun _ => 0 := by funext a; fin_cases a <;> rfl

/-- A buffer whose last store covered its whole block reads back that store's payload, whatever came before. -/
theorem whole_store_read {S : Shape} {e : EltTy} {κ : Kind} {sp : Space} (hS : S.rank = 2 := by rfl)
    (v : View sig κ sp S e) (f : v.ty.Contents (Elt F)) {off : Fin S.rank → Nat} (hz : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self, View.mem_set_unit_zero hz inb y⟩)).trans
    (View.canon_cons_unit_zero hz inb w L)

/-- The tile's second-layer features and its one-hot id matrix, as the body computes them. -/
abbrev feat (x a : Vec F S2000x128 .f32) (wa : Vec F S128x128 .bf16) (ba : Vec F S1x128 .f32)
    (wb : Vec F S128x128 .bf16) (bb : Vec F S1x128 .f32) : FVec F S2000x128 .bf16 := k1_pay6 x a wa ba wb bb
abbrev onehot (b : Vec F S2000x1 .i32) : FVec F S2000x512 .bf16 := k1_pay7 b

set_option maxHeartbeats 8000000 in
/-- The first point: the accumulators, whatever they held, end at the update of their zeroed values; the output block
    is handed back as found. -/
theorem run_first (c : Dev nD) (E : Set ℕ) (i : grid1.Coords) (arg1 : Memref sig .tc .vmem S2000x128 .f32) (harg1 : arg1.IsWhole) (arg2 : Memref sig .tc .vmem S2000x128 .f32) (harg2 : arg2.IsWhole)
    (arg3 : Memref sig .tc .vmem S2000x1 .i32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S128x128 .bf16) (harg6 : arg6.IsWhole)
    (arg7 : Memref sig .tc .vmem S1x128 .f32) (harg7 : arg7.IsWhole) (arg8 : Memref sig .tc .vmem S128x128 .bf16) (harg8 : arg8.IsWhole)
    (arg9 : Memref sig .tc .vmem S1x128 .f32) (harg9 : arg9.IsWhole) (arg10 : Memref sig .tc .vmem S128x6 .bf16) (harg10 : arg10.IsWhole)
    (arg11 : Memref sig .tc .vmem S1x6 .f32) (harg11 : arg11.IsWhole) (arg12 : Memref sig .tc .vmem S512x6 .f32) (harg12 : arg12.IsWhole)
    (arg13 : Memref sig .tc .vmem S512x128 .f32) (harg13 : arg13.IsWhole) (arg14 : Memref sig .tc .vmem S512x1 .f32) (harg14 : arg14.IsWhole)
    (h0 : atFirst i) (h1 : ¬atLast i) (x a : Vec F S2000x128 .f32) (b : Vec F S2000x1 .i32) (wa : Vec F S128x128 .bf16) (ba : Vec F S1x128 .f32)
    (wb : Vec F S128x128 .bf16) (bb : Vec F S1x128 .f32) (wf1 : Vec F S128x128 .bf16) (bf1 : Vec F S1x128 .f32)
    (wf2 : Vec F S128x6 .bf16) (bf2 : Vec F S1x6 .f32) (o : Vec F S512x6 .f32)
    (K : PUnit → sProp 𝕄) :
    iprop(owns (c : Thread nD τ) arg1 fullShare x ∗ owns (c : Thread nD τ) arg2 fullShare a ∗ owns (c : Thread nD τ) arg3 fullShare b
        ∗ owns (c : Thread nD τ) arg4 fullShare wa ∗ owns (c : Thread nD τ) arg5 fullShare ba ∗ owns (c : Thread nD τ) arg6 fullShare wb ∗ owns (c : Thread nD τ) arg7 fullShare bb
        ∗ owns (c : Thread nD τ) arg8 fullShare wf1 ∗ owns (c : Thread nD τ) arg9 fullShare bf1 ∗ owns (c : Thread nD τ) arg10 fullShare wf2 ∗ owns (c : Thread nD τ) arg11 fullShare bf2
        ∗ owns (c : Thread nD τ) arg12 fullShare o
        ∗ (∃ d, owns (c : Thread nD τ) arg13 fullShare d) ∗ (∃ d, owns (c : Thread nD τ) arg14 fullShare d)
        ∗ (iprop(owns (c : Thread nD τ) arg1 fullShare x ∗ owns (c : Thread nD τ) arg2 fullShare a ∗ owns (c : Thread nD τ) arg3 fullShare b
            ∗ owns (c : Thread nD τ) arg4 fullShare wa ∗ owns (c : Thread nD τ) arg5 fullShare ba ∗ owns (c : Thread nD τ) arg6 fullShare wb ∗ owns (c : Thread nD τ) arg7 fullShare bb
            ∗ owns (c : Thread nD τ) arg8 fullShare wf1 ∗ owns (c : Thread nD τ) arg9 fullShare bf1 ∗ owns (c : Thread nD τ) arg10 fullShare wf2 ∗ owns (c : Thread nD τ) arg11 fullShare bf2
            ∗ owns (c : Thread nD τ) arg12 fullShare o
            ∗ owns (c : Thread nD τ) arg13 fullShare (k1_pay1 (feat x a wa ba wb bb) (onehot b) (k1_pay4 (F := F)))
            ∗ owns (c : Thread nD τ) arg14 fullShare (k1_pay2 (onehot b) (k1_pay5 (F := F)))) -∗ K ⟨⟩))
      ⊢ wp frame (wpE (defs₀ (F := F)) Variants.none c none) E
          (cc1__gin2_pool_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__gin2_pool_kernel_eq_skeleton]; unfold cc1__gin2_pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf1; subst hf2; subst hf3; subst hf4; subst hf5; subst hf6; subst hf7; subst hf8; subst hf9; subst hf10; subst hf11; subst hf12
  sl_exec (disch := first | exact h0 | exact h1)
  sl_step
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists f9; isplitr
    · ipureintro; rfl
    · iexact H9
  isplitl [H10]
  · iexists f10; isplitr
    · ipureintro; rfl
    · iexact H10
  isplitl [H11]
  · iexists f11; isplitr
    · ipureintro; rfl
    · iexact H11
  isplitl [H12]
  · iexists f12; isplitr
    · ipureintro; rfl
    · iexact H12
  isplitl [H13]
  · iexists _; isplitr
    swap; · iexact H13
    ipureintro
    sl_unfold_words
    rw [whole_store_read rfl _ _ zeros2]
    simp only [View.readAt_eq_ld, View.ld_unit_zero (S := S2000x128) zeros2, View.ld_unit_zero (S := S128x128) zeros2, View.ld_unit_zero (S := S1x128) zeros2, View.ld_unit_zero (S := S2000x1) zeros2, View.ld_unit_zero (S := S512x128) zeros2, View.ld_unit_zero (S := S512x1) zeros2, View.ld_unit_zero (S := S128x6) zeros2, View.ld_unit_zero (S := S1x6) zeros2, View.ld_unit_zero (S := S512x6) zeros2, View.readCov_unit_zero (S := S512x128) _ zeros2, View.readCov_unit_zero (S := S512x1) _ zeros2]
  · iexists _; isplitr
    swap; · iexact H14
    ipureintro
    sl_unfold_words
    rw [whole_store_read rfl _ _ zeros2]
    simp only [View.readAt_eq_ld, View.ld_unit_zero (S := S2000x128) zeros2, View.ld_unit_zero (S := S128x128) zeros2, View.ld_unit_zero (S := S1x128) zeros2, View.ld_unit_zero (S := S2000x1) zeros2, View.ld_unit_zero (S := S512x128) zeros2, View.ld_unit_zero (S := S512x1) zeros2, View.ld_unit_zero (S := S128x6) zeros2, View.ld_unit_zero (S := S1x6) zeros2, View.ld_unit_zero (S := S512x6) zeros2, View.readCov_unit_zero (S := S512x128) _ zeros2, View.readCov_unit_zero (S := S512x1) _ zeros2]

set_option maxHeartbeats 8000000 in
/-- A middle point: the accumulators go from `S`, `C` to their updates by this tile; the output block is handed back
    as found. -/
theorem run_mid (c : Dev nD) (E : Set ℕ) (i : grid1.Coords) (arg1 : Memref sig .tc .vmem S2000x128 .f32) (harg1 : arg1.IsWhole) (arg2 : Memref sig .tc .vmem S2000x128 .f32) (harg2 : arg2.IsWhole)
    (arg3 : Memref sig .tc .vmem S2000x1 .i32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S128x128 .bf16) (harg6 : arg6.IsWhole)
    (arg7 : Memref sig .tc .vmem S1x128 .f32) (harg7 : arg7.IsWhole) (arg8 : Memref sig .tc .vmem S128x128 .bf16) (harg8 : arg8.IsWhole)
    (arg9 : Memref sig .tc .vmem S1x128 .f32) (harg9 : arg9.IsWhole) (arg10 : Memref sig .tc .vmem S128x6 .bf16) (harg10 : arg10.IsWhole)
    (arg11 : Memref sig .tc .vmem S1x6 .f32) (harg11 : arg11.IsWhole) (arg12 : Memref sig .tc .vmem S512x6 .f32) (harg12 : arg12.IsWhole)
    (arg13 : Memref sig .tc .vmem S512x128 .f32) (harg13 : arg13.IsWhole) (arg14 : Memref sig .tc .vmem S512x1 .f32) (harg14 : arg14.IsWhole)
    (h0 : ¬atFirst i) (h1 : ¬atLast i) (x a : Vec F S2000x128 .f32) (b : Vec F S2000x1 .i32) (wa : Vec F S128x128 .bf16) (ba : Vec F S1x128 .f32)
    (wb : Vec F S128x128 .bf16) (bb : Vec F S1x128 .f32) (wf1 : Vec F S128x128 .bf16) (bf1 : Vec F S1x128 .f32)
    (wf2 : Vec F S128x6 .bf16) (bf2 : Vec F S1x6 .f32) (o : Vec F S512x6 .f32)
    (S : Vec F S512x128 .f32) (C : Vec F S512x1 .f32)
    (K : PUnit → sProp 𝕄) :
    iprop(owns (c : Thread nD τ) arg1 fullShare x ∗ owns (c : Thread nD τ) arg2 fullShare a ∗ owns (c : Thread nD τ) arg3 fullShare b
        ∗ owns (c : Thread nD τ) arg4 fullShare wa ∗ owns (c : Thread nD τ) arg5 fullShare ba ∗ owns (c : Thread nD τ) arg6 fullShare wb ∗ owns (c : Thread nD τ) arg7 fullShare bb
        ∗ owns (c : Thread nD τ) arg8 fullShare wf1 ∗ owns (c : Thread nD τ) arg9 fullShare bf1 ∗ owns (c : Thread nD τ) arg10 fullShare wf2 ∗ owns (c : Thread nD τ) arg11 fullShare bf2
        ∗ owns (c : Thread nD τ) arg12 fullShare o
        ∗ owns (c : Thread nD τ) arg13 fullShare S ∗ owns (c : Thread nD τ) arg14 fullShare C
        ∗ (iprop(owns (c : Thread nD τ) arg1 fullShare x ∗ owns (c : Thread nD τ) arg2 fullShare a ∗ owns (c : Thread nD τ) arg3 fullShare b
            ∗ owns (c : Thread nD τ) arg4 fullShare wa ∗ owns (c : Thread nD τ) arg5 fullShare ba ∗ owns (c : Thread nD τ) arg6 fullShare wb ∗ owns (c : Thread nD τ) arg7 fullShare bb
            ∗ owns (c : Thread nD τ) arg8 fullShare wf1 ∗ owns (c : Thread nD τ) arg9 fullShare bf1 ∗ owns (c : Thread nD τ) arg10 fullShare wf2 ∗ owns (c : Thread nD τ) arg11 fullShare bf2
            ∗ owns (c : Thread nD τ) arg12 fullShare o
            ∗ owns (c : Thread nD τ) arg13 fullShare (k1_pay1 (feat x a wa ba wb bb) (onehot b) S)
            ∗ owns (c : Thread nD τ) arg14 fullShare (k1_pay2 (onehot b) C)) -∗ K ⟨⟩))
      ⊢ wp frame (wpE (defs₀ (F := F)) Variants.none c none) E
          (cc1__gin2_pool_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__gin2_pool_kernel_eq_skeleton]; unfold cc1__gin2_pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf1; subst hf2; subst hf3; subst hf4; subst hf5; subst hf6; subst hf7; subst hf8; subst hf9; subst hf10; subst hf11; subst hf12; subst hf13; subst hf14
  sl_exec (disch := first | exact h0 | exact h1)
  sl_step
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists f9; isplitr
    · ipureintro; rfl
    · iexact H9
  isplitl [H10]
  · iexists f10; isplitr
    · ipureintro; rfl
    · iexact H10
  isplitl [H11]
  · iexists f11; isplitr
    · ipureintro; rfl
    · iexact H11
  isplitl [H12]
  · iexists f12; isplitr
    · ipureintro; rfl
    · iexact H12
  isplitl [H13]
  · iexists _; isplitr
    swap; · iexact H13
    ipureintro
    sl_unfold_words
    rw [whole_store_read rfl _ _ zeros2]
    simp only [View.readAt_eq_ld, View.ld_unit_zero (S := S2000x128) zeros2, View.ld_unit_zero (S := S128x128) zeros2, View.ld_unit_zero (S := S1x128) zeros2, View.ld_unit_zero (S := S2000x1) zeros2, View.ld_unit_zero (S := S512x128) zeros2, View.ld_unit_zero (S := S512x1) zeros2, View.ld_unit_zero (S := S128x6) zeros2, View.ld_unit_zero (S := S1x6) zeros2, View.ld_unit_zero (S := S512x6) zeros2, View.readCov_unit_zero (S := S512x128) _ zeros2, View.readCov_unit_zero (S := S512x1) _ zeros2]
  · iexists _; isplitr
    swap; · iexact H14
    ipureintro
    sl_unfold_words
    rw [whole_store_read rfl _ _ zeros2]
    simp only [View.readAt_eq_ld, View.ld_unit_zero (S := S2000x128) zeros2, View.ld_unit_zero (S := S128x128) zeros2, View.ld_unit_zero (S := S1x128) zeros2, View.ld_unit_zero (S := S2000x1) zeros2, View.ld_unit_zero (S := S512x128) zeros2, View.ld_unit_zero (S := S512x1) zeros2, View.ld_unit_zero (S := S128x6) zeros2, View.ld_unit_zero (S := S1x6) zeros2, View.ld_unit_zero (S := S512x6) zeros2, View.readCov_unit_zero (S := S512x128) _ zeros2, View.readCov_unit_zero (S := S512x1) _ zeros2]

set_option maxHeartbeats 8000000 in
/-- The last point: the accumulators are updated as at a middle point, and the output block, whatever it held, ends at
    the pooled means through the head and the sigmoid, computed from the UPDATED accumulators. -/
theorem run_last (c : Dev nD) (E : Set ℕ) (i : grid1.Coords) (arg1 : Memref sig .tc .vmem S2000x128 .f32) (harg1 : arg1.IsWhole) (arg2 : Memref sig .tc .vmem S2000x128 .f32) (harg2 : arg2.IsWhole)
    (arg3 : Memref sig .tc .vmem S2000x1 .i32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S128x128 .bf16) (harg6 : arg6.IsWhole)
    (arg7 : Memref sig .tc .vmem S1x128 .f32) (harg7 : arg7.IsWhole) (arg8 : Memref sig .tc .vmem S128x128 .bf16) (harg8 : arg8.IsWhole)
    (arg9 : Memref sig .tc .vmem S1x128 .f32) (harg9 : arg9.IsWhole) (arg10 : Memref sig .tc .vmem S128x6 .bf16) (harg10 : arg10.IsWhole)
    (arg11 : Memref sig .tc .vmem S1x6 .f32) (harg11 : arg11.IsWhole) (arg12 : Memref sig .tc .vmem S512x6 .f32) (harg12 : arg12.IsWhole)
    (arg13 : Memref sig .tc .vmem S512x128 .f32) (harg13 : arg13.IsWhole) (arg14 : Memref sig .tc .vmem S512x1 .f32) (harg14 : arg14.IsWhole)
    (h0 : ¬atFirst i) (h1 : atLast i) (x a : Vec F S2000x128 .f32) (b : Vec F S2000x1 .i32) (wa : Vec F S128x128 .bf16) (ba : Vec F S1x128 .f32)
    (wb : Vec F S128x128 .bf16) (bb : Vec F S1x128 .f32) (wf1 : Vec F S128x128 .bf16) (bf1 : Vec F S1x128 .f32)
    (wf2 : Vec F S128x6 .bf16) (bf2 : Vec F S1x6 .f32)
    (S : Vec F S512x128 .f32) (C : Vec F S512x1 .f32)
    (K : PUnit → sProp 𝕄) :
    iprop(owns (c : Thread nD τ) arg1 fullShare x ∗ owns (c : Thread nD τ) arg2 fullShare a ∗ owns (c : Thread nD τ) arg3 fullShare b
        ∗ owns (c : Thread nD τ) arg4 fullShare wa ∗ owns (c : Thread nD τ) arg5 fullShare ba ∗ owns (c : Thread nD τ) arg6 fullShare wb ∗ owns (c : Thread nD τ) arg7 fullShare bb
        ∗ owns (c : Thread nD τ) arg8 fullShare wf1 ∗ owns (c : Thread nD τ) arg9 fullShare bf1 ∗ owns (c : Thread nD τ) arg10 fullShare wf2 ∗ owns (c : Thread nD τ) arg11 fullShare bf2
        ∗ (∃ d, owns (c : Thread nD τ) arg12 fullShare d)
        ∗ owns (c : Thread nD τ) arg13 fullShare S ∗ owns (c : Thread nD τ) arg14 fullShare C
        ∗ (iprop(owns (c : Thread nD τ) arg1 fullShare x ∗ owns (c : Thread nD τ) arg2 fullShare a ∗ owns (c : Thread nD τ) arg3 fullShare b
            ∗ owns (c : Thread nD τ) arg4 fullShare wa ∗ owns (c : Thread nD τ) arg5 fullShare ba ∗ owns (c : Thread nD τ) arg6 fullShare wb ∗ owns (c : Thread nD τ) arg7 fullShare bb
            ∗ owns (c : Thread nD τ) arg8 fullShare wf1 ∗ owns (c : Thread nD τ) arg9 fullShare bf1 ∗ owns (c : Thread nD τ) arg10 fullShare wf2 ∗ owns (c : Thread nD τ) arg11 fullShare bf2
            ∗ owns (c : Thread nD τ) arg12 fullShare (k1_pay3 (k1_pay1 (feat x a wa ba wb bb) (onehot b) S) (k1_pay2 (onehot b) C) wf1 bf1 wf2 bf2)
            ∗ owns (c : Thread nD τ) arg13 fullShare (k1_pay1 (feat x a wa ba wb bb) (onehot b) S)
            ∗ owns (c : Thread nD τ) arg14 fullShare (k1_pay2 (onehot b) C)) -∗ K ⟨⟩))
      ⊢ wp frame (wpE (defs₀ (F := F)) Variants.none c none) E
          (cc1__gin2_pool_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__gin2_pool_kernel_eq_skeleton]; unfold cc1__gin2_pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, Hk⟩
  subst hf1; subst hf2; subst hf3; subst hf4; subst hf5; subst hf6; subst hf7; subst hf8; subst hf9; subst hf10; subst hf11; subst hf13; subst hf14
  sl_exec (disch := first | exact h0 | exact h1)
  sl_step
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists f9; isplitr
    · ipureintro; rfl
    · iexact H9
  isplitl [H10]
  · iexists f10; isplitr
    · ipureintro; rfl
    · iexact H10
  isplitl [H11]
  · iexists f11; isplitr
    · ipureintro; rfl
    · iexact H11
  isplitl [H12]
  · iexists _; isplitr
    swap; · iexact H12
    ipureintro
    sl_unfold_words
    rw [whole_store_read rfl _ _ zeros2]
    simp only [View.readAt_eq_ld, View.ld_unit_zero (S := S2000x128) zeros2, View.ld_unit_zero (S := S128x128) zeros2, View.ld_unit_zero (S := S1x128) zeros2, View.ld_unit_zero (S := S2000x1) zeros2, View.ld_unit_zero (S := S512x128) zeros2, View.ld_unit_zero (S := S512x1) zeros2, View.ld_unit_zero (S := S128x6) zeros2, View.ld_unit_zero (S := S1x6) zeros2, View.ld_unit_zero (S := S512x6) zeros2, View.readCov_unit_zero (S := S512x128) _ zeros2, View.readCov_unit_zero (S := S512x1) _ zeros2]
  isplitl [H13]
  · iexists _; isplitr
    swap; · iexact H13
    ipureintro
    sl_unfold_words
    rw [whole_store_read rfl _ _ zeros2]
    simp only [View.readAt_eq_ld, View.ld_unit_zero (S := S2000x128) zeros2, View.ld_unit_zero (S := S128x128) zeros2, View.ld_unit_zero (S := S1x128) zeros2, View.ld_unit_zero (S := S2000x1) zeros2, View.ld_unit_zero (S := S512x128) zeros2, View.ld_unit_zero (S := S512x1) zeros2, View.ld_unit_zero (S := S128x6) zeros2, View.ld_unit_zero (S := S1x6) zeros2, View.ld_unit_zero (S := S512x6) zeros2, View.readCov_unit_zero (S := S512x128) _ zeros2, View.readCov_unit_zero (S := S512x1) _ zeros2]
  · iexists _; isplitr
    swap; · iexact H14
    ipureintro
    sl_unfold_words
    rw [whole_store_read rfl _ _ zeros2]
    simp only [View.readAt_eq_ld, View.ld_unit_zero (S := S2000x128) zeros2, View.ld_unit_zero (S := S128x128) zeros2, View.ld_unit_zero (S := S1x128) zeros2, View.ld_unit_zero (S := S2000x1) zeros2, View.ld_unit_zero (S := S512x128) zeros2, View.ld_unit_zero (S := S512x1) zeros2, View.ld_unit_zero (S := S128x6) zeros2, View.ld_unit_zero (S := S1x6) zeros2, View.ld_unit_zero (S := S512x6) zeros2, View.readCov_unit_zero (S := S512x128) _ zeros2, View.readCov_unit_zero (S := S512x1) _ zeros2]

end Cert.Kernel.Pool

end
-- ==== Proof.KPoolData.lean ====
import proofs.«405799_j23536420782504_2_alg».proof.Proof.Gen.Kernel.Launch
import proofs.«405799_j23536420782504_2_alg».proof.Proof.Gen.Kernel.Skeleton
import proofs.«405799_j23536420782504_2_alg».proof.Proof.Gen.Kernel.Points
import proofs.«405799_j23536420782504_2_alg».proof.Proof.KPoolStep
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-!
  The second kernel region over its 25 grid points: what the two accumulators hold after each point, by recursion on the
  point (zeroed and updated by tile 0 at the first, updated by tile n from what point n − 1 left afterwards); the region's
  invariant, which carries exactly those contents from one point to the next; and the body's obligation at every point,
  by the three cases of the body's run.
-/

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Tile `t`'s second-layer features and one-hot id matrix, from the region's arrays. -/
abbrev featAt (c : Dev nD) (t : Fin cfg1.N) : FVec F S2000x128 .bf16 :=
  feat (blk V c 0 t) (blk V c 1 t) (blk V c 3 t) (blk V c 4 t) (blk V c 5 t) (blk V c 6 t)
abbrev hotAt (c : Dev nD) (t : Fin cfg1.N) : FVec F S2000x512 .bf16 := onehot (blk V c 2 t)

/-- The accumulators (sums, counts) after point `n`. -/
def accAt (c : Dev nD) : (n : ℕ) → n < cfg1.N → Vec F S512x128 .f32 × Vec F S512x1 .f32
  | 0, h => (k1_pay1 (featAt V c ⟨0, h⟩) (hotAt V c ⟨0, h⟩) (k1_pay4 (F := F)), k1_pay2 (hotAt V c ⟨0, h⟩) (k1_pay5 (F := F)))
  | n + 1, h => (k1_pay1 (featAt V c ⟨n + 1, h⟩) (hotAt V c ⟨n + 1, h⟩) (accAt c n (Nat.lt_of_succ_lt h)).1,
      k1_pay2 (hotAt V c ⟨n + 1, h⟩) (accAt c n (Nat.lt_of_succ_lt h)).2)

theorem accAt_first (c : Dev nD) (t : Fin cfg1.N) (hz : t.val = 0) :
    accAt V c t.val t.isLt = (k1_pay1 (featAt V c t) (hotAt V c t) (k1_pay4 (F := F)), k1_pay2 (hotAt V c t) (k1_pay5 (F := F))) := by
  obtain ⟨n, hn⟩ := t; cases n with
  | zero => rfl
  | succ n => exact absurd hz (Nat.succ_ne_zero n)

theorem accAt_next (c : Dev nD) (t : Fin cfg1.N) (hz : t.val ≠ 0) :
    accAt V c t.val t.isLt = (k1_pay1 (featAt V c t) (hotAt V c t) (accAt V c (t.val - 1) (by omega)).1,
      k1_pay2 (hotAt V c t) (accAt V c (t.val - 1) (by omega)).2) := by
  obtain ⟨n, hn⟩ := t; cases n with
  | zero => exact absurd rfl hz
  | succ n => rfl

/-- What the last point stores into the output block (at an earlier point: a value nothing consults). -/
def outAt (c : Dev nD) (t : Fin cfg1.N) : Vec F S512x6 .f32 :=
  k1_pay3 (accAt V c t.val t.isLt).1 (accAt V c t.val t.isLt).2 (blk V c 7 t) (blk V c 8 t) (blk V c 9 t) (blk V c 10 t)

/-! ## The invariant -/

abbrev scSum : Memref sig .tc .vmem S512x128 .f32 := Memref.whole cc1_scratch0
abbrev scCnt : Memref sig .tc .vmem S512x1 .f32 := Memref.whole cc1_scratch1

/-- The core's scoped buffers that this region stages nothing in: the first region's ten staging buffers at anything,
    then the two accumulators as `P`, `P'` say. -/
def heldScoped (c : Dev nD) (P P' : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ P ∗ P')

theorem PhiA_eq (c : Dev nD) :
    (Pipeline.ΦA spec1 c : sProp 𝕄)
      = iprop(heldScoped c (iprop(∃ d, owns (c : Thread nD τ) scSum fullShare d)) (iprop(∃ d, owns (c : Thread nD τ) scCnt fullShare d)) ∗ (∃ r, prngReg c r)) := by
  unfold Pipeline.ΦA heldScoped; rw [scopedRest1_eq]; simp only [scSum, scCnt, owns_whole]; try rfl

/-- Before point `n`: the class's invariant before the first; afterwards the accumulators at what point `n − 1` left. -/
def PhiS (c : Dev nD) : (n : ℕ) → n ≤ cfg1.N → sProp 𝕄
  | 0, _ => Pipeline.ΦA spec1 c
  | n + 1, hn => iprop(heldScoped c (owns (c : Thread nD τ) scSum fullShare (accAt V c n hn).1)
      (owns (c : Thread nD τ) scCnt fullShare (accAt V c n hn).2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(heldScoped c (owns (c : Thread nD τ) scSum fullShare (accAt V c n hn).1)
      (owns (c : Thread nD τ) scCnt fullShare (accAt V c n hn).2) ∗ (∃ r, prngReg c r)) := rfl
theorem PhiS_pos (c : Dev nD) (n : ℕ) (h : n ≤ cfg1.N) (hz : n ≠ 0) :
    PhiS V c n h = iprop(heldScoped c (owns (c : Thread nD τ) scSum fullShare (accAt V c (n - 1) (by omega)).1)
      (owns (c : Thread nD τ) scCnt fullShare (accAt V c (n - 1) (by omega)).2) ∗ (∃ r, prngReg c r)) := by
  cases n with
  | zero => exact absurd rfl hz
  | succ n => rfl

/-! ## The region's proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => outAt V c t
  Φ t := PhiS V c t.val (Nat.le_of_lt_succ t.isLt)
  q _ := fullShare
  owed _ := 0

theorem dat_A (c : Dev nD) (w : Fin cfg1.W) : (dat V c).A w = V c (Pipeline.arrRef spec1 w) := by
  dsimp only [dat]
theorem Phi_castSucc (c : Dev nD) (t : Fin cfg1.N) : (dat V c).Φ t.castSucc = PhiS V c t.val (Nat.le_of_lt t.isLt) := by
  dsimp only [dat]; simp only [Fin.coe_castSucc]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_6 (c : Dev nD) (t : Fin cfg1.N) : (dat V c).after 6 t = blk V c 6 t := by dsimp only [dat]
theorem after_7 (c : Dev nD) (t : Fin cfg1.N) : (dat V c).after 7 t = blk V c 7 t := by dsimp only [dat]
theorem after_8 (c : Dev nD) (t : Fin cfg1.N) : (dat V c).after 8 t = blk V c 8 t := by dsimp only [dat]
theorem after_9 (c : Dev nD) (t : Fin cfg1.N) : (dat V c).after 9 t = blk V c 9 t := by dsimp only [dat]
theorem after_10 (c : Dev nD) (t : Fin cfg1.N) : (dat V c).after 10 t = blk V c 10 t := by dsimp only [dat]
theorem after_11 (c : Dev nD) (t : Fin cfg1.N) : (dat V c).after 11 t = outAt V c t := by dsimp only [dat]

/-! An input window's current buffer holds its block at every point, whether this point fetched it or an earlier
    one did: its block index has not moved since, the window is never cut and never idle. -/
theorem before_0 (c : Dev nD) (t : Fin cfg1.N) (d) : (dat V c).before 0 t d = blk V c 0 t :=
  ((dat V c).before_in_eq_fetched 0 rfl (fun _ => rfl) (fun _ _ _ => rfl)
      (fun t => by rw [after_0]; unfold Dat.blockOf blk; rw [dat_A]; try rfl) t d).trans
    (by unfold Dat.fetched Dat.blockOf blk; rw [dat_A]; try rfl)
theorem before_1 (c : Dev nD) (t : Fin cfg1.N) (d) : (dat V c).before 1 t d = blk V c 1 t :=
  ((dat V c).before_in_eq_fetched 1 rfl (fun _ => rfl) (fun _ _ _ => rfl)
      (fun t => by rw [after_1]; unfold Dat.blockOf blk; rw [dat_A]; try rfl) t d).trans
    (by unfold Dat.fetched Dat.blockOf blk; rw [dat_A]; try rfl)
theorem before_2 (c : Dev nD) (t : Fin cfg1.N) (d) : (dat V c).before 2 t d = blk V c 2 t :=
  ((dat V c).before_in_eq_fetched 2 rfl (fun _ => rfl) (fun _ _ _ => rfl)
      (fun t => by rw [after_2]; unfold Dat.blockOf blk; rw [dat_A]; try rfl) t d).trans
    (by unfold Dat.fetched Dat.blockOf blk; rw [dat_A]; try rfl)
theorem before_3 (c : Dev nD) (t : Fin cfg1.N) (d) : (dat V c).before 3 t d = blk V c 3 t :=
  ((dat V c).before_in_eq_fetched 3 rfl (fun _ => rfl) (fun _ _ _ => rfl)
      (fun t => by rw [after_3]; unfold Dat.blockOf blk; rw [dat_A]; try rfl) t d).trans
    (by unfold Dat.fetched Dat.blockOf blk; rw [dat_A]; try rfl)
theorem before_4 (c : Dev nD) (t : Fin cfg1.N) (d) : (dat V c).before 4 t d = blk V c 4 t :=
  ((dat V c).before_in_eq_fetched 4 rfl (fun _ => rfl) (fun _ _ _ => rfl)
      (fun t => by rw [after_4]; unfold Dat.blockOf blk; rw [dat_A]; try rfl) t d).trans
    (by unfold Dat.fetched Dat.blockOf blk; rw [dat_A]; try rfl)
theorem before_5 (c : Dev nD) (t : Fin cfg1.N) (d) : (dat V c).before 5 t d = blk V c 5 t :=
  ((dat V c).before_in_eq_fetched 5 rfl (fun _ => rfl) (fun _ _ _ => rfl)
      (fun t => by rw [after_5]; unfold Dat.blockOf blk; rw [dat_A]; try rfl) t d).trans
    (by unfold Dat.fetched Dat.blockOf blk; rw [dat_A]; try rfl)
theorem before_6 (c : Dev nD) (t : Fin cfg1.N) (d) : (dat V c).before 6 t d = blk V c 6 t :=
  ((dat V c).before_in_eq_fetched 6 rfl (fun _ => rfl) (fun _ _ _ => rfl)
      (fun t => by rw [after_6]; unfold Dat.blockOf blk; rw [dat_A]; try rfl) t d).trans
    (by unfold Dat.fetched Dat.blockOf blk; rw [dat_A]; try rfl)
theorem before_7 (c : Dev nD) (t : Fin cfg1.N) (d) : (dat V c).before 7 t d = blk V c 7 t :=
  ((dat V c).before_in_eq_fetched 7 rfl (fun _ => rfl) (fun _ _ _ => rfl)
      (fun t => by rw [after_7]; unfold Dat.blockOf blk; rw [dat_A]; try rfl) t d).trans
    (by unfold Dat.fetched Dat.blockOf blk; rw [dat_A]; try rfl)
theorem before_8 (c : Dev nD) (t : Fin cfg1.N) (d) : (dat V c).before 8 t d = blk V c 8 t :=
  ((dat V c).before_in_eq_fetched 8 rfl (fun _ => rfl) (fun _ _ _ => rfl)
      (fun t => by rw [after_8]; unfold Dat.blockOf blk; rw [dat_A]; try rfl) t d).trans
    (by unfold Dat.fetched Dat.blockOf blk; rw [dat_A]; try rfl)
theorem before_9 (c : Dev nD) (t : Fin cfg1.N) (d) : (dat V c).before 9 t d = blk V c 9 t :=
  ((dat V c).before_in_eq_fetched 9 rfl (fun _ => rfl) (fun _ _ _ => rfl)
      (fun t => by rw [after_9]; unfold Dat.blockOf blk; rw [dat_A]; try rfl) t d).trans
    (by unfold Dat.fetched Dat.blockOf blk; rw [dat_A]; try rfl)
theorem before_10 (c : Dev nD) (t : Fin cfg1.N) (d) : (dat V c).before 10 t d = blk V c 10 t :=
  ((dat V c).before_in_eq_fetched 10 rfl (fun _ => rfl) (fun _ _ _ => rfl)
      (fun t => by rw [after_10]; unfold Dat.blockOf blk; rw [dat_A]; try rfl) t d).trans
    (by unfold Dat.fetched Dat.blockOf blk; rw [dat_A]; try rfl)

/-! ## The two conditions over the grid -/

theorem hFirst : ∀ t : Fin cfg1.N, atFirst (grid1.coords t) ↔ t.val = 0 :=
  (by decide +kernel : ∀ t : Fin grid1.N, atFirst (grid1.coords t) ↔ t.val = 0)
theorem hLast : ∀ t : Fin cfg1.N, atLast (grid1.coords t) ↔ t.val = 24 :=
  (by decide +kernel : ∀ t : Fin grid1.N, atLast (grid1.coords t) ↔ t.val = 24)
theorem idle11 : ∀ t : Fin cfg1.N, ¬atLast (grid1.coords t) → cfg1.idle 11 (grid1.coords t) = true := by decide +kernel
theorem noFlush11 : ∀ t : Fin cfg1.N, ¬atLast (grid1.coords t) → (cfg1.win 11).flush t = false := by decide +kernel
theorem live11 : ∀ t : Fin cfg1.N, atLast (grid1.coords t) → cfg1.idle 11 (grid1.coords t) = false := by decide +kernel

/-! ## The body obligation -/

set_option maxHeartbeats 4000000 in
theorem obligation (c : Dev nD) : BodyObligation (dat (F := F) V c) (defs₀ (F := F)) Variants.none () Set.univ := fun t => by
  rw [bigSep_W1, bigSep_W1]
  show iprop((dat V c).Φ t.castSucc ∗ (dat V c).owesAt () t.castSucc
      ∗ (∃ d, owns (c : Thread nD τ) (st1_0 t) fullShare ((dat V c).before 0 t d))
      ∗ (∃ d, owns (c : Thread nD τ) (st1_1 t) fullShare ((dat V c).before 1 t d))
      ∗ (∃ d, owns (c : Thread nD τ) (st1_2 t) fullShare ((dat V c).before 2 t d))
      ∗ (∃ d, owns (c : Thread nD τ) (st1_3 t) fullShare ((dat V c).before 3 t d))
      ∗ (∃ d, owns (c : Thread nD τ) (st1_4 t) fullShare ((dat V c).before 4 t d))
      ∗ (∃ d, owns (c : Thread nD τ) (st1_5 t) fullShare ((dat V c).before 5 t d))
      ∗ (∃ d, owns (c : Thread nD τ) (st1_6 t) fullShare ((dat V c).before 6 t d))
      ∗ (∃ d, owns (c : Thread nD τ) (st1_7 t) fullShare ((dat V c).before 7 t d))
      ∗ (∃ d, owns (c : Thread nD τ) (st1_8 t) fullShare ((dat V c).before 8 t d))
      ∗ (∃ d, owns (c : Thread nD τ) (st1_9 t) fullShare ((dat V c).before 9 t d))
      ∗ (∃ d, owns (c : Thread nD τ) (st1_10 t) fullShare ((dat V c).before 10 t d))
      ∗ (∃ d, owns (c : Thread nD τ) (st1_11 t) fullShare ((dat V c).before 11 t d)))
    ⊢ wp frame (wpE (defs₀ (F := F)) Variants.none c none) Set.univ (bodyAt1 t) (fun _ =>
      iprop((dat V c).Φ t.succ ∗ (dat V c).owesAt () t.succ
        ∗ owns (c : Thread nD τ) (st1_0 t) fullShare ((dat V c).after 0 t)
        ∗ owns (c : Thread nD τ) (st1_1 t) fullShare ((dat V c).after 1 t)
        ∗ owns (c : Thread nD τ) (st1_2 t) fullShare ((dat V c).after 2 t)
        ∗ owns (c : Thread nD τ) (st1_3 t) fullShare ((dat V c).after 3 t)
        ∗ owns (c : Thread nD τ) (st1_4 t) fullShare ((dat V c).after 4 t)
        ∗ owns (c : Thread nD τ) (st1_5 t) fullShare ((dat V c).after 5 t)
        ∗ owns (c : Thread nD τ) (st1_6 t) fullShare ((dat V c).after 6 t)
        ∗ owns (c : Thread nD τ) (st1_7 t) fullShare ((dat V c).after 7 t)
        ∗ owns (c : Thread nD τ) (st1_8 t) fullShare ((dat V c).after 8 t)
        ∗ owns (c : Thread nD τ) (st1_9 t) fullShare ((dat V c).after 9 t)
        ∗ owns (c : Thread nD τ) (st1_10 t) fullShare ((dat V c).after 10 t)
        ∗ (dat V c).leavesExact 11 t))
  simp only [before_0, before_1, before_2, before_3, before_4, before_5, before_6, before_7, before_8, before_9, before_10]
  rw [show (dat V c).owesAt () t.succ = (dat V c).owesAt () t.castSucc from rfl,
    show (dat V c).Φ t.succ = PhiS V c (t.val + 1) t.isLt from rfl, PhiS_succ,
    after_0, after_1, after_2, after_3, after_4, after_5, after_6, after_7, after_8, after_9, after_10]
  unfold bodyAt1
  have hN : t.val < 25 := lt_of_lt_of_eq t.isLt (show cfg1.N = 25 from N_1)
  by_cases hz : t.val = 0
  · have hl : ¬t.val = 24 := by omega
    rw [Dat.leavesExact_idle (dat V c) 11 t (idle11 t (fun h => hl ((hLast t).mp h))) (noFlush11 t (fun h => hl ((hLast t).mp h)))]
    rw [accAt_first V c t hz]
    (try dsimp only)
    rw [Phi_castSucc V c t, PhiS_zero V c _ _ hz, PhiA_eq]
    unfold heldScoped
    iintro ⟨⟨⟨R0, R1, R2, R3, R4, R5, R6, R7, R8, R9, HS, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_first c Set.univ (grid1.coords t) _ _ _ _ _ _ _ _ _ _ _ _ _ _ _ _ _ _ _ _ _ _ _ _ _ _ _ _ ((hFirst t).mpr hz) (fun h => hl ((hLast t).mp h)) (blk V c 0 t) (blk V c 1 t) (blk V c 2 t) (blk V c 3 t) (blk V c 4 t) (blk V c 5 t) (blk V c 6 t) (blk V c 7 t) (blk V c 8 t) (blk V c 9 t) (blk V c 10 t) ((dat V c).before 11 t d11) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS]; · iexact HS
    isplitl [HC]; · iexact HC
    iintro ⟨H0, H1, H2, H3, H4, H5, H6, H7, H8, H9, H10, H11, HS, HC⟩
    isplitl [R0 R1 R2 R3 R4 R5 R6 R7 R8 R9 HS HC Hg]
    · isplitr [Hg]
      swap; · iexact Hg
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [HS]; · iexact HS
      iexact HC
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11
  · by_cases hl : t.val = 24
    · rw [show (dat V c).leavesExact 11 t = owns (c : Thread nD τ) (st1_11 t) fullShare ((dat V c).after 11 t) from by
          unfold Dat.leavesExact; rw [live11 t ((hLast t).mpr hl)], after_11, outAt, accAt_next V c t hz]
      (try dsimp only)
      rw [Phi_castSucc V c t, PhiS_pos V c _ _ hz]
      unfold heldScoped
      iintro ⟨⟨⟨R0, R1, R2, R3, R4, R5, R6, R7, R8, R9, HS, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_last c Set.univ (grid1.coords t) _ _ _ _ _ _ _ _ _ _ _ _ _ _ _ _ _ _ _ _ _ _ _ _ _ _ _ _ (fun h => hz ((hFirst t).mp h)) ((hLast t).mpr hl) (blk V c 0 t) (blk V c 1 t) (blk V c 2 t) (blk V c 3 t) (blk V c 4 t) (blk V c 5 t) (blk V c 6 t) (blk V c 7 t) (blk V c 8 t) (blk V c 9 t) (blk V c 10 t) (accAt V c (t.val - 1) (by omega)).1 (accAt V c (t.val - 1) (by omega)).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS]; · iexact HS
      isplitl [HC]; · iexact HC
      iintro ⟨H0, H1, H2, H3, H4, H5, H6, H7, H8, H9, H10, H11, HS, HC⟩
      isplitl [R0 R1 R2 R3 R4 R5 R6 R7 R8 R9 HS HC Hg]
      · isplitr [Hg]
        swap; · iexact Hg
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [HS]; · iexact HS
        iexact HC
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [Dat.leavesExact_idle (dat V c) 11 t (idle11 t (fun h => hl ((hLast t).mp h))) (noFlush11 t (fun h => hl ((hLast t).mp h)))]
      rw [accAt_next V c t hz]
      (try dsimp only)
      rw [Phi_castSucc V c t, PhiS_pos V c _ _ hz]
      unfold heldScoped
      iintro ⟨⟨⟨R0, R1, R2, R3, R4, R5, R6, R7, R8, R9, HS, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_mid c Set.univ (grid1.coords t) _ _ _ _ _ _ _ _ _ _ _ _ _ _ _ _ _ _ _ _ _ _ _ _ _ _ _ _ (fun h => hz ((hFirst t).mp h)) (fun h => hl ((hLast t).mp h)) (blk V c 0 t) (blk V c 1 t) (blk V c 2 t) (blk V c 3 t) (blk V c 4 t) (blk V c 5 t) (blk V c 6 t) (blk V c 7 t) (blk V c 8 t) (blk V c 9 t) (blk V c 10 t) ((dat V c).before 11 t d11) (accAt V c (t.val - 1) (by omega)).1 (accAt V c (t.val - 1) (by omega)).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS]; · iexact HS
      isplitl [HC]; · iexact HC
      iintro ⟨H0, H1, H2, H3, H4, H5, H6, H7, H8, H9, H10, H11, HS, HC⟩
      isplitl [R0 R1 R2 R3 R4 R5 R6 R7 R8 R9 HS HC Hg]
      · isplitr [Hg]
        swap; · iexact Hg
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [HS]; · iexact HS
        iexact HC
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-! ## In and out of the region -/

theorem Phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulators' named contents are forgotten. -/
theorem Phi_out (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 25 := N_1; omega), PhiA_eq]
  unfold heldScoped
  iintro ⟨⟨R0, R1, R2, R3, R4, R5, R6, R7, R8, R9, HS, HC⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [HS]; · iexists _; iexact HS
  iexists _; iexact HC

end Cert.Kernel.Pool

end
-- ==== Proof.KWholeRun.lean ====
/-
  The whole program: host operations, the first kernel region, host operations, the second kernel region.
  The contents of the core's buffers are followed from the launch memory through the four segments: a stretch of host
  operations applies them; a kernel region leaves its output array at what its grid points wrote back and everything
  else as it was. From that: every weakly fair execution terminates without a fault, each argument array ends as launched
  (no host operation and no region writes one), and the result array ends at what the second region's last point wrote.
-/
import proofs.«405799_j23536420782504_2_alg».proof.Proof.KMlpTile
import proofs.«405799_j23536420782504_2_alg».proof.Proof.KPoolData
import proofs.«405799_j23536420782504_2_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m (c, b)
/-- After the first stretch of host operations: the first region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the grid's write-backs leave, everything else as entered. -/
def W2 (c : Dev nD) : Valuation τ sig (Elt F) :=
  Pipeline.withArrays spec0 c (W1 m c) fun w => (Mlp.dat (V1 m) c).arrAt w cfg0.N
theorem W2_arr (c : Dev nD) (w : Fin cfg0.W) :
    W2 m c (Proc.devRef .tc (Pipeline.arrRef spec0 w)) = (Mlp.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Mlp.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second stretch: the second region's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (Pool.dat (V3 m) c).arrAt w cfg1.N
theorem W4_arr (c : Dev nD) (w : Fin cfg1.W) :
    W4 m c (Proc.devRef .tc (Pipeline.arrRef spec1 w)) = (Pool.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Pool.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched; the result is the second region's output array -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((Mlp.dat (V1 m) c).arrAt_in 0 rfl _).trans (Mlp.dat_A (V1 m) c 0))
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
theorem W4_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl
theorem W4_main_arg8 (c : Dev nD) : W4 m c (Proc.devRef .tc main_arg8) = m ((c : Thread nD τ).loc main_arg8) :=
  calc W4 m c (Proc.devRef .tc main_arg8)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl
theorem W4_main_arg9 (c : Dev nD) : W4 m c (Proc.devRef .tc main_arg9) = m ((c : Thread nD τ).loc main_arg9) :=
  calc W4 m c (Proc.devRef .tc main_arg9)
    _ = W3 m c (Proc.devRef .tc main_arg9) := W4_of_ne m c main_arg9 (by decide)
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl
theorem W4_main_arg10 (c : Dev nD) : W4 m c (Proc.devRef .tc main_arg10) = m ((c : Thread nD τ).loc main_arg10) :=
  calc W4 m c (Proc.devRef .tc main_arg10)
    _ = W3 m c (Proc.devRef .tc main_arg10) := W4_of_ne m c main_arg10 (by decide)
    _ = W2 m c (Proc.devRef .tc main_arg10) := StableHlo.after_of_writes_sub hostOps1 _ hostOps1_writes (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl
theorem W4_main_arg11 (c : Dev nD) : W4 m c (Proc.devRef .tc main_arg11) = m ((c : Thread nD τ).loc main_arg11) :=
  calc W4 m c (Proc.devRef .tc main_arg11)
    _ = W3 m c (Proc.devRef .tc main_arg11) := W4_of_ne m c main_arg11 (by decide)
    _ = W2 m c (Proc.devRef .tc main_arg11) := StableHlo.after_of_writes_sub hostOps1 _ hostOps1_writes (by decide)
    _ = W1 m c (Proc.devRef .tc main_arg11) := W2_of_ne m c main_arg11 (by decide)
    _ = W0 m c (Proc.devRef .tc main_arg11) := StableHlo.after_of_writes_sub hostOps0 _ hostOps0_writes (by decide)
    _ = m ((c : Thread nD τ).loc main_arg11) := rfl
theorem W4_main_arg12 (c : Dev nD) : W4 m c (Proc.devRef .tc main_arg12) = m ((c : Thread nD τ).loc main_arg12) :=
  calc W4 m c (Proc.devRef .tc main_arg12)
    _ = W3 m c (Proc.devRef .tc main_arg12) := W4_of_ne m c main_arg12 (by decide)
    _ = W2 m c (Proc.devRef .tc main_arg12) := StableHlo.after_of_writes_sub hostOps1 _ hostOps1_writes (by decide)
    _ = W1 m c (Proc.devRef .tc main_arg12) := W2_of_ne m c main_arg12 (by decide)
    _ = W0 m c (Proc.devRef .tc main_arg12) := StableHlo.after_of_writes_sub hostOps0 _ hostOps0_writes (by decide)
    _ = m ((c : Thread nD τ).loc main_arg12) := rfl
theorem W4_main_arg13 (c : Dev nD) : W4 m c (Proc.devRef .tc main_arg13) = m ((c : Thread nD τ).loc main_arg13) :=
  calc W4 m c (Proc.devRef .tc main_arg13)
    _ = W3 m c (Proc.devRef .tc main_arg13) := W4_of_ne m c main_arg13 (by decide)
    _ = W2 m c (Proc.devRef .tc main_arg13) := StableHlo.after_of_writes_sub hostOps1 _ hostOps1_writes (by decide)
    _ = W1 m c (Proc.devRef .tc main_arg13) := W2_of_ne m c main_arg13 (by decide)
    _ = W0 m c (Proc.devRef .tc main_arg13) := StableHlo.after_of_writes_sub hostOps0 _ hostOps0_writes (by decide)
    _ = m ((c : Thread nD τ).loc main_arg13) := rfl
theorem W4_main_arg14 (c : Dev nD) : W4 m c (Proc.devRef .tc main_arg14) = m ((c : Thread nD τ).loc main_arg14) :=
  calc W4 m c (Proc.devRef .tc main_arg14)
    _ = W3 m c (Proc.devRef .tc main_arg14) := W4_of_ne m c main_arg14 (by decide)
    _ = W2 m c (Proc.devRef .tc main_arg14) := StableHlo.after_of_writes_sub hostOps1 _ hostOps1_writes (by decide)
    _ = W1 m c (Proc.devRef .tc main_arg14) := W2_of_ne m c main_arg14 (by decide)
    _ = W0 m c (Proc.devRef .tc main_arg14) := StableHlo.after_of_writes_sub hostOps0 _ hostOps0_writes (by decide)
    _ = m ((c : Thread nD τ).loc main_arg14) := rfl

theorem W4_result (c : Dev nD) : W4 m c (Proc.devRef .tc main_v42) = (Pool.dat (V3 m) c).arrAt 11 cfg1.N :=
  W4_arr m c 11

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Mlp.dat (V1 m) c
  | ⟨1, _⟩ => fun c => Pool.dat (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Mlp.obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Pool.obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Pool.Phi_in (V3 m) c)
    unfold Pipeline.ΦA
    iintro ⟨Hp, -, Hr⟩
    isplitl [Hr]; · iexact Hr
    iexact Hp
  hout c := by
    rw [Pipeline.ownSems0_none]
    refine BIBase.Entails.trans (Pool.Phi_out (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution terminates, and at the end every unscoped buffer of
    every core holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The same run, read at the result array and at the fifteen argument arrays: the result ends at what the second
    region's grid wrote back into its output array, every argument as launched. -/
theorem run_result (ρ : Dev nD → PrngReg) : θ_run defs (onTc (τ := τ) (main (F := F))) ⟨m, fun _ => 0, ρ⟩ (fun r => ∀ c : Dev nD,
      r.2.mem ((c.tc : Thread nD τ).loc main_v42) = (Pool.dat (V3 m) c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨
      (h c _ (mem_uc main_v42 (by decide))).trans (W4_result m c),
      (h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c),
      (h c _ (mem_uc main_arg7 (by decide))).trans (W4_main_arg7 m c),
      (h c _ (mem_uc main_arg8 (by decide))).trans (W4_main_arg8 m c),
      (h c _ (mem_uc main_arg9 (by decide))).trans (W4_main_arg9 m c),
      (h c _ (mem_uc main_arg10 (by decide))).trans (W4_main_arg10 m c),
      (h c _ (mem_uc main_arg11 (by decide))).trans (W4_main_arg11 m c),
      (h c _ (mem_uc main_arg12 (by decide))).trans (W4_main_arg12 m c),
      (h c _ (mem_uc main_arg13 (by decide))).trans (W4_main_arg13 m c),
      (h c _ (mem_uc main_arg14 (by decide))).trans (W4_main_arg14 m c)⟩)
    (run_all m ρ)

end Cert.Kernel.Whole

end
-- ==== Proof.MlpTile.lean ====
/-
  The first kernel region: one tile of 5000 nodes through the two-layer perceptron.
  At a grid point the body reads the tile's rows of the node features and of the neighbour sums, the two weight
  matrices and the two bias rows, and stores relu(relu((x + a) · Wa + ba) · Wb + bb) over its whole output block.
  Nothing is kept between points, so what the output block holds after the body is one pure function of the
  seven blocks the point was handed (`tileOut`), and the region's proof data names exactly that.
-/
import proofs.«405799_j23536420782504_2_alg».proof.Proof.Gen.KernelIdeal.Launch
import proofs.«405799_j23536420782504_2_alg».proof.Proof.Gen.KernelIdeal.Skeleton
import proofs.«405799_j23536420782504_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles of a tile, of a weight matrix and of a bias row. -/
abbrev rTile : Rect S5000x128 := Rect.unit (s := S5000x128) ![0, 0] S5000x128.size inb_S5000x128_S5000x128_0_0
abbrev rMat : Rect S128x128 := Rect.unit (s := S128x128) ![0, 0] S128x128.size inb_S128x128_S128x128_0_0
abbrev rRow : Rect S1x128 := Rect.unit (s := S1x128) ![0, 0] S1x128.size inb_S1x128_S1x128_0_0

/-- What the body leaves in the output block: its one store, of the perceptron's value on the six blocks read. -/
def tileOut (x a : Vec F S5000x128 .f32) (wa : Vec F S128x128 .bf16) (ba : Vec F S1x128 .f32)
    (wb : Vec F S128x128 .bf16) (bb : Vec F S1x128 .f32) : Vec F S5000x128 .f32 :=
  View.canon [⟨rTile, k0_pay1 (View.ld x rTile) (View.ld a rTile) (View.ld wa rMat) (View.ld ba rRow) (View.ld wb rMat) (View.ld bb rRow)⟩]

theorem tile_cover (p0 : Vec F S5000x128 .f32) (y : S5000x128.Idx) :
    ∃ pc ∈ ([⟨rTile, p0⟩] : List (View.Piece (Elt F) S5000x128 .f32)), y ∈ pc.1.set :=
  View.cover_of_tiled [⟨rTile, p0⟩] S5000x128.size (by rfl) y

set_option maxHeartbeats 4000000 in
/-- The body on whole staging buffers: the six inputs keep their contents, the output ends at `tileOut`. -/
theorem body_run (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S128x128 .bf16) (harg5 : arg5.IsWhole) (arg6 : Memref sig .tc .vmem S1x128 .f32) (harg6 : arg6.IsWhole)
    (arg7 : Memref sig .tc .vmem S5000x128 .f32) (harg7 : arg7.IsWhole)
    (x a : Vec F S5000x128 .f32) (wa : Vec F S128x128 .bf16) (ba : Vec F S1x128 .f32) (wb : Vec F S128x128 .bf16) (bb : Vec F S1x128 .f32)
    (K : PUnit → sProp 𝕄) :
    iprop(owns (c : Thread nD τ) arg1 fullShare x ∗ owns (c : Thread nD τ) arg2 fullShare a
        ∗ owns (c : Thread nD τ) arg3 fullShare wa ∗ owns (c : Thread nD τ) arg4 fullShare ba
        ∗ owns (c : Thread nD τ) arg5 fullShare wb ∗ owns (c : Thread nD τ) arg6 fullShare bb
        ∗ (∃ d, owns (c : Thread nD τ) arg7 fullShare d)
        ∗ (iprop(owns (c : Thread nD τ) arg1 fullShare x ∗ owns (c : Thread nD τ) arg2 fullShare a
            ∗ owns (c : Thread nD τ) arg3 fullShare wa ∗ owns (c : Thread nD τ) arg4 fullShare ba
            ∗ owns (c : Thread nD τ) arg5 fullShare wb ∗ owns (c : Thread nD τ) arg6 fullShare bb
            ∗ owns (c : Thread nD τ) arg7 fullShare (tileOut x a wa ba wb bb)) -∗ K ⟨⟩))
      ⊢ wp frame (wpE (defs₀ (F := F)) Variants.none c none) E
          (cc0__gin_mlp_kernel i arg1 harg1 arg2 harg2 arg3 harg3 arg4 harg4 arg5 harg5 arg6 harg6 arg7 harg7) K := by
  simp only [cc0__gin_mlp_kernel_eq_skeleton]; unfold cc0__gin_mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact H7
  ipureintro
  exact View.read_writes_eq_canon _ _ _ (tile_cover _)

/-! ## The region's proof data -/

/-- Proof data of the first region on core `c`: the arrays as the region finds them; after the body each input
    block as fetched and the output block at `tileOut` of the six input blocks; the class's invariant (the scoped
    rest and the generator register, untouched); nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => tileOut (blk V c 0 t) (blk V c 1 t) (blk V c 2 t) (blk V c 3 t) (blk V c 4 t) (blk V c 5 t)
  Φ _ := Pipeline.ΦA spec0 c
  q _ := fullShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = blk V c 5 t := by dsimp only [dat]
theorem after_6 (c : Dev nD) (t : Fin cfg0.N) : (dat V c).after 6 t
    = tileOut (blk V c 0 t) (blk V c 1 t) (blk V c 2 t) (blk V c 3 t) (blk V c 4 t) (blk V c 5 t) := by dsimp only [dat]

/-! An input window's current buffer holds its block at every point, whether this point fetched it or an earlier
    one did: its block index has not moved since, the window is never cut and never idle. -/

theorem before_0 (c : Dev nD) (t : Fin cfg0.N) (d) : (dat V c).before 0 t d = blk V c 0 t :=
  ((dat V c).before_in_eq_fetched 0 rfl (fun _ => rfl) (fun _ _ _ => rfl)
      (fun t => by rw [after_0]; unfold Dat.blockOf blk; rw [dat_A]; try rfl) t d).trans
    (by unfold Dat.fetched Dat.blockOf blk; rw [dat_A]; try rfl)
theorem before_1 (c : Dev nD) (t : Fin cfg0.N) (d) : (dat V c).before 1 t d = blk V c 1 t :=
  ((dat V c).before_in_eq_fetched 1 rfl (fun _ => rfl) (fun _ _ _ => rfl)
      (fun t => by rw [after_1]; unfold Dat.blockOf blk; rw [dat_A]; try rfl) t d).trans
    (by unfold Dat.fetched Dat.blockOf blk; rw [dat_A]; try rfl)
theorem before_2 (c : Dev nD) (t : Fin cfg0.N) (d) : (dat V c).before 2 t d = blk V c 2 t :=
  ((dat V c).before_in_eq_fetched 2 rfl (fun _ => rfl) (fun _ _ _ => rfl)
      (fun t => by rw [after_2]; unfold Dat.blockOf blk; rw [dat_A]; try rfl) t d).trans
    (by unfold Dat.fetched Dat.blockOf blk; rw [dat_A]; try rfl)
theorem before_3 (c : Dev nD) (t : Fin cfg0.N) (d) : (dat V c).before 3 t d = blk V c 3 t :=
  ((dat V c).before_in_eq_fetched 3 rfl (fun _ => rfl) (fun _ _ _ => rfl)
      (fun t => by rw [after_3]; unfold Dat.blockOf blk; rw [dat_A]; try rfl) t d).trans
    (by unfold Dat.fetched Dat.blockOf blk; rw [dat_A]; try rfl)
theorem before_4 (c : Dev nD) (t : Fin cfg0.N) (d) : (dat V c).before 4 t d = blk V c 4 t :=
  ((dat V c).before_in_eq_fetched 4 rfl (fun _ => rfl) (fun _ _ _ => rfl)
      (fun t => by rw [after_4]; unfold Dat.blockOf blk; rw [dat_A]; try rfl) t d).trans
    (by unfold Dat.fetched Dat.blockOf blk; rw [dat_A]; try rfl)
theorem before_5 (c : Dev nD) (t : Fin cfg0.N) (d) : (dat V c).before 5 t d = blk V c 5 t :=
  ((dat V c).before_in_eq_fetched 5 rfl (fun _ => rfl) (fun _ _ _ => rfl)
      (fun t => by rw [after_5]; unfold Dat.blockOf blk; rw [dat_A]; try rfl) t d).trans
    (by unfold Dat.fetched Dat.blockOf blk; rw [dat_A]; try rfl)

/-! ## The body obligation -/

/-- At every point: the six inputs' buffers hold their blocks, so the body's run applies; the invariant and the
    core's dues pass through unread. -/
theorem obligation (c : Dev nD) : BodyObligation (dat (F := F) V c) (defs₀ (F := F)) Variants.none () Set.univ := fun t => by
  rw [bigSep_W0, bigSep_W0]
  show iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d))
      ∗ (∃ d, owns (c : Thread nD τ) (st0_2 t) fullShare ((dat V c).before 2 t d))
      ∗ (∃ d, owns (c : Thread nD τ) (st0_3 t) fullShare ((dat V c).before 3 t d))
      ∗ (∃ d, owns (c : Thread nD τ) (st0_4 t) fullShare ((dat V c).before 4 t d))
      ∗ (∃ d, owns (c : Thread nD τ) (st0_5 t) fullShare ((dat V c).before 5 t d))
      ∗ (∃ d, owns (c : Thread nD τ) (st0_6 t) fullShare ((dat V c).before 6 t d)))
    ⊢ wp frame (wpE (defs₀ (F := F)) Variants.none c none) Set.univ (bodyAt0 t) (fun _ =>
      iprop((dat V c).Φ t.succ ∗ (dat V c).owesAt () t.succ
        ∗ owns (c : Thread nD τ) (st0_0 t) fullShare ((dat V c).after 0 t)
        ∗ owns (c : Thread nD τ) (st0_1 t) fullShare ((dat V c).after 1 t)
        ∗ owns (c : Thread nD τ) (st0_2 t) fullShare ((dat V c).after 2 t)
        ∗ owns (c : Thread nD τ) (st0_3 t) fullShare ((dat V c).after 3 t)
        ∗ owns (c : Thread nD τ) (st0_4 t) fullShare ((dat V c).after 4 t)
        ∗ owns (c : Thread nD τ) (st0_5 t) fullShare ((dat V c).after 5 t)
        ∗ owns (c : Thread nD τ) (st0_6 t) fullShare ((dat V c).after 6 t)))
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  unfold bodyAt0
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_run c Set.univ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

end Cert.KernelIdeal.Mlp

end
-- ==== Proof.PoolStep.lean ====
import proofs.«405799_j23536420782504_2_alg».proof.Proof.Gen.KernelIdeal.Launch
import proofs.«405799_j23536420782504_2_alg».proof.Proof.Gen.KernelIdeal.Skeleton
import proofs.«405799_j23536420782504_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-!
  The second kernel region, one grid point: a tile of 2000 nodes goes through the second layer's perceptron, and its
  rows are added into two accumulators kept between points — per-graph sums (512 × 128) and per-graph counts (512 × 1) —
  as the product of the tile's one-hot graph-id matrix with the rows (with a column of ones, for the counts).
  At the first point the accumulators are zeroed before the update; at the last the output block is written:
  the pooled means through the classifier head and the sigmoid. At the other points the output block is left as found.
  Each of the three cases is one run of the body; what it leaves is stated over the body's own pure terms.
-/

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch is taken: the grid coordinate is zero (the condition as the body computes it). -/
abbrev atFirst (i : grid1.Coords) : Prop := (Scalar.cmpi .ne (Scalar.extui (Scalar.cmpi .eq (BitVec.ofNat 32 (i 0).val) 0#32)) 0#32) = 1#1
/-- The finalising branch is taken: the grid coordinate is the last. -/
abbrev atLast (i : grid1.Coords) : Prop := k1_cond2 i = 1#1

theorem zeros2 : (![0, 0] : Fin 2 → Nat) = fun _ => 0 := by funext a; fin_cases a <;> rfl

/-- A buffer whose last store covered its whole block reads back that store's payload, whatever came before. -/
theorem whole_store_read {S : Shape} {e : EltTy} {κ : Kind} {sp : Space} (hS : S.rank = 2 := by rfl)
    (v : View sig κ sp S e) (f : v.ty.Contents (Elt F)) {off : Fin S.rank → Nat} (hz : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self, View.mem_set_unit_zero hz inb y⟩)).trans
    (View.canon_cons_unit_zero hz inb w L)

/-- The tile's second-layer features and its one-hot id matrix, as the body computes them. -/
abbrev feat (x a : Vec F S2000x128 .f32) (wa : Vec F S128x128 .bf16) (ba : Vec F S1x128 .f32)
    (wb : Vec F S128x128 .bf16) (bb : Vec F S1x128 .f32) : FVec F S2000x128 .bf16 := k1_pay6 x a wa ba wb bb
abbrev onehot (b : Vec F S2000x1 .i32) : FVec F S2000x512 .bf16 := k1_pay7 b

set_option maxHeartbeats 8000000 in
/-- The first point: the accumulators, whatever they held, end at the update of their zeroed values; the output block
    is handed back as found. -/
theorem run_first (c : Dev nD) (E : Set ℕ) (i : grid1.Coords) (arg1 : Memref sig .tc .vmem S2000x128 .f32) (harg1 : arg1.IsWhole) (arg2 : Memref sig .tc .vmem S2000x128 .f32) (harg2 : arg2.IsWhole)
    (arg3 : Memref sig .tc .vmem S2000x1 .i32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S128x128 .bf16) (harg6 : arg6.IsWhole)
    (arg7 : Memref sig .tc .vmem S1x128 .f32) (harg7 : arg7.IsWhole) (arg8 : Memref sig .tc .vmem S128x128 .bf16) (harg8 : arg8.IsWhole)
    (arg9 : Memref sig .tc .vmem S1x128 .f32) (harg9 : arg9.IsWhole) (arg10 : Memref sig .tc .vmem S128x6 .bf16) (harg10 : arg10.IsWhole)
    (arg11 : Memref sig .tc .vmem S1x6 .f32) (harg11 : arg11.IsWhole) (arg12 : Memref sig .tc .vmem S512x6 .f32) (harg12 : arg12.IsWhole)
    (arg13 : Memref sig .tc .vmem S512x128 .f32) (harg13 : arg13.IsWhole) (arg14 : Memref sig .tc .vmem S512x1 .f32) (harg14 : arg14.IsWhole)
    (h0 : atFirst i) (h1 : ¬atLast i) (x a : Vec F S2000x128 .f32) (b : Vec F S2000x1 .i32) (wa : Vec F S128x128 .bf16) (ba : Vec F S1x128 .f32)
    (wb : Vec F S128x128 .bf16) (bb : Vec F S1x128 .f32) (wf1 : Vec F S128x128 .bf16) (bf1 : Vec F S1x128 .f32)
    (wf2 : Vec F S128x6 .bf16) (bf2 : Vec F S1x6 .f32) (o : Vec F S512x6 .f32)
    (K : PUnit → sProp 𝕄) :
    iprop(owns (c : Thread nD τ) arg1 fullShare x ∗ owns (c : Thread nD τ) arg2 fullShare a ∗ owns (c : Thread nD τ) arg3 fullShare b
        ∗ owns (c : Thread nD τ) arg4 fullShare wa ∗ owns (c : Thread nD τ) arg5 fullShare ba ∗ owns (c : Thread nD τ) arg6 fullShare wb ∗ owns (c : Thread nD τ) arg7 fullShare bb
        ∗ owns (c : Thread nD τ) arg8 fullShare wf1 ∗ owns (c : Thread nD τ) arg9 fullShare bf1 ∗ owns (c : Thread nD τ) arg10 fullShare wf2 ∗ owns (c : Thread nD τ) arg11 fullShare bf2
        ∗ owns (c : Thread nD τ) arg12 fullShare o
        ∗ (∃ d, owns (c : Thread nD τ) arg13 fullShare d) ∗ (∃ d, owns (c : Thread nD τ) arg14 fullShare d)
        ∗ (iprop(owns (c : Thread nD τ) arg1 fullShare x ∗ owns (c : Thread nD τ) arg2 fullShare a ∗ owns (c : Thread nD τ) arg3 fullShare b
            ∗ owns (c : Thread nD τ) arg4 fullShare wa ∗ owns (c : Thread nD τ) arg5 fullShare ba ∗ owns (c : Thread nD τ) arg6 fullShare wb ∗ owns (c : Thread nD τ) arg7 fullShare bb
            ∗ owns (c : Thread nD τ) arg8 fullShare wf1 ∗ owns (c : Thread nD τ) arg9 fullShare bf1 ∗ owns (c : Thread nD τ) arg10 fullShare wf2 ∗ owns (c : Thread nD τ) arg11 fullShare bf2
            ∗ owns (c : Thread nD τ) arg12 fullShare o
            ∗ owns (c : Thread nD τ) arg13 fullShare (k1_pay1 (feat x a wa ba wb bb) (onehot b) (k1_pay4 (F := F)))
            ∗ owns (c : Thread nD τ) arg14 fullShare (k1_pay2 (onehot b) (k1_pay5 (F := F)))) -∗ K ⟨⟩))
      ⊢ wp frame (wpE (defs₀ (F := F)) Variants.none c none) E
          (cc1__gin2_pool_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__gin2_pool_kernel_eq_skeleton]; unfold cc1__gin2_pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf1; subst hf2; subst hf3; subst hf4; subst hf5; subst hf6; subst hf7; subst hf8; subst hf9; subst hf10; subst hf11; subst hf12
  sl_exec (disch := first | exact h0 | exact h1)
  sl_step
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists f9; isplitr
    · ipureintro; rfl
    · iexact H9
  isplitl [H10]
  · iexists f10; isplitr
    · ipureintro; rfl
    · iexact H10
  isplitl [H11]
  · iexists f11; isplitr
    · ipureintro; rfl
    · iexact H11
  isplitl [H12]
  · iexists f12; isplitr
    · ipureintro; rfl
    · iexact H12
  isplitl [H13]
  · iexists _; isplitr
    swap; · iexact H13
    ipureintro
    sl_unfold_words
    rw [whole_store_read rfl _ _ zeros2]
    simp only [View.readAt_eq_ld, View.ld_unit_zero (S := S2000x128) zeros2, View.ld_unit_zero (S := S128x128) zeros2, View.ld_unit_zero (S := S1x128) zeros2, View.ld_unit_zero (S := S2000x1) zeros2, View.ld_unit_zero (S := S512x128) zeros2, View.ld_unit_zero (S := S512x1) zeros2, View.ld_unit_zero (S := S128x6) zeros2, View.ld_unit_zero (S := S1x6) zeros2, View.ld_unit_zero (S := S512x6) zeros2, View.readCov_unit_zero (S := S512x128) _ zeros2, View.readCov_unit_zero (S := S512x1) _ zeros2]
  · iexists _; isplitr
    swap; · iexact H14
    ipureintro
    sl_unfold_words
    rw [whole_store_read rfl _ _ zeros2]
    simp only [View.readAt_eq_ld, View.ld_unit_zero (S := S2000x128) zeros2, View.ld_unit_zero (S := S128x128) zeros2, View.ld_unit_zero (S := S1x128) zeros2, View.ld_unit_zero (S := S2000x1) zeros2, View.ld_unit_zero (S := S512x128) zeros2, View.ld_unit_zero (S := S512x1) zeros2, View.ld_unit_zero (S := S128x6) zeros2, View.ld_unit_zero (S := S1x6) zeros2, View.ld_unit_zero (S := S512x6) zeros2, View.readCov_unit_zero (S := S512x128) _ zeros2, View.readCov_unit_zero (S := S512x1) _ zeros2]

set_option maxHeartbeats 8000000 in
/-- A middle point: the accumulators go from `S`, `C` to their updates by this tile; the output block is handed back
    as found. -/
theorem run_mid (c : Dev nD) (E : Set ℕ) (i : grid1.Coords) (arg1 : Memref sig .tc .vmem S2000x128 .f32) (harg1 : arg1.IsWhole) (arg2 : Memref sig .tc .vmem S2000x128 .f32) (harg2 : arg2.IsWhole)
    (arg3 : Memref sig .tc .vmem S2000x1 .i32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S128x128 .bf16) (harg6 : arg6.IsWhole)
    (arg7 : Memref sig .tc .vmem S1x128 .f32) (harg7 : arg7.IsWhole) (arg8 : Memref sig .tc .vmem S128x128 .bf16) (harg8 : arg8.IsWhole)
    (arg9 : Memref sig .tc .vmem S1x128 .f32) (harg9 : arg9.IsWhole) (arg10 : Memref sig .tc .vmem S128x6 .bf16) (harg10 : arg10.IsWhole)
    (arg11 : Memref sig .tc .vmem S1x6 .f32) (harg11 : arg11.IsWhole) (arg12 : Memref sig .tc .vmem S512x6 .f32) (harg12 : arg12.IsWhole)
    (arg13 : Memref sig .tc .vmem S512x128 .f32) (harg13 : arg13.IsWhole) (arg14 : Memref sig .tc .vmem S512x1 .f32) (harg14 : arg14.IsWhole)
    (h0 : ¬atFirst i) (h1 : ¬atLast i) (x a : Vec F S2000x128 .f32) (b : Vec F S2000x1 .i32) (wa : Vec F S128x128 .bf16) (ba : Vec F S1x128 .f32)
    (wb : Vec F S128x128 .bf16) (bb : Vec F S1x128 .f32) (wf1 : Vec F S128x128 .bf16) (bf1 : Vec F S1x128 .f32)
    (wf2 : Vec F S128x6 .bf16) (bf2 : Vec F S1x6 .f32) (o : Vec F S512x6 .f32)
    (S : Vec F S512x128 .f32) (C : Vec F S512x1 .f32)
    (K : PUnit → sProp 𝕄) :
    iprop(owns (c : Thread nD τ) arg1 fullShare x ∗ owns (c : Thread nD τ) arg2 fullShare a ∗ owns (c : Thread nD τ) arg3 fullShare b
        ∗ owns (c : Thread nD τ) arg4 fullShare wa ∗ owns (c : Thread nD τ) arg5 fullShare ba ∗ owns (c : Thread nD τ) arg6 fullShare wb ∗ owns (c : Thread nD τ) arg7 fullShare bb
        ∗ owns (c : Thread nD τ) arg8 fullShare wf1 ∗ owns (c : Thread nD τ) arg9 fullShare bf1 ∗ owns (c : Thread nD τ) arg10 fullShare wf2 ∗ owns (c : Thread nD τ) arg11 fullShare bf2
        ∗ owns (c : Thread nD τ) arg12 fullShare o
        ∗ owns (c : Thread nD τ) arg13 fullShare S ∗ owns (c : Thread nD τ) arg14 fullShare C
        ∗ (iprop(owns (c : Thread nD τ) arg1 fullShare x ∗ owns (c : Thread nD τ) arg2 fullShare a ∗ owns (c : Thread nD τ) arg3 fullShare b
            ∗ owns (c : Thread nD τ) arg4 fullShare wa ∗ owns (c : Thread nD τ) arg5 fullShare ba ∗ owns (c : Thread nD τ) arg6 fullShare wb ∗ owns (c : Thread nD τ) arg7 fullShare bb
            ∗ owns (c : Thread nD τ) arg8 fullShare wf1 ∗ owns (c : Thread nD τ) arg9 fullShare bf1 ∗ owns (c : Thread nD τ) arg10 fullShare wf2 ∗ owns (c : Thread nD τ) arg11 fullShare bf2
            ∗ owns (c : Thread nD τ) arg12 fullShare o
            ∗ owns (c : Thread nD τ) arg13 fullShare (k1_pay1 (feat x a wa ba wb bb) (onehot b) S)
            ∗ owns (c : Thread nD τ) arg14 fullShare (k1_pay2 (onehot b) C)) -∗ K ⟨⟩))
      ⊢ wp frame (wpE (defs₀ (F := F)) Variants.none c none) E
          (cc1__gin2_pool_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__gin2_pool_kernel_eq_skeleton]; unfold cc1__gin2_pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf1; subst hf2; subst hf3; subst hf4; subst hf5; subst hf6; subst hf7; subst hf8; subst hf9; subst hf10; subst hf11; subst hf12; subst hf13; subst hf14
  sl_exec (disch := first | exact h0 | exact h1)
  sl_step
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists f9; isplitr
    · ipureintro; rfl
    · iexact H9
  isplitl [H10]
  · iexists f10; isplitr
    · ipureintro; rfl
    · iexact H10
  isplitl [H11]
  · iexists f11; isplitr
    · ipureintro; rfl
    · iexact H11
  isplitl [H12]
  · iexists f12; isplitr
    · ipureintro; rfl
    · iexact H12
  isplitl [H13]
  · iexists _; isplitr
    swap; · iexact H13
    ipureintro
    sl_unfold_words
    rw [whole_store_read rfl _ _ zeros2]
    simp only [View.readAt_eq_ld, View.ld_unit_zero (S := S2000x128) zeros2, View.ld_unit_zero (S := S128x128) zeros2, View.ld_unit_zero (S := S1x128) zeros2, View.ld_unit_zero (S := S2000x1) zeros2, View.ld_unit_zero (S := S512x128) zeros2, View.ld_unit_zero (S := S512x1) zeros2, View.ld_unit_zero (S := S128x6) zeros2, View.ld_unit_zero (S := S1x6) zeros2, View.ld_unit_zero (S := S512x6) zeros2, View.readCov_unit_zero (S := S512x128) _ zeros2, View.readCov_unit_zero (S := S512x1) _ zeros2]
  · iexists _; isplitr
    swap; · iexact H14
    ipureintro
    sl_unfold_words
    rw [whole_store_read rfl _ _ zeros2]
    simp only [View.readAt_eq_ld, View.ld_unit_zero (S := S2000x128) zeros2, View.ld_unit_zero (S := S128x128) zeros2, View.ld_unit_zero (S := S1x128) zeros2, View.ld_unit_zero (S := S2000x1) zeros2, View.ld_unit_zero (S := S512x128) zeros2, View.ld_unit_zero (S := S512x1) zeros2, View.ld_unit_zero (S := S128x6) zeros2, View.ld_unit_zero (S := S1x6) zeros2, View.ld_unit_zero (S := S512x6) zeros2, View.readCov_unit_zero (S := S512x128) _ zeros2, View.readCov_unit_zero (S := S512x1) _ zeros2]

set_option maxHeartbeats 8000000 in
/-- The last point: the accumulators are updated as at a middle point, and the output block, whatever it held, ends at
    the pooled means through the head and the sigmoid, computed from the UPDATED accumulators. -/
theorem run_last (c : Dev nD) (E : Set ℕ) (i : grid1.Coords) (arg1 : Memref sig .tc .vmem S2000x128 .f32) (harg1 : arg1.IsWhole) (arg2 : Memref sig .tc .vmem S2000x128 .f32) (harg2 : arg2.IsWhole)
    (arg3 : Memref sig .tc .vmem S2000x1 .i32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S128x128 .bf16) (harg6 : arg6.IsWhole)
    (arg7 : Memref sig .tc .vmem S1x128 .f32) (harg7 : arg7.IsWhole) (arg8 : Memref sig .tc .vmem S128x128 .bf16) (harg8 : arg8.IsWhole)
    (arg9 : Memref sig .tc .vmem S1x128 .f32) (harg9 : arg9.IsWhole) (arg10 : Memref sig .tc .vmem S128x6 .bf16) (harg10 : arg10.IsWhole)
    (arg11 : Memref sig .tc .vmem S1x6 .f32) (harg11 : arg11.IsWhole) (arg12 : Memref sig .tc .vmem S512x6 .f32) (harg12 : arg12.IsWhole)
    (arg13 : Memref sig .tc .vmem S512x128 .f32) (harg13 : arg13.IsWhole) (arg14 : Memref sig .tc .vmem S512x1 .f32) (harg14 : arg14.IsWhole)
    (h0 : ¬atFirst i) (h1 : atLast i) (x a : Vec F S2000x128 .f32) (b : Vec F S2000x1 .i32) (wa : Vec F S128x128 .bf16) (ba : Vec F S1x128 .f32)
    (wb : Vec F S128x128 .bf16) (bb : Vec F S1x128 .f32) (wf1 : Vec F S128x128 .bf16) (bf1 : Vec F S1x128 .f32)
    (wf2 : Vec F S128x6 .bf16) (bf2 : Vec F S1x6 .f32)
    (S : Vec F S512x128 .f32) (C : Vec F S512x1 .f32)
    (K : PUnit → sProp 𝕄) :
    iprop(owns (c : Thread nD τ) arg1 fullShare x ∗ owns (c : Thread nD τ) arg2 fullShare a ∗ owns (c : Thread nD τ) arg3 fullShare b
        ∗ owns (c : Thread nD τ) arg4 fullShare wa ∗ owns (c : Thread nD τ) arg5 fullShare ba ∗ owns (c : Thread nD τ) arg6 fullShare wb ∗ owns (c : Thread nD τ) arg7 fullShare bb
        ∗ owns (c : Thread nD τ) arg8 fullShare wf1 ∗ owns (c : Thread nD τ) arg9 fullShare bf1 ∗ owns (c : Thread nD τ) arg10 fullShare wf2 ∗ owns (c : Thread nD τ) arg11 fullShare bf2
        ∗ (∃ d, owns (c : Thread nD τ) arg12 fullShare d)
        ∗ owns (c : Thread nD τ) arg13 fullShare S ∗ owns (c : Thread nD τ) arg14 fullShare C
        ∗ (iprop(owns (c : Thread nD τ) arg1 fullShare x ∗ owns (c : Thread nD τ) arg2 fullShare a ∗ owns (c : Thread nD τ) arg3 fullShare b
            ∗ owns (c : Thread nD τ) arg4 fullShare wa ∗ owns (c : Thread nD τ) arg5 fullShare ba ∗ owns (c : Thread nD τ) arg6 fullShare wb ∗ owns (c : Thread nD τ) arg7 fullShare bb
            ∗ owns (c : Thread nD τ) arg8 fullShare wf1 ∗ owns (c : Thread nD τ) arg9 fullShare bf1 ∗ owns (c : Thread nD τ) arg10 fullShare wf2 ∗ owns (c : Thread nD τ) arg11 fullShare bf2
            ∗ owns (c : Thread nD τ) arg12 fullShare (k1_pay3 (k1_pay1 (feat x a wa ba wb bb) (onehot b) S) (k1_pay2 (onehot b) C) wf1 bf1 wf2 bf2)
            ∗ owns (c : Thread nD τ) arg13 fullShare (k1_pay1 (feat x a wa ba wb bb) (onehot b) S)
            ∗ owns (c : Thread nD τ) arg14 fullShare (k1_pay2 (onehot b) C)) -∗ K ⟨⟩))
      ⊢ wp frame (wpE (defs₀ (F := F)) Variants.none c none) E
          (cc1__gin2_pool_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__gin2_pool_kernel_eq_skeleton]; unfold cc1__gin2_pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, Hk⟩
  subst hf1; subst hf2; subst hf3; subst hf4; subst hf5; subst hf6; subst hf7; subst hf8; subst hf9; subst hf10; subst hf11; subst hf13; subst hf14
  sl_exec (disch := first | exact h0 | exact h1)
  sl_step
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists f9; isplitr
    · ipureintro; rfl
    · iexact H9
  isplitl [H10]
  · iexists f10; isplitr
    · ipureintro; rfl
    · iexact H10
  isplitl [H11]
  · iexists f11; isplitr
    · ipureintro; rfl
    · iexact H11
  isplitl [H12]
  · iexists _; isplitr
    swap; · iexact H12
    ipureintro
    sl_unfold_words
    rw [whole_store_read rfl _ _ zeros2]
    simp only [View.readAt_eq_ld, View.ld_unit_zero (S := S2000x128) zeros2, View.ld_unit_zero (S := S128x128) zeros2, View.ld_unit_zero (S := S1x128) zeros2, View.ld_unit_zero (S := S2000x1) zeros2, View.ld_unit_zero (S := S512x128) zeros2, View.ld_unit_zero (S := S512x1) zeros2, View.ld_unit_zero (S := S128x6) zeros2, View.ld_unit_zero (S := S1x6) zeros2, View.ld_unit_zero (S := S512x6) zeros2, View.readCov_unit_zero (S := S512x128) _ zeros2, View.readCov_unit_zero (S := S512x1) _ zeros2]
  isplitl [H13]
  · iexists _; isplitr
    swap; · iexact H13
    ipureintro
    sl_unfold_words
    rw [whole_store_read rfl _ _ zeros2]
    simp only [View.readAt_eq_ld, View.ld_unit_zero (S := S2000x128) zeros2, View.ld_unit_zero (S := S128x128) zeros2, View.ld_unit_zero (S := S1x128) zeros2, View.ld_unit_zero (S := S2000x1) zeros2, View.ld_unit_zero (S := S512x128) zeros2, View.ld_unit_zero (S := S512x1) zeros2, View.ld_unit_zero (S := S128x6) zeros2, View.ld_unit_zero (S := S1x6) zeros2, View.ld_unit_zero (S := S512x6) zeros2, View.readCov_unit_zero (S := S512x128) _ zeros2, View.readCov_unit_zero (S := S512x1) _ zeros2]
  · iexists _; isplitr
    swap; · iexact H14
    ipureintro
    sl_unfold_words
    rw [whole_store_read rfl _ _ zeros2]
    simp only [View.readAt_eq_ld, View.ld_unit_zero (S := S2000x128) zeros2, View.ld_unit_zero (S := S128x128) zeros2, View.ld_unit_zero (S := S1x128) zeros2, View.ld_unit_zero (S := S2000x1) zeros2, View.ld_unit_zero (S := S512x128) zeros2, View.ld_unit_zero (S := S512x1) zeros2, View.ld_unit_zero (S := S128x6) zeros2, View.ld_unit_zero (S := S1x6) zeros2, View.ld_unit_zero (S := S512x6) zeros2, View.readCov_unit_zero (S := S512x128) _ zeros2, View.readCov_unit_zero (S := S512x1) _ zeros2]

end Cert.KernelIdeal.Pool

end
-- ==== Proof.PoolData.lean ====
import proofs.«405799_j23536420782504_2_alg».proof.Proof.Gen.KernelIdeal.Launch
import proofs.«405799_j23536420782504_2_alg».proof.Proof.Gen.KernelIdeal.Skeleton
import proofs.«405799_j23536420782504_2_alg».proof.Proof.Gen.KernelIdeal.Points
import proofs.«405799_j23536420782504_2_alg».proof.Proof.PoolStep
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-!
  The second kernel region over its 25 grid points: what the two accumulators hold after each point, by recursion on the
  point (zeroed and updated by tile 0 at the first, updated by tile n from what point n − 1 left afterwards); the region's
  invariant, which carries exactly those contents from one point to the next; and the body's obligation at every point,
  by the three cases of the body's run.
-/

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Tile `t`'s second-layer features and one-hot id matrix, from the region's arrays. -/
abbrev featAt (c : Dev nD) (t : Fin cfg1.N) : FVec F S2000x128 .bf16 :=
  feat (blk V c 0 t) (blk V c 1 t) (blk V c 3 t) (blk V c 4 t) (blk V c 5 t) (blk V c 6 t)
abbrev hotAt (c : Dev nD) (t : Fin cfg1.N) : FVec F S2000x512 .bf16 := onehot (blk V c 2 t)

/-- The accumulators (sums, counts) after point `n`. -/
def accAt (c : Dev nD) : (n : ℕ) → n < cfg1.N → Vec F S512x128 .f32 × Vec F S512x1 .f32
  | 0, h => (k1_pay1 (featAt V c ⟨0, h⟩) (hotAt V c ⟨0, h⟩) (k1_pay4 (F := F)), k1_pay2 (hotAt V c ⟨0, h⟩) (k1_pay5 (F := F)))
  | n + 1, h => (k1_pay1 (featAt V c ⟨n + 1, h⟩) (hotAt V c ⟨n + 1, h⟩) (accAt c n (Nat.lt_of_succ_lt h)).1,
      k1_pay2 (hotAt V c ⟨n + 1, h⟩) (accAt c n (Nat.lt_of_succ_lt h)).2)

theorem accAt_first (c : Dev nD) (t : Fin cfg1.N) (hz : t.val = 0) :
    accAt V c t.val t.isLt = (k1_pay1 (featAt V c t) (hotAt V c t) (k1_pay4 (F := F)), k1_pay2 (hotAt V c t) (k1_pay5 (F := F))) := by
  obtain ⟨n, hn⟩ := t; cases n with
  | zero => rfl
  | succ n => exact absurd hz (Nat.succ_ne_zero n)

theorem accAt_next (c : Dev nD) (t : Fin cfg1.N) (hz : t.val ≠ 0) :
    accAt V c t.val t.isLt = (k1_pay1 (featAt V c t) (hotAt V c t) (accAt V c (t.val - 1) (by omega)).1,
      k1_pay2 (hotAt V c t) (accAt V c (t.val - 1) (by omega)).2) := by
  obtain ⟨n, hn⟩ := t; cases n with
  | zero => exact absurd rfl hz
  | succ n => rfl

/-- What the last point stores into the output block (at an earlier point: a value nothing consults). -/
def outAt (c : Dev nD) (t : Fin cfg1.N) : Vec F S512x6 .f32 :=
  k1_pay3 (accAt V c t.val t.isLt).1 (accAt V c t.val t.isLt).2 (blk V c 7 t) (blk V c 8 t) (blk V c 9 t) (blk V c 10 t)

/-! ## The invariant -/

abbrev scSum : Memref sig .tc .vmem S512x128 .f32 := Memref.whole cc1_scratch0
abbrev scCnt : Memref sig .tc .vmem S512x1 .f32 := Memref.whole cc1_scratch1

/-- The core's scoped buffers that this region stages nothing in: the first region's ten staging buffers at anything,
    then the two accumulators as `P`, `P'` say. -/
def heldScoped (c : Dev nD) (P P' : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ P ∗ P')

theorem PhiA_eq (c : Dev nD) :
    (Pipeline.ΦA spec1 c : sProp 𝕄)
      = iprop(heldScoped c (iprop(∃ d, owns (c : Thread nD τ) scSum fullShare d)) (iprop(∃ d, owns (c : Thread nD τ) scCnt fullShare d)) ∗ (∃ r, prngReg c r)) := by
  unfold Pipeline.ΦA heldScoped; rw [scopedRest1_eq]; simp only [scSum, scCnt, owns_whole]; try rfl

/-- Before point `n`: the class's invariant before the first; afterwards the accumulators at what point `n − 1` left. -/
def PhiS (c : Dev nD) : (n : ℕ) → n ≤ cfg1.N → sProp 𝕄
  | 0, _ => Pipeline.ΦA spec1 c
  | n + 1, hn => iprop(heldScoped c (owns (c : Thread nD τ) scSum fullShare (accAt V c n hn).1)
      (owns (c : Thread nD τ) scCnt fullShare (accAt V c n hn).2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(heldScoped c (owns (c : Thread nD τ) scSum fullShare (accAt V c n hn).1)
      (owns (c : Thread nD τ) scCnt fullShare (accAt V c n hn).2) ∗ (∃ r, prngReg c r)) := rfl
theorem PhiS_pos (c : Dev nD) (n : ℕ) (h : n ≤ cfg1.N) (hz : n ≠ 0) :
    PhiS V c n h = iprop(heldScoped c (owns (c : Thread nD τ) scSum fullShare (accAt V c (n - 1) (by omega)).1)
      (owns (c : Thread nD τ) scCnt fullShare (accAt V c (n - 1) (by omega)).2) ∗ (∃ r, prngReg c r)) := by
  cases n with
  | zero => exact absurd rfl hz
  | succ n => rfl

/-! ## The region's proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => outAt V c t
  Φ t := PhiS V c t.val (Nat.le_of_lt_succ t.isLt)
  q _ := fullShare
  owed _ := 0

theorem dat_A (c : Dev nD) (w : Fin cfg1.W) : (dat V c).A w = V c (Pipeline.arrRef spec1 w) := by
  dsimp only [dat]
theorem Phi_castSucc (c : Dev nD) (t : Fin cfg1.N) : (dat V c).Φ t.castSucc = PhiS V c t.val (Nat.le_of_lt t.isLt) := by
  dsimp only [dat]; simp only [Fin.coe_castSucc]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_6 (c : Dev nD) (t : Fin cfg1.N) : (dat V c).after 6 t = blk V c 6 t := by dsimp only [dat]
theorem after_7 (c : Dev nD) (t : Fin cfg1.N) : (dat V c).after 7 t = blk V c 7 t := by dsimp only [dat]
theorem after_8 (c : Dev nD) (t : Fin cfg1.N) : (dat V c).after 8 t = blk V c 8 t := by dsimp only [dat]
theorem after_9 (c : Dev nD) (t : Fin cfg1.N) : (dat V c).after 9 t = blk V c 9 t := by dsimp only [dat]
theorem after_10 (c : Dev nD) (t : Fin cfg1.N) : (dat V c).after 10 t = blk V c 10 t := by dsimp only [dat]
theorem after_11 (c : Dev nD) (t : Fin cfg1.N) : (dat V c).after 11 t = outAt V c t := by dsimp only [dat]

/-! An input window's current buffer holds its block at every point, whether this point fetched it or an earlier
    one did: its block index has not moved since, the window is never cut and never idle. -/
theorem before_0 (c : Dev nD) (t : Fin cfg1.N) (d) : (dat V c).before 0 t d = blk V c 0 t :=
  ((dat V c).before_in_eq_fetched 0 rfl (fun _ => rfl) (fun _ _ _ => rfl)
      (fun t => by rw [after_0]; unfold Dat.blockOf blk; rw [dat_A]; try rfl) t d).trans
    (by unfold Dat.fetched Dat.blockOf blk; rw [dat_A]; try rfl)
theorem before_1 (c : Dev nD) (t : Fin cfg1.N) (d) : (dat V c).before 1 t d = blk V c 1 t :=
  ((dat V c).before_in_eq_fetched 1 rfl (fun _ => rfl) (fun _ _ _ => rfl)
      (fun t => by rw [after_1]; unfold Dat.blockOf blk; rw [dat_A]; try rfl) t d).trans
    (by unfold Dat.fetched Dat.blockOf blk; rw [dat_A]; try rfl)
theorem before_2 (c : Dev nD) (t : Fin cfg1.N) (d) : (dat V c).before 2 t d = blk V c 2 t :=
  ((dat V c).before_in_eq_fetched 2 rfl (fun _ => rfl) (fun _ _ _ => rfl)
      (fun t => by rw [after_2]; unfold Dat.blockOf blk; rw [dat_A]; try rfl) t d).trans
    (by unfold Dat.fetched Dat.blockOf blk; rw [dat_A]; try rfl)
theorem before_3 (c : Dev nD) (t : Fin cfg1.N) (d) : (dat V c).before 3 t d = blk V c 3 t :=
  ((dat V c).before_in_eq_fetched 3 rfl (fun _ => rfl) (fun _ _ _ => rfl)
      (fun t => by rw [after_3]; unfold Dat.blockOf blk; rw [dat_A]; try rfl) t d).trans
    (by unfold Dat.fetched Dat.blockOf blk; rw [dat_A]; try rfl)
theorem before_4 (c : Dev nD) (t : Fin cfg1.N) (d) : (dat V c).before 4 t d = blk V c 4 t :=
  ((dat V c).before_in_eq_fetched 4 rfl (fun _ => rfl) (fun _ _ _ => rfl)
      (fun t => by rw [after_4]; unfold Dat.blockOf blk; rw [dat_A]; try rfl) t d).trans
    (by unfold Dat.fetched Dat.blockOf blk; rw [dat_A]; try rfl)
theorem before_5 (c : Dev nD) (t : Fin cfg1.N) (d) : (dat V c).before 5 t d = blk V c 5 t :=
  ((dat V c).before_in_eq_fetched 5 rfl (fun _ => rfl) (fun _ _ _ => rfl)
      (fun t => by rw [after_5]; unfold Dat.blockOf blk; rw [dat_A]; try rfl) t d).trans
    (by unfold Dat.fetched Dat.blockOf blk; rw [dat_A]; try rfl)
theorem before_6 (c : Dev nD) (t : Fin cfg1.N) (d) : (dat V c).before 6 t d = blk V c 6 t :=
  ((dat V c).before_in_eq_fetched 6 rfl (fun _ => rfl) (fun _ _ _ => rfl)
      (fun t => by rw [after_6]; unfold Dat.blockOf blk; rw [dat_A]; try rfl) t d).trans
    (by unfold Dat.fetched Dat.blockOf blk; rw [dat_A]; try rfl)
theorem before_7 (c : Dev nD) (t : Fin cfg1.N) (d) : (dat V c).before 7 t d = blk V c 7 t :=
  ((dat V c).before_in_eq_fetched 7 rfl (fun _ => rfl) (fun _ _ _ => rfl)
      (fun t => by rw [after_7]; unfold Dat.blockOf blk; rw [dat_A]; try rfl) t d).trans
    (by unfold Dat.fetched Dat.blockOf blk; rw [dat_A]; try rfl)
theorem before_8 (c : Dev nD) (t : Fin cfg1.N) (d) : (dat V c).before 8 t d = blk V c 8 t :=
  ((dat V c).before_in_eq_fetched 8 rfl (fun _ => rfl) (fun _ _ _ => rfl)
      (fun t => by rw [after_8]; unfold Dat.blockOf blk; rw [dat_A]; try rfl) t d).trans
    (by unfold Dat.fetched Dat.blockOf blk; rw [dat_A]; try rfl)
theorem before_9 (c : Dev nD) (t : Fin cfg1.N) (d) : (dat V c).before 9 t d = blk V c 9 t :=
  ((dat V c).before_in_eq_fetched 9 rfl (fun _ => rfl) (fun _ _ _ => rfl)
      (fun t => by rw [after_9]; unfold Dat.blockOf blk; rw [dat_A]; try rfl) t d).trans
    (by unfold Dat.fetched Dat.blockOf blk; rw [dat_A]; try rfl)
theorem before_10 (c : Dev nD) (t : Fin cfg1.N) (d) : (dat V c).before 10 t d = blk V c 10 t :=
  ((dat V c).before_in_eq_fetched 10 rfl (fun _ => rfl) (fun _ _ _ => rfl)
      (fun t => by rw [after_10]; unfold Dat.blockOf blk; rw [dat_A]; try rfl) t d).trans
    (by unfold Dat.fetched Dat.blockOf blk; rw [dat_A]; try rfl)

/-! ## The two conditions over the grid -/

theorem hFirst : ∀ t : Fin cfg1.N, atFirst (grid1.coords t) ↔ t.val = 0 :=
  (by decide +kernel : ∀ t : Fin grid1.N, atFirst (grid1.coords t) ↔ t.val = 0)
theorem hLast : ∀ t : Fin cfg1.N, atLast (grid1.coords t) ↔ t.val = 24 :=
  (by decide +kernel : ∀ t : Fin grid1.N, atLast (grid1.coords t) ↔ t.val = 24)
theorem idle11 : ∀ t : Fin cfg1.N, ¬atLast (grid1.coords t) → cfg1.idle 11 (grid1.coords t) = true := by decide +kernel
theorem noFlush11 : ∀ t : Fin cfg1.N, ¬atLast (grid1.coords t) → (cfg1.win 11).flush t = false := by decide +kernel
theorem live11 : ∀ t : Fin cfg1.N, atLast (grid1.coords t) → cfg1.idle 11 (grid1.coords t) = false := by decide +kernel

/-! ## The body obligation -/

set_option maxHeartbeats 4000000 in
theorem obligation (c : Dev nD) : BodyObligation (dat (F := F) V c) (defs₀ (F := F)) Variants.none () Set.univ := fun t => by
  rw [bigSep_W1, bigSep_W1]
  show iprop((dat V c).Φ t.castSucc ∗ (dat V c).owesAt () t.castSucc
      ∗ (∃ d, owns (c : Thread nD τ) (st1_0 t) fullShare ((dat V c).before 0 t d))
      ∗ (∃ d, owns (c : Thread nD τ) (st1_1 t) fullShare ((dat V c).before 1 t d))
      ∗ (∃ d, owns (c : Thread nD τ) (st1_2 t) fullShare ((dat V c).before 2 t d))
      ∗ (∃ d, owns (c : Thread nD τ) (st1_3 t) fullShare ((dat V c).before 3 t d))
      ∗ (∃ d, owns (c : Thread nD τ) (st1_4 t) fullShare ((dat V c).before 4 t d))
      ∗ (∃ d, owns (c : Thread nD τ) (st1_5 t) fullShare ((dat V c).before 5 t d))
      ∗ (∃ d, owns (c : Thread nD τ) (st1_6 t) fullShare ((dat V c).before 6 t d))
      ∗ (∃ d, owns (c : Thread nD τ) (st1_7 t) fullShare ((dat V c).before 7 t d))
      ∗ (∃ d, owns (c : Thread nD τ) (st1_8 t) fullShare ((dat V c).before 8 t d))
      ∗ (∃ d, owns (c : Thread nD τ) (st1_9 t) fullShare ((dat V c).before 9 t d))
      ∗ (∃ d, owns (c : Thread nD τ) (st1_10 t) fullShare ((dat V c).before 10 t d))
      ∗ (∃ d, owns (c : Thread nD τ) (st1_11 t) fullShare ((dat V c).before 11 t d)))
    ⊢ wp frame (wpE (defs₀ (F := F)) Variants.none c none) Set.univ (bodyAt1 t) (fun _ =>
      iprop((dat V c).Φ t.succ ∗ (dat V c).owesAt () t.succ
        ∗ owns (c : Thread nD τ) (st1_0 t) fullShare ((dat V c).after 0 t)
        ∗ owns (c : Thread nD τ) (st1_1 t) fullShare ((dat V c).after 1 t)
        ∗ owns (c : Thread nD τ) (st1_2 t) fullShare ((dat V c).after 2 t)
        ∗ owns (c : Thread nD τ) (st1_3 t) fullShare ((dat V c).after 3 t)
        ∗ owns (c : Thread nD τ) (st1_4 t) fullShare ((dat V c).after 4 t)
        ∗ owns (c : Thread nD τ) (st1_5 t) fullShare ((dat V c).after 5 t)
        ∗ owns (c : Thread nD τ) (st1_6 t) fullShare ((dat V c).after 6 t)
        ∗ owns (c : Thread nD τ) (st1_7 t) fullShare ((dat V c).after 7 t)
        ∗ owns (c : Thread nD τ) (st1_8 t) fullShare ((dat V c).after 8 t)
        ∗ owns (c : Thread nD τ) (st1_9 t) fullShare ((dat V c).after 9 t)
        ∗ owns (c : Thread nD τ) (st1_10 t) fullShare ((dat V c).after 10 t)
        ∗ (dat V c).leavesExact 11 t))
  simp only [before_0, before_1, before_2, before_3, before_4, before_5, before_6, before_7, before_8, before_9, before_10]
  rw [show (dat V c).owesAt () t.succ = (dat V c).owesAt () t.castSucc from rfl,
    show (dat V c).Φ t.succ = PhiS V c (t.val + 1) t.isLt from rfl, PhiS_succ,
    after_0, after_1, after_2, after_3, after_4, after_5, after_6, after_7, after_8, after_9, after_10]
  unfold bodyAt1
  have hN : t.val < 25 := lt_of_lt_of_eq t.isLt (show cfg1.N = 25 from N_1)
  by_cases hz : t.val = 0
  · have hl : ¬t.val = 24 := by omega
    rw [Dat.leavesExact_idle (dat V c) 11 t (idle11 t (fun h => hl ((hLast t).mp h))) (noFlush11 t (fun h => hl ((hLast t).mp h)))]
    rw [accAt_first V c t hz]
    (try dsimp only)
    rw [Phi_castSucc V c t, PhiS_zero V c _ _ hz, PhiA_eq]
    unfold heldScoped
    iintro ⟨⟨⟨R0, R1, R2, R3, R4, R5, R6, R7, R8, R9, HS, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_first c Set.univ (grid1.coords t) _ _ _ _ _ _ _ _ _ _ _ _ _ _ _ _ _ _ _ _ _ _ _ _ _ _ _ _ ((hFirst t).mpr hz) (fun h => hl ((hLast t).mp h)) (blk V c 0 t) (blk V c 1 t) (blk V c 2 t) (blk V c 3 t) (blk V c 4 t) (blk V c 5 t) (blk V c 6 t) (blk V c 7 t) (blk V c 8 t) (blk V c 9 t) (blk V c 10 t) ((dat V c).before 11 t d11) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS]; · iexact HS
    isplitl [HC]; · iexact HC
    iintro ⟨H0, H1, H2, H3, H4, H5, H6, H7, H8, H9, H10, H11, HS, HC⟩
    isplitl [R0 R1 R2 R3 R4 R5 R6 R7 R8 R9 HS HC Hg]
    · isplitr [Hg]
      swap; · iexact Hg
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [HS]; · iexact HS
      iexact HC
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11
  · by_cases hl : t.val = 24
    · rw [show (dat V c).leavesExact 11 t = owns (c : Thread nD τ) (st1_11 t) fullShare ((dat V c).after 11 t) from by
          unfold Dat.leavesExact; rw [live11 t ((hLast t).mpr hl)], after_11, outAt, accAt_next V c t hz]
      (try dsimp only)
      rw [Phi_castSucc V c t, PhiS_pos V c _ _ hz]
      unfold heldScoped
      iintro ⟨⟨⟨R0, R1, R2, R3, R4, R5, R6, R7, R8, R9, HS, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_last c Set.univ (grid1.coords t) _ _ _ _ _ _ _ _ _ _ _ _ _ _ _ _ _ _ _ _ _ _ _ _ _ _ _ _ (fun h => hz ((hFirst t).mp h)) ((hLast t).mpr hl) (blk V c 0 t) (blk V c 1 t) (blk V c 2 t) (blk V c 3 t) (blk V c 4 t) (blk V c 5 t) (blk V c 6 t) (blk V c 7 t) (blk V c 8 t) (blk V c 9 t) (blk V c 10 t) (accAt V c (t.val - 1) (by omega)).1 (accAt V c (t.val - 1) (by omega)).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS]; · iexact HS
      isplitl [HC]; · iexact HC
      iintro ⟨H0, H1, H2, H3, H4, H5, H6, H7, H8, H9, H10, H11, HS, HC⟩
      isplitl [R0 R1 R2 R3 R4 R5 R6 R7 R8 R9 HS HC Hg]
      · isplitr [Hg]
        swap; · iexact Hg
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [HS]; · iexact HS
        iexact HC
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [Dat.leavesExact_idle (dat V c) 11 t (idle11 t (fun h => hl ((hLast t).mp h))) (noFlush11 t (fun h => hl ((hLast t).mp h)))]
      rw [accAt_next V c t hz]
      (try dsimp only)
      rw [Phi_castSucc V c t, PhiS_pos V c _ _ hz]
      unfold heldScoped
      iintro ⟨⟨⟨R0, R1, R2, R3, R4, R5, R6, R7, R8, R9, HS, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_mid c Set.univ (grid1.coords t) _ _ _ _ _ _ _ _ _ _ _ _ _ _ _ _ _ _ _ _ _ _ _ _ _ _ _ _ (fun h => hz ((hFirst t).mp h)) (fun h => hl ((hLast t).mp h)) (blk V c 0 t) (blk V c 1 t) (blk V c 2 t) (blk V c 3 t) (blk V c 4 t) (blk V c 5 t) (blk V c 6 t) (blk V c 7 t) (blk V c 8 t) (blk V c 9 t) (blk V c 10 t) ((dat V c).before 11 t d11) (accAt V c (t.val - 1) (by omega)).1 (accAt V c (t.val - 1) (by omega)).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS]; · iexact HS
      isplitl [HC]; · iexact HC
      iintro ⟨H0, H1, H2, H3, H4, H5, H6, H7, H8, H9, H10, H11, HS, HC⟩
      isplitl [R0 R1 R2 R3 R4 R5 R6 R7 R8 R9 HS HC Hg]
      · isplitr [Hg]
        swap; · iexact Hg
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [HS]; · iexact HS
        iexact HC
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-! ## In and out of the region -/

theorem Phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulators' named contents are forgotten. -/
theorem Phi_out (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 25 := N_1; omega), PhiA_eq]
  unfold heldScoped
  iintro ⟨⟨R0, R1, R2, R3, R4, R5, R6, R7, R8, R9, HS, HC⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [HS]; · iexists _; iexact HS
  iexists _; iexact HC

end Cert.KernelIdeal.Pool

end
-- ==== Proof.WholeRun.lean ====
/-
  The whole program: host operations, the first kernel region, host operations, the second kernel region.
  The contents of the core's buffers are followed from the launch memory through the four segments: a stretch of host
  operations applies them; a kernel region leaves its output array at what its grid points wrote back and everything
  else as it was. From that: every weakly fair execution terminates without a fault, each argument array ends as launched
  (no host operation and no region writes one), and the result array ends at what the second region's last point wrote.
-/
import proofs.«405799_j23536420782504_2_alg».proof.Proof.MlpTile
import proofs.«405799_j23536420782504_2_alg».proof.Proof.PoolData
import proofs.«405799_j23536420782504_2_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m (c, b)
/-- After the first stretch of host operations: the first region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the grid's write-backs leave, everything else as entered. -/
def W2 (c : Dev nD) : Valuation τ sig (Elt F) :=
  Pipeline.withArrays spec0 c (W1 m c) fun w => (Mlp.dat (V1 m) c).arrAt w cfg0.N
theorem W2_arr (c : Dev nD) (w : Fin cfg0.W) :
    W2 m c (Proc.devRef .tc (Pipeline.arrRef spec0 w)) = (Mlp.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Mlp.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second stretch: the second region's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (Pool.dat (V3 m) c).arrAt w cfg1.N
theorem W4_arr (c : Dev nD) (w : Fin cfg1.W) :
    W4 m c (Proc.devRef .tc (Pipeline.arrRef spec1 w)) = (Pool.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Pool.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched; the result is the second region's output array -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((Mlp.dat (V1 m) c).arrAt_in 0 rfl _).trans (Mlp.dat_A (V1 m) c 0))
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
theorem W4_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl
theorem W4_main_arg8 (c : Dev nD) : W4 m c (Proc.devRef .tc main_arg8) = m ((c : Thread nD τ).loc main_arg8) :=
  calc W4 m c (Proc.devRef .tc main_arg8)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl
theorem W4_main_arg9 (c : Dev nD) : W4 m c (Proc.devRef .tc main_arg9) = m ((c : Thread nD τ).loc main_arg9) :=
  calc W4 m c (Proc.devRef .tc main_arg9)
    _ = W3 m c (Proc.devRef .tc main_arg9) := W4_of_ne m c main_arg9 (by decide)
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl
theorem W4_main_arg10 (c : Dev nD) : W4 m c (Proc.devRef .tc main_arg10) = m ((c : Thread nD τ).loc main_arg10) :=
  calc W4 m c (Proc.devRef .tc main_arg10)
    _ = W3 m c (Proc.devRef .tc main_arg10) := W4_of_ne m c main_arg10 (by decide)
    _ = W2 m c (Proc.devRef .tc main_arg10) := StableHlo.after_of_writes_sub hostOps1 _ hostOps1_writes (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl
theorem W4_main_arg11 (c : Dev nD) : W4 m c (Proc.devRef .tc main_arg11) = m ((c : Thread nD τ).loc main_arg11) :=
  calc W4 m c (Proc.devRef .tc main_arg11)
    _ = W3 m c (Proc.devRef .tc main_arg11) := W4_of_ne m c main_arg11 (by decide)
    _ = W2 m c (Proc.devRef .tc main_arg11) := StableHlo.after_of_writes_sub hostOps1 _ hostOps1_writes (by decide)
    _ = W1 m c (Proc.devRef .tc main_arg11) := W2_of_ne m c main_arg11 (by decide)
    _ = W0 m c (Proc.devRef .tc main_arg11) := StableHlo.after_of_writes_sub hostOps0 _ hostOps0_writes (by decide)
    _ = m ((c : Thread nD τ).loc main_arg11) := rfl
theorem W4_main_arg12 (c : Dev nD) : W4 m c (Proc.devRef .tc main_arg12) = m ((c : Thread nD τ).loc main_arg12) :=
  calc W4 m c (Proc.devRef .tc main_arg12)
    _ = W3 m c (Proc.devRef .tc main_arg12) := W4_of_ne m c main_arg12 (by decide)
    _ = W2 m c (Proc.devRef .tc main_arg12) := StableHlo.after_of_writes_sub hostOps1 _ hostOps1_writes (by decide)
    _ = W1 m c (Proc.devRef .tc main_arg12) := W2_of_ne m c main_arg12 (by decide)
    _ = W0 m c (Proc.devRef .tc main_arg12) := StableHlo.after_of_writes_sub hostOps0 _ hostOps0_writes (by decide)
    _ = m ((c : Thread nD τ).loc main_arg12) := rfl
theorem W4_main_arg13 (c : Dev nD) : W4 m c (Proc.devRef .tc main_arg13) = m ((c : Thread nD τ).loc main_arg13) :=
  calc W4 m c (Proc.devRef .tc main_arg13)
    _ = W3 m c (Proc.devRef .tc main_arg13) := W4_of_ne m c main_arg13 (by decide)
    _ = W2 m c (Proc.devRef .tc main_arg13) := StableHlo.after_of_writes_sub hostOps1 _ hostOps1_writes (by decide)
    _ = W1 m c (Proc.devRef .tc main_arg13) := W2_of_ne m c main_arg13 (by decide)
    _ = W0 m c (Proc.devRef .tc main_arg13) := StableHlo.after_of_writes_sub hostOps0 _ hostOps0_writes (by decide)
    _ = m ((c : Thread nD τ).loc main_arg13) := rfl
theorem W4_main_arg14 (c : Dev nD) : W4 m c (Proc.devRef .tc main_arg14) = m ((c : Thread nD τ).loc main_arg14) :=
  calc W4 m c (Proc.devRef .tc main_arg14)
    _ = W3 m c (Proc.devRef .tc main_arg14) := W4_of_ne m c main_arg14 (by decide)
    _ = W2 m c (Proc.devRef .tc main_arg14) := StableHlo.after_of_writes_sub hostOps1 _ hostOps1_writes (by decide)
    _ = W1 m c (Proc.devRef .tc main_arg14) := W2_of_ne m c main_arg14 (by decide)
    _ = W0 m c (Proc.devRef .tc main_arg14) := StableHlo.after_of_writes_sub hostOps0 _ hostOps0_writes (by decide)
    _ = m ((c : Thread nD τ).loc main_arg14) := rfl

theorem W4_result (c : Dev nD) : W4 m c (Proc.devRef .tc main_v42) = (Pool.dat (V3 m) c).arrAt 11 cfg1.N :=
  W4_arr m c 11

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Mlp.dat (V1 m) c
  | ⟨1, _⟩ => fun c => Pool.dat (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Mlp.obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Pool.obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Pool.Phi_in (V3 m) c)
    unfold Pipeline.ΦA
    iintro ⟨Hp, -, Hr⟩
    isplitl [Hr]; · iexact Hr
    iexact Hp
  hout c := by
    rw [Pipeline.ownSems0_none]
    refine BIBase.Entails.trans (Pool.Phi_out (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution terminates, and at the end every unscoped buffer of
    every core holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The same run, read at the result array and at the fifteen argument arrays: the result ends at what the second
    region's grid wrote back into its output array, every argument as launched. -/
theorem run_result (ρ : Dev nD → PrngReg) : θ_run defs (onTc (τ := τ) (main (F := F))) ⟨m, fun _ => 0, ρ⟩ (fun r => ∀ c : Dev nD,
      r.2.mem ((c.tc : Thread nD τ).loc main_v42) = (Pool.dat (V3 m) c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨
      (h c _ (mem_uc main_v42 (by decide))).trans (W4_result m c),
      (h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c),
      (h c _ (mem_uc main_arg7 (by decide))).trans (W4_main_arg7 m c),
      (h c _ (mem_uc main_arg8 (by decide))).trans (W4_main_arg8 m c),
      (h c _ (mem_uc main_arg9 (by decide))).trans (W4_main_arg9 m c),
      (h c _ (mem_uc main_arg10 (by decide))).trans (W4_main_arg10 m c),
      (h c _ (mem_uc main_arg11 (by decide))).trans (W4_main_arg11 m c),
      (h c _ (mem_uc main_arg12 (by decide))).trans (W4_main_arg12 m c),
      (h c _ (mem_uc main_arg13 (by decide))).trans (W4_main_arg13 m c),
      (h c _ (mem_uc main_arg14 (by decide))).trans (W4_main_arg14 m c)⟩)
    (run_all m ρ)

end Cert.KernelIdeal.Whole

end
-- ==== Proof.LibPlainDot.lean ====
/-
  Matrix products at the ideal values, read as plain sums over one contraction coordinate.

  A product whose dimension numbers are the library's `DotDims.plain M K N` (rows × contraction times contraction × columns, no batch
  axis) is, at the result index (r, c), the sum over k : Fin K of lhs (r, k) · rhs (k, c); one whose numbers are
  `DotDims.transposedRhs M K N` (the right operand contracted on its LAST axis) is the sum over k of lhs (r, k) · rhs (c, k).
  Stated for a kernel's `tpu.matmul` into the zero accumulator and for the host's `dot_general`, at every M, K, N: a printed
  record with these six lists is one of the two by `rfl` (the well-formedness field is a proposition).
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-! ## The operand indices of a plain product, axis by axis -/

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs_1 (i : (⟨2, ![M, N]⟩ : Shape).Idx) (q : (DotDims.plain M K N).contr.Idx) :
    ((DotDims.plain M K N).lhsIdx i q 1).val = (q ⟨0, Nat.zero_lt_one⟩).val :=
  (DotDims.plain M K N).lhsIdx_val_of_single rfl i q
theorem plain_rhs_0 (i : (⟨2, ![M, N]⟩ : Shape).Idx) (q : (DotDims.plain M K N).contr.Idx) :
    ((DotDims.plain M K N).rhsIdx i q 0).val = (q ⟨0, Nat.zero_lt_one⟩).val :=
  (DotDims.plain M K N).rhsIdx_val_of_single rfl i q
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape of a plain product, re-indexed by the one contraction coordinate. -/
theorem plain_sum (lhs : (⟨2, ![M, K]⟩ : Shape).Idx → EReal) (rhs : (⟨2, ![K, N]⟩ : Shape).Idx → EReal)
    (i : (⟨2, ![M, N]⟩ : Shape).Idx) :
    (∑ q : (DotDims.plain M K N).contr.Idx, lhs ((DotDims.plain M K N).lhsIdx i q) * rhs ((DotDims.plain M K N).rhsIdx i q))
      = ∑ k : Fin K, lhs (ix2 (i 0) k) * rhs (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 M K N _ _
      | ⟨1, _⟩ => exact (plain_lhs_1 M K N _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 M K N _ _).trans hk
      | ⟨1, _⟩ => exact plain_rhs_1 M K N _ _)
  exact congrArg₂ (fun a b : EReal => a * b) (congrArg lhs el) (congrArg rhs er)

/-- A kernel's `tpu.matmul` with plain dimension numbers into the zero accumulator, at an index. -/
theorem matmul_plain_zero_apply {φ₁ φ₂ : FTy} (prec : Option ContractPrecision)
    (lhs : FVec Ideal ⟨2, ![M, K]⟩ φ₁) (rhs : FVec Ideal ⟨2, ![K, N]⟩ φ₂) (i : (⟨2, ![M, N]⟩ : Shape).Idx) :
    FloatOps.matmul (DotDims.plain M K N) prec lhs rhs (constant ⟨2, ![M, N]⟩ .f32 0x00000000#32) i
      = ∑ k : Fin K, lhs (ix2 (i 0) k) * rhs (ix2 k (i 1)) := by
  rw [Ideal.matmul_constant_zero_apply]
  exact plain_sum M K N lhs rhs i

/-- The host's `dot_general` with plain dimension numbers, at an index. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (i : (⟨2, ![M, N]⟩ : Shape).Idx) :
    FloatOps.dotGeneral (DotDims.plain M K N) prec sched lhs rhs i = ∑ k : Fin K, lhs (ix2 (i 0) k) * rhs (ix2 k (i 1)) := by
  rw [Ideal.dotGeneral_apply]
  exact plain_sum M K N lhs rhs i

/-- The two at explicit coordinates (r, c): the form a proof rewrites with, free of the index's dependent coordinate types. -/
theorem matmul_plain_zero_ix2 {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, (lhs (ix2 r k) : EReal) * (rhs (ix2 k c) : EReal) :=
  matmul_plain_zero_apply M K N prec lhs rhs (ix2 r c)
theorem dotGeneral_plain_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, (lhs (ix2 r k) : EReal) * (rhs (ix2 k c) : EReal) :=
  dotGeneral_plain_apply M K N prec sched lhs rhs (ix2 r c)

/-! ## The right operand contracted on its last axis -/

theorem transposedRhs_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
theorem transposedRhs_lhs_1 (i : (⟨2, ![M, N]⟩ : Shape).Idx) (q : (DotDims.transposedRhs M K N).contr.Idx) :
    ((DotDims.transposedRhs M K N).lhsIdx i q 1).val = (q ⟨0, Nat.zero_lt_one⟩).val :=
  (DotDims.transposedRhs M K N).lhsIdx_val_of_single rfl i q
theorem transposedRhs_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
theorem transposedRhs_rhs_1 (i : (⟨2, ![M, N]⟩ : Shape).Idx) (q : (DotDims.transposedRhs M K N).contr.Idx) :
    ((DotDims.transposedRhs M K N).rhsIdx i q 1).val = (q ⟨0, Nat.zero_lt_one⟩).val :=
  (DotDims.transposedRhs M K N).rhsIdx_val_of_single rfl i q

/-- The host's `dot_general` contracting both operands' last axes, at an index. -/
theorem dotGeneral_transposedRhs_apply {φ₁ φ₂ : FTy} (prec : Option ContractPrecision) (sched : HostSchedule)
    (lhs : FVec Ideal ⟨2, ![M, K]⟩ φ₁) (rhs : FVec Ideal ⟨2, ![N, K]⟩ φ₂) (i : (⟨2, ![M, N]⟩ : Shape).Idx) :
    FloatOps.dotGeneral (DotDims.transposedRhs M K N) prec sched lhs rhs i
      = ∑ k : Fin K, lhs (ix2 (i 0) k) * rhs (ix2 (i 1) k) := by
  rw [Ideal.dotGeneral_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k) = ix2 (i 0) k :=
    funext fun a => Fin.ext (by
      match a with
      | ⟨0, _⟩ => exact transposedRhs_lhs_0 M K N _ _
      | ⟨1, _⟩ => exact (transposedRhs_lhs_1 M K N _ _).trans hk)
  have er : (DotDims.transposedRhs M K N).rhsIdx i ((contrEquiv1 (DotDims.transposedRhs M K N) K rfl rfl).symm k) = ix2 (i 1) k :=
    funext fun a => Fin.ext (by
      match a with
      | ⟨0, _⟩ => exact transposedRhs_rhs_0 M K N _ _
      | ⟨1, _⟩ => exact (transposedRhs_rhs_1 M K N _ _).trans hk)
  exact congrArg₂ (fun a b : EReal => a * b) (congrArg lhs el) (congrArg rhs er)

theorem dotGeneral_transposedRhs_ix2 {φ₁ φ₂ : FTy} (prec : Option ContractPrecision) (sched : HostSchedule)
    (lhs : FVec Ideal ⟨2, ![M, K]⟩ φ₁) (rhs : FVec Ideal ⟨2, ![N, K]⟩ φ₂) (r : Fin M) (c : Fin N) :
    FloatOps.dotGeneral (DotDims.transposedRhs M K N) prec sched lhs rhs (ix2 r c)
      = ∑ k : Fin K, (lhs (ix2 r k) : EReal) * (rhs (ix2 c k) : EReal) :=
  dotGeneral_transposedRhs_apply M K N prec sched lhs rhs (ix2 r c)

end Cert.Lib.PlainDot

end
-- ==== Proof.Spec.lean ====
/-
  The network as plain mathematics on the extended reals, over explicit coordinates.

  A graph-isomorphism layer sends node features h (with neighbour sums a) to relu(relu((h + a)·Wa + ba)·Wb + bb), row by row.
  Mean pooling over graph ids sums the rows of each graph and divides by max(count, 1); a scatter-sum into zeros reads
  "zero plus the sum of the rows whose id is g", which is how both are written here. The head is relu(p·Wf1 + bf1)·Wf2 + bf2
  followed by 1 / (1 + exp(−·)).

  The one law of the file: a sum accumulated tile by tile, each tile's contribution the product of its one-hot id matrix
  with its rows, is the sum over all rows with that id. Multiplying by a one-hot entry needs only 0·y = 0 and 1·y = y,
  which hold at the infinities too, and the rest is re-association of one finite sum; no finiteness is used.
-/
import Idealize.ShloMosaic.PureOps.Ideal
import Mathlib.Algebra.BigOperators.Fin
import Mathlib.Algebra.BigOperators.Ring.Finset

noncomputable section

namespace Cert.Spec

open Idealize.ShloMosaic

/-- One layer at row `n`, column `c`, of features `h` and neighbour sums `a` over `N` rows. -/
def layer {N : Nat} (h a : Fin N → Fin 128 → EReal) (Wa : Fin 128 → Fin 128 → EReal) (ba : Fin 128 → EReal)
    (Wb : Fin 128 → Fin 128 → EReal) (bb : Fin 128 → EReal) (n : Fin N) (c : Fin 128) : EReal :=
  max (∑ k : Fin 128, max (∑ j : Fin 128, (h n j + a n j) * Wa j k + ba k) 0 * Wb k c + bb c) 0

/-- The rows of graph `g` summed, column `c`, written as a scatter-sum into zeros reads. -/
def segSum {N : Nat} (id : Fin N → BitVec 32) (h : Fin N → Fin 128 → EReal) (g : Fin 512) (c : Fin 128) : EReal :=
  0 + ∑ n ∈ Finset.univ.filter (fun n : Fin N => id n = BitVec.ofNat 32 g.val), h n c

/-- The number of rows of graph `g`, the same way. -/
def segCount {N : Nat} (id : Fin N → BitVec 32) (g : Fin 512) : EReal :=
  0 + ∑ n ∈ Finset.univ.filter (fun n : Fin N => id n = BitVec.ofNat 32 g.val), (1 : EReal)

/-- The mean of graph `g`'s rows, an empty graph counted as one row. -/
def pooled {N : Nat} (id : Fin N → BitVec 32) (h : Fin N → Fin 128 → EReal) (g : Fin 512) (c : Fin 128) : EReal :=
  Ideal.div (segSum id h g c) (max (segCount id g) 1)

/-- The classifier head on pooled features `p`, before the sigmoid. -/
def headPre (p : Fin 512 → Fin 128 → EReal) (Wf1 : Fin 128 → Fin 128 → EReal) (bf1 : Fin 128 → EReal)
    (Wf2 : Fin 128 → Fin 6 → EReal) (bf2 : Fin 6 → EReal) (g : Fin 512) (o : Fin 6) : EReal :=
  ∑ k : Fin 128, max (∑ j : Fin 128, p g j * Wf1 j k + bf1 k) 0 * Wf2 k o + bf2 o

/-- The network's output at graph `g`, class `o`, from second-layer features `h2`. -/
def out {N : Nat} (id : Fin N → BitVec 32) (h2 : Fin N → Fin 128 → EReal) (Wf1 : Fin 128 → Fin 128 → EReal) (bf1 : Fin 128 → EReal)
    (Wf2 : Fin 128 → Fin 6 → EReal) (bf2 : Fin 6 → EReal) (g : Fin 512) (o : Fin 6) : EReal :=
  Ideal.logistic (headPre (pooled id h2) Wf1 bf1 Wf2 bf2 g o)

/-! ## Tile by tile -/

/-- A one-hot entry: one where the row's id is `g`, zero elsewhere. -/
def hot (w : BitVec 32) (g : Fin 512) : EReal := if w = BitVec.ofNat 32 g.val then 1 else 0

/-- The accumulator after the first `t` tiles of `R` rows: zero, then each tile's one-hot product added on. -/
def tileAcc {T R : Nat} (id : Fin T → Fin R → BitVec 32) (y : Fin T → Fin R → EReal) (g : Fin 512) : (t : Nat) → t ≤ T → EReal
  | 0, _ => 0
  | t + 1, ht => tileAcc id y g t (Nat.le_of_succ_le ht) + ∑ r : Fin R, hot (id ⟨t, ht⟩ r) g * y ⟨t, ht⟩ r

/-- The accumulated tiles are the sum over the tiles' rows with id `g`. -/
theorem tileAcc_eq {T R : Nat} (id : Fin T → Fin R → BitVec 32) (y : Fin T → Fin R → EReal) (g : Fin 512) :
    tileAcc id y g T le_rfl
      = ∑ p ∈ (Finset.univ : Finset (Fin T × Fin R)).filter (fun p => id p.1 p.2 = BitVec.ofNat 32 g.val), y p.1 p.2 := by
  have aux : ∀ (t : Nat) (ht : t ≤ T), tileAcc id y g t ht
      = ∑ p ∈ (Finset.univ : Finset (Fin T × Fin R)).filter
          (fun p => p.1.val < t ∧ id p.1 p.2 = BitVec.ofNat 32 g.val), y p.1 p.2 := by
    intro t
    induction t with
    | zero =>
      intro ht
      rw [Finset.sum_filter]
      exact (Finset.sum_eq_zero fun p _ => if_neg (fun h => Nat.not_lt_zero _ h.1)).symm
    | succ t ih =>
      intro ht
      show tileAcc id y g t (Nat.le_of_succ_le ht) + ∑ r : Fin R, hot (id ⟨t, ht⟩ r) g * y ⟨t, ht⟩ r = _
      rw [ih (Nat.le_of_succ_le ht), Finset.sum_filter, Finset.sum_filter]
      -- the new tile's rows, as a sum over all pairs that vanishes off the tile
      have hrow : (∑ r : Fin R, hot (id ⟨t, ht⟩ r) g * y ⟨t, ht⟩ r)
          = ∑ p : Fin T × Fin R, if p.1.val = t ∧ id p.1 p.2 = BitVec.ofNat 32 g.val then y p.1 p.2 else 0 := by
        rw [Fintype.sum_prod_type, Finset.sum_eq_single (⟨t, ht⟩ : Fin T)]
        · refine Finset.sum_congr rfl fun r _ => ?_
          unfold hot
          by_cases h : id ⟨t, ht⟩ r = BitVec.ofNat 32 g.val
          · rw [if_pos h, one_mul, if_pos ⟨rfl, h⟩]
          · rw [if_neg h, zero_mul, if_neg (fun hh => h hh.2)]
        · intro a _ ha
          exact Finset.sum_eq_zero fun r _ => if_neg (fun hh => ha (Fin.ext hh.1))
        · intro h
          exact absurd (Finset.mem_univ _) h
      rw [hrow, ← Finset.sum_add_distrib]
      refine Finset.sum_congr rfl fun p _ => ?_
      by_cases hP : id p.1 p.2 = BitVec.ofNat 32 g.val
      · rcases Nat.lt_trichotomy p.1.val t with h | h | h
        · rw [if_pos ⟨h, hP⟩, if_neg (fun hh => absurd hh.1 (Nat.ne_of_lt h)), if_pos ⟨Nat.lt_succ_of_lt h, hP⟩, add_zero]
        · rw [if_neg (fun hh => absurd hh.1 (by omega)), if_pos ⟨h, hP⟩, if_pos ⟨by omega, hP⟩, zero_add]
        · rw [if_neg (fun hh => absurd hh.1 (by omega)), if_neg (fun hh => absurd hh.1 (by omega)),
            if_neg (fun hh => absurd hh.1 (by omega)), add_zero]
      · rw [if_neg (fun hh => hP hh.2), if_neg (fun hh => hP hh.2), if_neg (fun hh => hP hh.2), add_zero]
  rw [aux T le_rfl]
  refine Finset.sum_congr (Finset.filter_congr fun p _ => ?_) fun _ _ => rfl
  exact ⟨fun h => h.2, fun h => ⟨p.1.isLt, h⟩⟩

end Cert.Spec

end
-- ==== Proof.PerceptronAt.lean ====
/-
  The two-layer perceptron a tile of node rows goes through, read at one row and one column.

  Both kernel regions compute, on a tile of M rows (M = 5000 in the first region, M = 2000 in the second),
      relu(relu((x + a)·Wa + ba)·Wb + bb),
  the products into a zero accumulator, each bias a single row copied down the M rows, each relu a maximum with the
  zero constant, and the narrowings to the sixteen-bit format in between the identity on the extended reals. Read at
  (r, q) a product is the sum over the contraction coordinate of the operands' entries, a sum of vectors the sum of the
  entries, a copied row its entry in that column, and the zero constant the extended real 0: so the value is the
  specification's `layer` at (r, q), term for term, with no law of arithmetic used beyond these readings.

  The argument is written once for every number of rows M and applied at the two tile heights.
-/
import proofs.«405799_j23536420782504_2_alg».proof.Proof.Gen.KernelIdeal.Skeleton
import proofs.«405799_j23536420782504_2_alg».proof.Proof.LibPlainDot
import proofs.«405799_j23536420782504_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PerceptronAt

open Cert.KernelIdeal Cert.KernelIdeal.Gen Idealize.ShloMosaic Idealize.ShloMosaic.ValueIdx

/-- One affine map followed by relu, on M rows: the product into the zero accumulator plus the bias row copied down the
    rows, then the maximum with the zero constant. At (r, c) it is max (∑ k, u (r, k) · w (k, c) + b (0, c)) 0. -/
theorem affine_relu_apply (M : Nat) (u : FVec Ideal ⟨2, ![M, 128]⟩ .bf16) (w : FVec Ideal ⟨2, ![128, 128]⟩ .bf16)
    (b : FVec Ideal ⟨2, ![1, 128]⟩ .f32) (hb : (⟨2, ![1, 128]⟩ : Shape).Broadcasts ⟨2, ![M, 128]⟩) (r : Fin M) (c : Fin 128) :
    maximumf (F := Ideal)
        (addf (matmul (F := Ideal) (DotDims.plain M 128 128) none u w (constant (F := Ideal) ⟨2, ![M, 128]⟩ .f32 0x00000000#32))
          (broadcastTo ⟨2, ![M, 128]⟩ b hb))
        (broadcast ⟨2, ![M, 128]⟩ (Scalar.ofBits (F := Ideal) .f32 0x00000000#32)) (ix2 r c)
      = max ((∑ k : Fin 128, (u (ix2 r k) : EReal) * (w (ix2 k c) : EReal)) + (b (ix2 0 c) : EReal)) (0 : EReal) := by
  refine (maximumf_apply _ _ _).trans ?_
  refine congrArg₂ (fun y z : EReal => max y z) ?_ ?_
  · refine (addf_apply _ _ _).trans ?_
    exact congrArg₂ (fun y z : EReal => y + z) (Cert.Lib.PlainDot.matmul_plain_zero_ix2 M 128 128 none u w r c)
      (broadcastTo_1b_ab_apply b hb r c)
  · exact Ideal.ofBits_zero_f32

/-- The whole perceptron on M rows, the identity reshapes of its operands already removed, is the specification's layer
    at (r, q). The first layer's value at (r, k) is what the second product reads, so the second
    reading's sum is rewritten term by term with the first. -/
theorem perceptron_apply (M : Nat) (x a : FVec Ideal ⟨2, ![M, 128]⟩ .f32) (wa : FVec Ideal ⟨2, ![128, 128]⟩ .bf16)
    (ba : FVec Ideal ⟨2, ![1, 128]⟩ .f32) (wb : FVec Ideal ⟨2, ![128, 128]⟩ .bf16) (bb : FVec Ideal ⟨2, ![1, 128]⟩ .f32)
    (hb : (⟨2, ![1, 128]⟩ : Shape).Broadcasts ⟨2, ![M, 128]⟩) (ht : FTy.bits .bf16 < FTy.bits .f32) (r : Fin M) (q : Fin 128) :
    maximumf (F := Ideal)
        (addf (matmul (F := Ideal) (DotDims.plain M 128 128) none
            (truncf (F := Ideal) .bf16
              (maximumf (F := Ideal)
                (addf (matmul (F := Ideal) (DotDims.plain M 128 128) none (truncf (F := Ideal) .bf16 (addf x a) ht) wa
                    (constant (F := Ideal) ⟨2, ![M, 128]⟩ .f32 0x00000000#32))
                  (broadcastTo ⟨2, ![M, 128]⟩ ba hb))
                (broadcast ⟨2, ![M, 128]⟩ (Scalar.ofBits (F := Ideal) .f32 0x00000000#32))) ht)
            wb (constant (F := Ideal) ⟨2, ![M, 128]⟩ .f32 0x00000000#32))
          (broadcastTo ⟨2, ![M, 128]⟩ bb hb))
        (broadcast ⟨2, ![M, 128]⟩ (Scalar.ofBits (F := Ideal) .f32 0x00000000#32)) (ix2 r q)
      = Cert.Spec.layer (fun n j => x (ix2 n j)) (fun n j => a (ix2 n j)) (fun j k => wa (ix2 j k)) (fun k => ba (ix2 0 k))
          (fun j k => wb (ix2 j k)) (fun k => bb (ix2 0 k)) r q := by
  refine (affine_relu_apply M _ wb bb hb r q).trans ?_
  unfold Cert.Spec.layer
  refine congrArg (fun y : EReal => max (y + (bb (ix2 0 q) : EReal)) 0) ?_
  refine Finset.sum_congr rfl fun k _ => ?_
  refine congrArg (fun y : EReal => y * (wb (ix2 k q) : EReal)) ?_
  refine (truncf_apply _ ht (ix2 r k)).trans ?_
  exact affine_relu_apply M (truncf (F := Ideal) .bf16 (addf x a) ht) wa ba hb r k

/-- The first region's tile of 5000 rows. -/
theorem pay_tile_apply (x a : Vec Ideal S5000x128 .f32) (wa : Vec Ideal S128x128 .bf16) (ba : Vec Ideal S1x128 .f32)
    (wb : Vec Ideal S128x128 .bf16) (bb : Vec Ideal S1x128 .f32) (r : Fin 5000) (q : Fin 128) :
    k0_pay1 (F := Ideal) x a wa ba wb bb (ix2 r q)
      = Cert.Spec.layer (fun n j => x (ix2 n j)) (fun n j => a (ix2 n j)) (fun j k => wa (ix2 j k)) (fun k => ba (ix2 0 k))
          (fun j k => wb (ix2 j k)) (fun k => bb (ix2 0 k)) r q := by
  unfold k0_pay1
  simp only [shapeCast_self]
  exact perceptron_apply 5000 x a wa ba wb bb broadcasts_S1x128_S5000x128 bitsLt_bf16_f32 r q

/-- The second region's tile of 2000 rows; its last narrowing is the identity on the extended reals. -/
theorem pay_feat_apply (x a : Vec Ideal S2000x128 .f32) (wa : Vec Ideal S128x128 .bf16) (ba : Vec Ideal S1x128 .f32)
    (wb : Vec Ideal S128x128 .bf16) (bb : Vec Ideal S1x128 .f32) (r : Fin 2000) (q : Fin 128) :
    k1_pay6 (F := Ideal) x a wa ba wb bb (ix2 r q)
      = Cert.Spec.layer (fun n j => x (ix2 n j)) (fun n j => a (ix2 n j)) (fun j k => wa (ix2 j k)) (fun k => ba (ix2 0 k))
          (fun j k => wb (ix2 j k)) (fun k => bb (ix2 0 k)) r q := by
  unfold k1_pay6
  simp only [shapeCast_self]
  refine (truncf_apply _ bitsLt_bf16_f32 (ix2 r q)).trans ?_
  exact perceptron_apply 2000 x a wa ba wb bb broadcasts_S1x128_S2000x128 bitsLt_bf16_f32 r q

end Cert.KernelIdeal.PerceptronAt

end
-- ==== Proof.PoolingAt.lean ====
/-
  The pooling region's pure values, read at an index at the ideal values.

  A tile's graph ids become a one-hot matrix: entry (r, g) is one when row r's id is the word g and zero otherwise (the id
  compared with 0, 1, …, 511 along the columns, the bit widened and converted to a float). The per-graph sums grow by the
  TRANSPOSE of that matrix times the tile's feature rows, entry (g, q) gaining the sum over the tile's rows r of
  onehot (r, g) · y (r, q); the per-graph counts grow the same way against a column of ones. Both accumulators start at zero.
  At the end the sums are divided by max(count, 1), and the head (a rectified affine layer, an affine layer, the logistic
  function) is applied row by row.

  The two accumulating products contract the FIRST axis of both operands; their operand indices are read off axis by axis
  and the contraction is re-indexed by its one coordinate. The head's two products are plain ones.
-/
import proofs.«405799_j23536420782504_2_alg».proof.Proof.Gen.KernelIdeal.Skeleton
import proofs.«405799_j23536420782504_2_alg».proof.Proof.LibPlainDot
import proofs.«405799_j23536420782504_2_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.PoolingAt

open Cert.KernelIdeal Cert.KernelIdeal.Gen Idealize.ShloMosaic Idealize.ShloMosaic.ValueIdx

theorem pay_zero_sums (g : Fin 512) (q : Fin 128) : k1_pay4 (F := Ideal) (ix2 g q) = 0 := by
  unfold k1_pay4
  rw [shapeCast_self]
  exact Ideal.ofBits_zero_f32

theorem pay_zero_counts (g : Fin 512) : k1_pay5 (F := Ideal) (ix2 g 0) = 0 := by
  unfold k1_pay5
  rw [shapeCast_self]
  exact Ideal.ofBits_zero_f32

/-- A one-hot word as an extended real. -/
theorem hot_word (x y : BitVec 32) :
    FloatOps.sitofp (F := Ideal) .f32 ((IntOp.cmpi .eq x y).setWidth 32) = if x = y then 1 else 0 := by
  by_cases h : x = y
  · subst h
    rw [if_pos rfl]
    have e : IntOp.cmpi .eq x x = 1#1 := by
      show BitVec.ofBool (x == x) = 1#1
      rw [beq_self_eq_true]; rfl
    rw [e]
    show (((BitVec.setWidth 32 1#1).toInt : ℝ) : EReal) = 1
    have e2 : (BitVec.setWidth 32 1#1).toInt = 1 := by decide
    rw [e2]; simp
  · rw [if_neg h]
    have e : IntOp.cmpi .eq x y = 0#1 := by
      show BitVec.ofBool (x == y) = 0#1
      rw [beq_eq_false_iff_ne.mpr h]; rfl
    rw [e]
    show (((BitVec.setWidth 32 0#1).toInt : ℝ) : EReal) = 0
    have e2 : (BitVec.setWidth 32 0#1).toInt = 0 := by decide
    rw [e2]; simp

/-- A column broadcast along the rows reads the column's entry of that row. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pay_onehot_apply (b : Vec Ideal S2000x1 .i32) (r : Fin 2000) (g : Fin 512) :
    k1_pay7 (F := Ideal) b (ix2 r g) = Cert.Spec.hot (b (ix2 r 0)) g := by
  unfold k1_pay7
  rw [shapeCast_self]
  refine (hot_word _ _).trans ?_
  unfold Cert.Spec.hot
  rw [broadcastTo_a1_ab_apply, broadcastTo_1b_ab_apply, iota_single_apply]

/-! ## A product contracting the FIRST axis of both operands

  The dimension numbers `[0], [0], [1], [1]` with no batch axis: a K × M matrix and a K × N matrix give the M × N matrix whose
  entry (g, q) is the sum over k of lhs (k, g) · rhs (k, q), the transpose of the left operand times the right one. -/

/-- The record of such a product, over any evidence of its well-formedness. -/
def firstAxes (K M N : Nat) (w : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ :=
  ⟨[0], [0], [1], [1], [], [], w⟩

section FirstAxes

variable (K M N : Nat) (w : DotDims.WF ⟨2, ![K, M]⟩ ⟨2, ![K, N]⟩ ⟨2, ![M, N]⟩ [0] [0] [1] [1] [] [])

theorem firstAxes_lhs_0 (i : (⟨2, ![M, N]⟩ : Shape).Idx) (q : (firstAxes K M N w).contr.Idx) :
    ((firstAxes K M N w).lhsIdx i q 0).val = (q ⟨0, Nat.zero_lt_one⟩).val :=
  (firstAxes K M N w).lhsIdx_val_of_single rfl i q
theorem firstAxes_lhs_1 (i : (⟨2, ![M, N]⟩ : Shape).Idx) (q : (firstAxes K M N w).contr.Idx) :
    ((firstAxes K M N w).lhsIdx i q 1).val = (i 0).val := by
  unfold DotDims.lhsIdx
  rw [dif_neg (show ¬(1 : Fin (⟨2, ![K, M]⟩ : Shape).rank) ∈ (firstAxes K M N w).lhsBatch from List.not_mem_nil),
    dif_pos (show (1 : Fin (⟨2, ![K, M]⟩ : Shape).rank) ∈ (firstAxes K M N w).lhsNonContracting from List.mem_singleton.mpr rfl)]
  rfl
theorem firstAxes_rhs_0 (i : (⟨2, ![M, N]⟩ : Shape).Idx) (q : (firstAxes K M N w).contr.Idx) :
    ((firstAxes K M N w).rhsIdx i q 0).val = (q ⟨0, Nat.zero_lt_one⟩).val :=
  (firstAxes K M N w).rhsIdx_val_of_single rfl i q
theorem firstAxes_rhs_1 (i : (⟨2, ![M, N]⟩ : Shape).Idx) (q : (firstAxes K M N w).contr.Idx) :
    ((firstAxes K M N w).rhsIdx i q 1).val = (i 1).val := by
  unfold DotDims.rhsIdx
  rw [dif_neg (show ¬(1 : Fin (⟨2, ![K, N]⟩ : Shape).rank) ∈ (firstAxes K M N w).rhsBatch from List.not_mem_nil),
    dif_pos (show (1 : Fin (⟨2, ![K, N]⟩ : Shape).rank) ∈ (firstAxes K M N w).rhsNonContracting from List.mem_singleton.mpr rfl)]
  rfl

/-- The sum over the contraction shape, re-indexed by the one contraction coordinate. -/
theorem firstAxes_sum (lhs : (⟨2, ![K, M]⟩ : Shape).Idx → EReal) (rhs : (⟨2, ![K, N]⟩ : Shape).Idx → EReal)
    (i : (⟨2, ![M, N]⟩ : Shape).Idx) :
    (∑ q : (firstAxes K M N w).contr.Idx, lhs ((firstAxes K M N w).lhsIdx i q) * rhs ((firstAxes K M N w).rhsIdx i q))
      = ∑ k : Fin K, lhs (ix2 k (i 0)) * rhs (ix2 k (i 1)) := by
  rw [← Equiv.sum_comp (contrEquiv1 (firstAxes K M N w) K rfl rfl).symm]
  refine Finset.sum_congr rfl fun k _ => ?_
  have hk := contrEquiv1_symm_val (firstAxes K M N w) K rfl rfl k
  have el : (firstAxes K M N w).lhsIdx i ((contrEquiv1 (firstAxes K M N w) K rfl rfl).symm k) = ix2 k (i 0) :=
    funext fun a => Fin.ext (by
      match a with
      | ⟨0, _⟩ => exact (firstAxes_lhs_0 K M N w _ _).trans hk
      | ⟨1, _⟩ => exact firstAxes_lhs_1 K M N w _ _)
  have er : (firstAxes K M N w).rhsIdx i ((contrEquiv1 (firstAxes K M N w) K rfl rfl).symm k) = ix2 k (i 1) :=
    funext fun a => Fin.ext (by
      match a with
      | ⟨0, _⟩ => exact (firstAxes_rhs_0 K M N w _ _).trans hk
      | ⟨1, _⟩ => exact firstAxes_rhs_1 K M N w _ _)
  exact congrArg₂ (fun a b : EReal => a * b) (congrArg lhs el) (congrArg rhs er)

/-- A kernel's `tpu.matmul` with these dimension numbers into the zero accumulator, at explicit coordinates. -/
theorem matmul_firstAxes_zero_ix2 {φ₁ φ₂ : FTy} (prec : Option ContractPrecision)
    (lhs : FVec Ideal ⟨2, ![K, M]⟩ φ₁) (rhs : FVec Ideal ⟨2, ![K, N]⟩ φ₂) (g : Fin M) (q : Fin N) :
    FloatOps.matmul (firstAxes K M N w) prec lhs rhs (constant ⟨2, ![M, N]⟩ .f32 0x00000000#32) (ix2 g q)
      = ∑ k : Fin K, (lhs (ix2 k g) : EReal) * (rhs (ix2 k q) : EReal) := by
  rw [Ideal.matmul_constant_zero_apply]
  exact firstAxes_sum K M N w lhs rhs (ix2 g q)

end FirstAxes

theorem pay_sums_apply (y : FVec Ideal S2000x128 .bf16) (oh : FVec Ideal S2000x512 .bf16) (S : Vec Ideal S512x128 .f32)
    (g : Fin 512) (q : Fin 128) :
    k1_pay1 (F := Ideal) y oh S (ix2 g q) = S (ix2 g q) + ∑ r : Fin 2000, oh (ix2 r g) * y (ix2 r q) := by
  unfold k1_pay1
  rw [shapeCast_self]
  exact congrArg (fun t : EReal => S (ix2 g q) + t)
    (matmul_firstAxes_zero_ix2 2000 512 128 Facts₀.dot_S2000x512_S2000x128_S512x128_0_0_1_1_n_n_wf none oh y g q)

theorem pay_counts_apply (oh : FVec Ideal S2000x512 .bf16) (C : Vec Ideal S512x1 .f32) (g : Fin 512) :
    k1_pay2 (F := Ideal) oh C (ix2 g 0) = C (ix2 g 0) + ∑ r : Fin 2000, oh (ix2 r g) * 1 := by
  unfold k1_pay2
  rw [shapeCast_self]
  refine (congrArg (fun t : EReal => C (ix2 g 0) + t)
    (matmul_firstAxes_zero_ix2 2000 512 1 Facts₀.dot_S2000x512_S2000x1_S512x1_0_0_1_1_n_n_wf none oh
      (broadcast S2000x1 (Scalar.ofBits (F := Ideal) .bf16 0x3F80#16)) g 0)).trans ?_
  refine congrArg (fun t : EReal => C (ix2 g 0) + t) (Finset.sum_congr rfl fun r _ => ?_)
  exact congrArg (fun t : EReal => oh (ix2 r g) * t) Ideal.ofBits_one_bf16

/-- The logistic function at an index. -/
theorem logistic_apply {s : Shape} {φ : FTy} (a : FVec Ideal s φ) (i : s.Idx) : logistic a i = Ideal.logistic (a i) := rfl

theorem pay_out_apply (S : Vec Ideal S512x128 .f32) (C : Vec Ideal S512x1 .f32) (wf1 : Vec Ideal S128x128 .bf16) (bf1 : Vec Ideal S1x128 .f32)
    (wf2 : Vec Ideal S128x6 .bf16) (bf2 : Vec Ideal S1x6 .f32) (g : Fin 512) (o : Fin 6) :
    k1_pay3 (F := Ideal) S C wf1 bf1 wf2 bf2 (ix2 g o)
      = Ideal.logistic (Cert.Spec.headPre (fun g j => Ideal.div (S (ix2 g j)) (max (C (ix2 g 0)) 1)) (fun j k => wf1 (ix2 j k))
          (fun k => bf1 (ix2 0 k)) (fun k o => wf2 (ix2 k o)) (fun o => bf2 (ix2 0 o)) g o) := by
  unfold k1_pay3 Cert.Spec.headPre
  rw [shapeCast_self, shapeCast_self, shapeCast_self, shapeCast_self]
  beta_reduce
  -- the sigmoid of: the second product plus its bias row
  refine congrArg Ideal.logistic ?_
  refine congrArg₂ (fun a b : EReal => a + b) ?_ (broadcastTo_1b_ab_apply _ _ g o)
  refine (Cert.Lib.PlainDot.matmul_plain_zero_ix2 512 128 6 (φ₁ := .bf16) (φ₂ := .bf16) none _ _ g o).trans ?_
  refine Finset.sum_congr rfl fun k _ => congrArg (fun t : EReal => t * wf2 (ix2 k o)) ?_
  -- the hidden layer at (g, k): the rectified first product plus its bias row
  refine congrArg₂ (fun a b : EReal => max a b) ?_ Ideal.ofBits_zero_f32
  refine congrArg₂ (fun a b : EReal => a + b) ?_ (broadcastTo_1b_ab_apply _ _ g k)
  refine (Cert.Lib.PlainDot.matmul_plain_zero_ix2 512 128 128 (φ₁ := .bf16) (φ₂ := .bf16) none _ _ g k).trans ?_
  refine Finset.sum_congr rfl fun j _ => congrArg (fun t : EReal => t * wf1 (ix2 j k)) ?_
  -- the pooled feature at (g, j): the sum over the count, the count no less than one
  refine congrArg (fun t : EReal => Ideal.div (S (ix2 g j)) t) ?_
  refine (broadcastTo_a1_ab_apply _ _ g j).trans ?_
  exact congrArg (fun t : EReal => max (C (ix2 g 0)) t) Ideal.ofBits_one_f32

end Cert.KernelIdeal.PoolingAt

end
-- ==== Proof.BlocksAt.lean ====
/-
  From blocks to arrays, for both kernel regions.
  At grid point t a window hands the body its block: for the node-feature windows rows T·t … T·t + T − 1 of the array
  (T = 5000 in the first region, 2000 in the second), every column; for the weight and bias windows, whose index map is
  constantly (0, 0) and whose block has the array's own shape, the whole array. The first region writes its output
  block back at every point and the ten blocks tile the 50000 × 128 array, so row 5000·t + r of the array after the
  region is row r of what point t left. The second region's output block has the array's shape and is written back at
  the last point only, so the array after the region is what point 24 left in the block.
-/
import proofs.«405799_j23536420782504_2_alg».proof.Proof.MlpTile
import proofs.«405799_j23536420782504_2_alg».proof.Proof.PoolData
import Idealize.ShloMosaic.Lib.Pipeline.Value
import Idealize.ShloMosaic.Lib.ValueIdx

set_option maxRecDepth 16384

noncomputable section

namespace Cert.KernelIdeal.BlocksAt

open Cert.KernelIdeal Cert.KernelIdeal.Gen Idealize.ShloMosaic Idealize.ShloMosaic.TcCoe Idealize.ShloMosaic.ValueIdx
open Idealize.ShloMosaic.Pipeline (Dat)

variable {F : FTy → Type} [FloatOps F]
variable (V : (c : Dev nD) → (b : Ref sig .tc) → Buf (Elt F) ((c : Thread nD τ).loc b)) (c : Dev nD)

/-! ## The first region -/

/-- The printed index maps of the three tiled windows, decided over the ten points: block (t, 0) at point t. -/
theorem idx_tile0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_6.index t (0 : Fin 2) = t.val ∧ win0_6.index t (1 : Fin 2) = 0 :=
  (by decide +kernel : ∀ t : Fin grid0.N, _)

/-- The printed index maps of the weight and bias windows, decided over the ten points: block (0, 0) always. -/
theorem idx_whole0 : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! A tiled window's block at point t is rows 5000·t … 5000·t + 4999 of its array: the element at (r, j) of the
    block sits at (index × 5000 + r, index × 128 + j) of the array, and the index is (t, 0). -/

theorem mlp_rows0 (t : Fin cfg0.N) (r : Fin 5000) (j : Fin 128) (hn : 5000 * t.val + r.val < 50000) :
    Mlp.blk V c 0 t (ix2 r j) = V c main_arg0 (ix2 ⟨5000 * t.val + r.val, hn⟩ j) := by
  obtain ⟨e0, e1, -⟩ := idx_tile0 t
  unfold Mlp.blk
  rw [View.read_apply]
  show V c main_arg0 (((cfg0.win 0).blk t).view.emb (ix2 r j)) = V c main_arg0 _
  refine congrArg (V c main_arg0) ?_
  funext a; apply Fin.ext
  match a with
  | ⟨0, _⟩ => show win0_0.index t (0 : Fin 2) * 5000 + 1 * r.val = 5000 * t.val + r.val; omega
  | ⟨1, _⟩ => show win0_0.index t (1 : Fin 2) * 128 + 1 * j.val = j.val; omega

theorem mlp_rows1 (t : Fin cfg0.N) (r : Fin 5000) (j : Fin 128) (hn : 5000 * t.val + r.val < 50000) :
    Mlp.blk V c 1 t (ix2 r j) = V c main_v15 (ix2 ⟨5000 * t.val + r.val, hn⟩ j) := by
  obtain ⟨-, -, e0, e1, -⟩ := idx_tile0 t
  unfold Mlp.blk
  rw [View.read_apply]
  show V c main_v15 (((cfg0.win 1).blk t).view.emb (ix2 r j)) = V c main_v15 _
  refine congrArg (V c main_v15) ?_
  funext a; apply Fin.ext
  match a with
  | ⟨0, _⟩ => show win0_1.index t (0 : Fin 2) * 5000 + 1 * r.val = 5000 * t.val + r.val; omega
  | ⟨1, _⟩ => show win0_1.index t (1 : Fin 2) * 128 + 1 * j.val = j.val; omega

/-! A weight or bias window's block is its whole array: the block has the array's shape and sits at offset zero. -/

theorem mlp_whole2 (t : Fin cfg0.N) : (Mlp.blk V c 2 t : S128x128.Idx → Elt F .bf16) = V c main_v16 := by
  obtain ⟨e0, e1, -⟩ := idx_whole0 t
  have hz : (fun a => win0_2.index t a * main_v16.ty.shape.size a) = fun _ => 0 := funext fun a => by
    match a with
    | ⟨0, _⟩ => show win0_2.index t (0 : Fin 2) * 128 = 0; omega
    | ⟨1, _⟩ => show win0_2.index t (1 : Fin 2) * 128 = 0; omega
  exact Memref.read_access_unit_zero (Elt F) main_v16 hz (fun a => by rw [congrFun hz a]; simp) (V c main_v16)

theorem mlp_whole3 (t : Fin cfg0.N) : (Mlp.blk V c 3 t : S1x128.Idx → Elt F .f32) = V c main_v18 := by
  obtain ⟨-, -, e0, e1, -⟩ := idx_whole0 t
  have hz : (fun a => win0_3.index t a * main_v18.ty.shape.size a) = fun _ => 0 := funext fun a => by
    match a with
    | ⟨0, _⟩ => show win0_3.index t (0 : Fin 2) * 1 = 0; omega
    | ⟨1, _⟩ => show win0_3.index t (1 : Fin 2) * 128 = 0; omega
  exact Memref.read_access_unit_zero (Elt F) main_v18 hz (fun a => by rw [congrFun hz a]; simp) (V c main_v18)

theorem mlp_whole4 (t : Fin cfg0.N) : (Mlp.blk V c 4 t : S128x128.Idx → Elt F .bf16) = V c main_v17 := by
  obtain ⟨-, -, -, -, e0, e1, -⟩ := idx_whole0 t
  have hz : (fun a => win0_4.index t a * main_v17.ty.shape.size a) = fun _ => 0 := funext fun a => by
    match a with
    | ⟨0, _⟩ => show win0_4.index t (0 : Fin 2) * 128 = 0; omega
    | ⟨1, _⟩ => show win0_4.index t (1 : Fin 2) * 128 = 0; omega
  exact Memref.read_access_unit_zero (Elt F) main_v17 hz (fun a => by rw [congrFun hz a]; simp) (V c main_v17)

theorem mlp_whole5 (t : Fin cfg0.N) : (Mlp.blk V c 5 t : S1x128.Idx → Elt F .f32) = V c main_v19 := by
  obtain ⟨-, -, -, -, -, -, e0, e1⟩ := idx_whole0 t
  have hz : (fun a => win0_5.index t a * main_v19.ty.shape.size a) = fun _ => 0 := funext fun a => by
    match a with
    | ⟨0, _⟩ => show win0_5.index t (0 : Fin 2) * 1 = 0; omega
    | ⟨1, _⟩ => show win0_5.index t (1 : Fin 2) * 128 = 0; omega
  exact Memref.read_access_unit_zero (Elt F) main_v19 hz (fun a => by rw [congrFun hz a]; simp) (V c main_v19)

/-- Two points' output blocks have different block indices (decided), -/
theorem idx_inj6 : ∀ t t' : Fin cfg0.N, win0_6.index t = win0_6.index t' → t = t' :=
  (by decide +kernel : ∀ t t' : Fin grid0.N, win0_6.index t = win0_6.index t' → t = t')

/-- so they share no element of the array. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- Row 5000·t + r of the output array after the region is row r of what point t left in the output block: that
    element is the block's element (r, q) at point t, every point writes its block back, and no other point's block
    holds it. -/
theorem mlp_out (t : Fin cfg0.N) (r : Fin 5000) (q : Fin 128) (hn : 5000 * t.val + r.val < 50000) :
    (Mlp.dat V c).arrAt 6 cfg0.N (ix2 ⟨5000 * t.val + r.val, hn⟩ q)
      = Mlp.tileOut (Mlp.blk V c 0 t) (Mlp.blk V c 1 t) (Mlp.blk V c 2 t) (Mlp.blk V c 3 t) (Mlp.blk V c 4 t) (Mlp.blk V c 5 t) (ix2 r q) := by
  obtain ⟨-, -, -, -, e0, e1⟩ := idx_tile0 t
  have he : (ix2 ⟨5000 * t.val + r.val, hn⟩ q : S50000x128.Idx) = ((cfg0.win 6).blk t).view.emb (ix2 r q) := by
    funext a; apply Fin.ext
    match a with
    | ⟨0, _⟩ => show 5000 * t.val + r.val = win0_6.index t (0 : Fin 2) * 5000 + 1 * r.val; omega
    | ⟨1, _⟩ => show q.val = win0_6.index t (1 : Fin 2) * 128 + 1 * q.val; omega
  have h := (Mlp.dat V c).arrAt_emb_eq_flushed 6 disjoint6 t (flush0_6 t) (ix2 r q)
  refine (congrArg ((Mlp.dat V c).arrAt 6 cfg0.N) he).trans (h.trans ?_)
  show (Mlp.dat V c).after 6 t (ix2 r q) = _
  rw [Mlp.after_6]

/-! ## The second region -/

/-- The printed index maps of the three tiled windows, decided over the 25 points: block (t, 0) at point t. -/
theorem idx_tile1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The printed index maps of the weight, bias and output windows, decided over the 25 points: block (0, 0) always. -/
theorem idx_whole1 : ∀ t : Fin cfg1.N,
    win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0 :=
  (by decide +kernel : ∀ t : Fin grid1.N, _)

/-! A tiled window's block at point t is rows 2000·t … 2000·t + 1999 of its array. -/

theorem pool_rows0 (t : Fin cfg1.N) (r : Fin 2000) (j : Fin 128) (hn : 2000 * t.val + r.val < 50000) :
    Pool.blk V c 0 t (ix2 r j) = V c main_v20 (ix2 ⟨2000 * t.val + r.val, hn⟩ j) := by
  obtain ⟨e0, e1, -⟩ := idx_tile1 t
  unfold Pool.blk
  rw [View.read_apply]
  show V c main_v20 (((cfg1.win 0).blk t).view.emb (ix2 r j)) = V c main_v20 _
  refine congrArg (V c main_v20) ?_
  funext a; apply Fin.ext
  match a with
  | ⟨0, _⟩ => show win1_0.index t (0 : Fin 2) * 2000 + 1 * r.val = 2000 * t.val + r.val; omega
  | ⟨1, _⟩ => show win1_0.index t (1 : Fin 2) * 128 + 1 * j.val = j.val; omega

theorem pool_rows1 (t : Fin cfg1.N) (r : Fin 2000) (j : Fin 128) (hn : 2000 * t.val + r.val < 50000) :
    Pool.blk V c 1 t (ix2 r j) = V c main_v32 (ix2 ⟨2000 * t.val + r.val, hn⟩ j) := by
  obtain ⟨-, -, e0, e1, -⟩ := idx_tile1 t
  unfold Pool.blk
  rw [View.read_apply]
  show V c main_v32 (((cfg1.win 1).blk t).view.emb (ix2 r j)) = V c main_v32 _
  refine congrArg (V c main_v32) ?_
  funext a; apply Fin.ext
  match a with
  | ⟨0, _⟩ => show win1_1.index t (0 : Fin 2) * 2000 + 1 * r.val = 2000 * t.val + r.val; omega
  | ⟨1, _⟩ => show win1_1.index t (1 : Fin 2) * 128 + 1 * j.val = j.val; omega

theorem pool_rows2 (t : Fin cfg1.N) (r : Fin 2000) (hn : 2000 * t.val + r.val < 50000) :
    Pool.blk V c 2 t (ix2 r 0) = V c main_v33 (ix2 ⟨2000 * t.val + r.val, hn⟩ 0) := by
  obtain ⟨-, -, -, -, e0, e1⟩ := idx_tile1 t
  unfold Pool.blk
  rw [View.read_apply]
  show V c main_v33 (((cfg1.win 2).blk t).view.emb (ix2 r 0)) = V c main_v33 _
  refine congrArg (V c main_v33) ?_
  funext a; apply Fin.ext
  match a with
  | ⟨0, _⟩ => show win1_2.index t (0 : Fin 2) * 2000 + 1 * r.val = 2000 * t.val + r.val; omega
  | ⟨1, _⟩ => show win1_2.index t (1 : Fin 2) * 1 + 1 * (0 : Fin 1).val = (0 : Fin 1).val; omega

/-! A weight or bias window's block is its whole array. -/

theorem pool_whole3 (t : Fin cfg1.N) : (Pool.blk V c 3 t : S128x128.Idx → Elt F .bf16) = V c main_v34 := by
  obtain ⟨e0, e1, -⟩ := idx_whole1 t
  have hz : (fun a => win1_3.index t a * main_v34.ty.shape.size a) = fun _ => 0 := funext fun a => by
    match a with
    | ⟨0, _⟩ => show win1_3.index t (0 : Fin 2) * 128 = 0; omega
    | ⟨1, _⟩ => show win1_3.index t (1 : Fin 2) * 128 = 0; omega
  exact Memref.read_access_unit_zero (Elt F) main_v34 hz (fun a => by rw [congrFun hz a]; simp) (V c main_v34)

theorem pool_whole4 (t : Fin cfg1.N) : (Pool.blk V c 4 t : S1x128.Idx → Elt F .f32) = V c main_v38 := by
  obtain ⟨-, -, e0, e1, -⟩ := idx_whole1 t
  have hz : (fun a => win1_4.index t a * main_v38.ty.shape.size a) = fun _ => 0 := funext fun a => by
    match a with
    | ⟨0, _⟩ => show win1_4.index t (0 : Fin 2) * 1 = 0; omega
    | ⟨1, _⟩ => show win1_4.index t (1 : Fin 2) * 128 = 0; omega
  exact Memref.read_access_unit_zero (Elt F) main_v38 hz (fun a => by rw [congrFun hz a]; simp) (V c main_v38)

theorem pool_whole5 (t : Fin cfg1.N) : (Pool.blk V c 5 t : S128x128.Idx → Elt F .bf16) = V c main_v35 := by
  obtain ⟨-, -, -, -, e0, e1, -⟩ := idx_whole1 t
  have hz : (fun a => win1_5.index t a * main_v35.ty.shape.size a) = fun _ => 0 := funext fun a => by
    match a with
    | ⟨0, _⟩ => show win1_5.index t (0 : Fin 2) * 128 = 0; omega
    | ⟨1, _⟩ => show win1_5.index t (1 : Fin 2) * 128 = 0; omega
  exact Memref.read_access_unit_zero (Elt F) main_v35 hz (fun a => by rw [congrFun hz a]; simp) (V c main_v35)

theorem pool_whole6 (t : Fin cfg1.N) : (Pool.blk V c 6 t : S1x128.Idx → Elt F .f32) = V c main_v39 := by
  obtain ⟨-, -, -, -, -, -, e0, e1, -⟩ := idx_whole1 t
  have hz : (fun a => win1_6.index t a * main_v39.ty.shape.size a) = fun _ => 0 := funext fun a => by
    match a with
    | ⟨0, _⟩ => show win1_6.index t (0 : Fin 2) * 1 = 0; omega
    | ⟨1, _⟩ => show win1_6.index t (1 : Fin 2) * 128 = 0; omega
  exact Memref.read_access_unit_zero (Elt F) main_v39 hz (fun a => by rw [congrFun hz a]; simp) (V c main_v39)

theorem pool_whole7 (t : Fin cfg1.N) : (Pool.blk V c 7 t : S128x128.Idx → Elt F .bf16) = V c main_v36 := by
  obtain ⟨-, -, -, -, -, -, -, -, e0, e1, -⟩ := idx_whole1 t
  have hz : (fun a => win1_7.index t a * main_v36.ty.shape.size a) = fun _ => 0 := funext fun a => by
    match a with
    | ⟨0, _⟩ => show win1_7.index t (0 : Fin 2) * 128 = 0; omega
    | ⟨1, _⟩ => show win1_7.index t (1 : Fin 2) * 128 = 0; omega
  exact Memref.read_access_unit_zero (Elt F) main_v36 hz (fun a => by rw [congrFun hz a]; simp) (V c main_v36)

theorem pool_whole8 (t : Fin cfg1.N) : (Pool.blk V c 8 t : S1x128.Idx → Elt F .f32) = V c main_v40 := by
  obtain ⟨-, -, -, -, -, -, -, -, -, -, e0, e1, -⟩ := idx_whole1 t
  have hz : (fun a => win1_8.index t a * main_v40.ty.shape.size a) = fun _ => 0 := funext fun a => by
    match a with
    | ⟨0, _⟩ => show win1_8.index t (0 : Fin 2) * 1 = 0; omega
    | ⟨1, _⟩ => show win1_8.index t (1 : Fin 2) * 128 = 0; omega
  exact Memref.read_access_unit_zero (Elt F) main_v40 hz (fun a => by rw [congrFun hz a]; simp) (V c main_v40)

theorem pool_whole9 (t : Fin cfg1.N) : (Pool.blk V c 9 t : S128x6.Idx → Elt F .bf16) = V c main_v37 := by
  obtain ⟨-, -, -, -, -, -, -, -, -, -, -, -, e0, e1, -⟩ := idx_whole1 t
  have hz : (fun a => win1_9.index t a * main_v37.ty.shape.size a) = fun _ => 0 := funext fun a => by
    match a with
    | ⟨0, _⟩ => show win1_9.index t (0 : Fin 2) * 128 = 0; omega
    | ⟨1, _⟩ => show win1_9.index t (1 : Fin 2) * 6 = 0; omega
  exact Memref.read_access_unit_zero (Elt F) main_v37 hz (fun a => by rw [congrFun hz a]; simp) (V c main_v37)

theorem pool_whole10 (t : Fin cfg1.N) : (Pool.blk V c 10 t : S1x6.Idx → Elt F .f32) = V c main_v41 := by
  obtain ⟨-, -, -, -, -, -, -, -, -, -, -, -, -, -, e0, e1, -⟩ := idx_whole1 t
  have hz : (fun a => win1_10.index t a * main_v41.ty.shape.size a) = fun _ => 0 := funext fun a => by
    match a with
    | ⟨0, _⟩ => show win1_10.index t (0 : Fin 2) * 1 = 0; omega
    | ⟨1, _⟩ => show win1_10.index t (1 : Fin 2) * 6 = 0; omega
  exact Memref.read_access_unit_zero (Elt F) main_v41 hz (fun a => by rw [congrFun hz a]; simp) (V c main_v41)

/-- The last point. -/
abbrev tLast : Fin cfg1.N := ⟨24, by rw [show cfg1.N = 25 from N_1]; decide⟩

/-- The output array after the region is what the last point left in the output block: that point alone writes the
    block back, and the block, of the array's shape at offset zero, covers the array. -/
theorem pool_out : (Pool.dat V c).arrAt 11 cfg1.N = Pool.outAt V c ⟨24, by rw [show cfg1.N = 25 from N_1]; decide⟩ := by
  have hz : ∀ t : Fin cfg1.N, (fun a => win1_11.index t a * main_v42.ty.shape.size a) = fun _ => 0 := fun t => funext fun a => by
    obtain ⟨-, -, -, -, -, -, -, -, -, -, -, -, -, -, -, -, e0, e1⟩ := idx_whole1 t
    match a with
    | ⟨0, _⟩ => show win1_11.index t (0 : Fin 2) * 512 = 0; omega
    | ⟨1, _⟩ => show win1_11.index t (1 : Fin 2) * 6 = 0; omega
  refine (Pool.dat V c).arrAt_eq_of_cover 11 (Pool.outAt V c tLast) (fun t hf => ?_) (fun i => ⟨tLast, (flush1_11 tLast).mpr rfl, ?_⟩)
  · have hN : cfg1.N = 25 := N_1
    have h1 : t.val = 24 := by have := (flush1_11 t).mp hf; have := t.isLt; omega
    obtain rfl : t = tLast := Fin.ext h1
    show (cfg1.win 11).cut (grid1.coords tLast) ((Pool.dat V c).after 11 tLast) = _
    rw [Pool.after_11]
    exact (Memref.read_access_unit_zero (Elt F) main_v42 (hz tLast) (fun a => by rw [congrFun (hz tLast) a]; simp) (Pool.outAt V c tLast)).symm
  · show i ∈ ((View.whole main_v42).slice (win1_11.rect tLast)).set
    rw [View.set_slice_whole, Rect.mem_set_unit]
    obtain ⟨-, -, -, -, -, -, -, -, -, -, -, -, -, -, -, -, e0, e1⟩ := idx_whole1 tLast
    have h0 : (i 0).val < 512 := (i 0).isLt
    have h1 : (i 1).val < 6 := (i 1).isLt
    intro a
    match a with
    | ⟨0, _⟩ => show win1_11.index tLast (0 : Fin 2) * 512 ≤ (i 0).val ∧ (i 0).val < win1_11.index tLast (0 : Fin 2) * 512 + 512; omega
    | ⟨1, _⟩ => show win1_11.index tLast (1 : Fin 2) * 6 ≤ (i 1).val ∧ (i 1).val < win1_11.index tLast (1 : Fin 2) * 6 + 6; omega

end Cert.KernelIdeal.BlocksAt

end
-- ==== Proof.HostAt.lean ====
/-
  What the two stretches of host operations leave in the buffers the kernel regions read, from an arbitrary
  starting valuation, on the extended reals.

  The first stretch cuts the edge list into its row of source ids and its row of target ids (a slice and a
  reshape each), aggregates the neighbours' features, rounds the two weight matrices to the narrower float
  format, and reshapes the two bias vectors to one row each. The second stretch aggregates again, from the
  features the first region produced, reshapes the graph ids to one column, rounds four weight matrices and
  reshapes four bias vectors.

  On the extended reals a change of float format is the identity, so a rounded weight matrix is the same function,
  and the aggregation — wrap the negative source ids by 50000, gather the rounded feature rows along them, widen
  them again, scatter-add them into zeros at the target ids — is gather-then-scatter-add of the features themselves.
  It is carried as one function, aggCore, and never read at an index. A reshape of a vector of n entries to one
  row (or one column) reads, at (0, k) (or (k, 0)), the vector at k: both have row-major position k. A buffer no
  operation of a stretch writes keeps its contents.
-/
import proofs.«405799_j23536420782504_2_alg».proof.Proof.Gen.KernelIdeal.Launch
import proofs.«405799_j23536420782504_2_alg».proof.Proof.Gen.KernelIdeal.Regions
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal

noncomputable section

namespace Cert.KernelIdeal.HostAt

open Cert.KernelIdeal Cert.KernelIdeal.Gen Idealize.ShloMosaic Idealize.ShloMosaic.TcCoe Idealize.ShloMosaic.ValueIdx

variable (W : Valuation τ sig (Elt Ideal))

/-- The source ids: row 0 of the 2 × 1600000 edge list, as a vector of 1600000 entries. -/
def srcOf (E : S2x1600000.Idx → BitVec 32) : S1600000.Idx → BitVec 32 :=
  shapeCast _ (extractStridedSlice S1x1600000 ![0, 0] E slices_S2x1600000_S1x1600000_0_0) shapeCasts_S1x1600000_S1600000

/-- The target ids: row 1 of the edge list, as a vector. -/
def dstOf (E : S2x1600000.Idx → BitVec 32) : S1600000.Idx → BitVec 32 :=
  shapeCast _ (extractStridedSlice S1x1600000 ![1, 0] E slices_S2x1600000_S1x1600000_1_0) shapeCasts_S1x1600000_S1600000

/-- The neighbour aggregation of features h along edges src → dst: into a 50000 × 128 array of zeros, add at row
    dst e the row of h at src e (a negative src e first wrapped by 50000), for every edge e. -/
def aggCore (src dst : S1600000.Idx → BitVec 32) (h : FVec Ideal S50000x128 .f32) : FVec Ideal S50000x128 .f32 :=
  Host.scatterAdd scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0 dst)
    (Host.gather gather_S50000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 50000#32))) src)))

/-! ## After the first stretch -/

/-- The source ids are the edge list's row 0. -/
theorem after0_src : StableHlo.after hostOps0 W (Proc.devRef .tc main_v1) = srcOf (W (Proc.devRef .tc main_arg1)) := by
  show StableHlo.after hostOps0 W (Proc.devRef .tc main_v1) = _
  after_results
  rfl

/-- The target ids are the edge list's row 1. -/
theorem after0_dst : StableHlo.after hostOps0 W (Proc.devRef .tc main_v3) = dstOf (W (Proc.devRef .tc main_arg1)) := by
  show StableHlo.after hostOps0 W (Proc.devRef .tc main_v3) = _
  after_results
  rfl

/-- The neighbour sums of the input features: the two changes of float format around the gather are the identity. -/
theorem after0_agg : StableHlo.after hostOps0 W (Proc.devRef .tc main_v15)
    = aggCore (srcOf (W (Proc.devRef .tc main_arg1))) (dstOf (W (Proc.devRef .tc main_arg1))) (W (Proc.devRef .tc main_arg0)) := by
  show StableHlo.after hostOps0 W (Proc.devRef .tc main_v15) = _
  after_results
  rfl

/-- A weight matrix rounded to the narrower format is the same function. -/
theorem after0_wa : (StableHlo.after hostOps0 W (Proc.devRef .tc main_v16) : S128x128.Idx → EReal) = W (Proc.devRef .tc main_arg3) := by
  show StableHlo.after hostOps0 W (Proc.devRef .tc main_v16) = _
  after_results
  rfl

theorem after0_wb : (StableHlo.after hostOps0 W (Proc.devRef .tc main_v17) : S128x128.Idx → EReal) = W (Proc.devRef .tc main_arg5) := by
  show StableHlo.after hostOps0 W (Proc.devRef .tc main_v17) = _
  after_results
  rfl

/-- A bias vector reshaped to one row reads the vector. -/
theorem after0_ba (k : Fin 128) : StableHlo.after hostOps0 W (Proc.devRef .tc main_v18) (ix2 0 k) = W (Proc.devRef .tc main_arg4) (ix1 k) := by
  have e : StableHlo.after hostOps0 W (Proc.devRef .tc main_v18)
      = shapeCast S1x128 (W (Proc.devRef .tc main_arg4)) shapeCasts_S128_S1x128 := by
    show StableHlo.after hostOps0 W (Proc.devRef .tc main_v18) = _
    after_results
    rfl
  rw [e]
  exact shapeCast_a_1a_apply _ _ 0 k

/-- The input features are not written. -/
theorem after0_x : StableHlo.after hostOps0 W (Proc.devRef .tc main_arg0) = W (Proc.devRef .tc main_arg0) :=
  StableHlo.after_of_writes_sub hostOps0 _ hostOps0_writes (by decide)

theorem after0_bb (k : Fin 128) : StableHlo.after hostOps0 W (Proc.devRef .tc main_v19) (ix2 0 k) = W (Proc.devRef .tc main_arg6) (ix1 k) := by
  have e : StableHlo.after hostOps0 W (Proc.devRef .tc main_v19)
      = shapeCast S1x128 (W (Proc.devRef .tc main_arg6)) shapeCasts_S128_S1x128 := by
    show StableHlo.after hostOps0 W (Proc.devRef .tc main_v19) = _
    after_results
    rfl
  rw [e]
  exact shapeCast_a_1a_apply _ _ 0 k

/-! ## After the second stretch -/

/-- The neighbour sums of the first layer's features, along the same edges. -/
theorem after1_agg : StableHlo.after hostOps1 W (Proc.devRef .tc main_v32)
    = aggCore (W (Proc.devRef .tc main_v1)) (W (Proc.devRef .tc main_v3)) (W (Proc.devRef .tc main_v20)) := by
  show StableHlo.after hostOps1 W (Proc.devRef .tc main_v32) = _
  after_results_simp
  rfl

/-- The first layer's features are not written. -/
theorem after1_h : StableHlo.after hostOps1 W (Proc.devRef .tc main_v20) = W (Proc.devRef .tc main_v20) :=
  StableHlo.after_of_writes_sub hostOps1 _ hostOps1_writes (by decide)

/-- The graph ids reshaped to one column read the vector: (n, 0) has row-major position n·1 + 0. -/
theorem after1_ids (n : Fin 50000) : StableHlo.after hostOps1 W (Proc.devRef .tc main_v33) (ix2 n 0) = W (Proc.devRef .tc main_arg2) (ix1 n) := by
  have e : StableHlo.after hostOps1 W (Proc.devRef .tc main_v33)
      = shapeCast S50000x1 (W (Proc.devRef .tc main_arg2)) shapeCasts_S50000_S50000x1 := by
    show StableHlo.after hostOps1 W (Proc.devRef .tc main_v33) = _
    after_results
    rfl
  rw [e]
  refine shapeCast_apply (s := S50000) (t := S50000x1) _ _ (ix2 n 0) (ix1 n) ?_
  rw [Shape.rowMajor_val_two, Shape.rowMajor_val_one]
  show n.val = n.val * 1 + 0
  omega

theorem after1_wa : (StableHlo.after hostOps1 W (Proc.devRef .tc main_v34) : S128x128.Idx → EReal) = W (Proc.devRef .tc main_arg7) := by
  show StableHlo.after hostOps1 W (Proc.devRef .tc main_v34) = _
  after_results
  rfl

theorem after1_wb : (StableHlo.after hostOps1 W (Proc.devRef .tc main_v35) : S128x128.Idx → EReal) = W (Proc.devRef .tc main_arg9) := by
  show StableHlo.after hostOps1 W (Proc.devRef .tc main_v35) = _
  after_results
  rfl

theorem after1_wf1 : (StableHlo.after hostOps1 W (Proc.devRef .tc main_v36) : S128x128.Idx → EReal) = W (Proc.devRef .tc main_arg11) := by
  show StableHlo.after hostOps1 W (Proc.devRef .tc main_v36) = _
  after_results
  rfl

theorem after1_wf2 : (StableHlo.after hostOps1 W (Proc.devRef .tc main_v37) : S128x6.Idx → EReal) = W (Proc.devRef .tc main_arg13) := by
  show StableHlo.after hostOps1 W (Proc.devRef .tc main_v37) = _
  after_results
  rfl

theorem after1_ba (k : Fin 128) : StableHlo.after hostOps1 W (Proc.devRef .tc main_v38) (ix2 0 k) = W (Proc.devRef .tc main_arg8) (ix1 k) := by
  have e : StableHlo.after hostOps1 W (Proc.devRef .tc main_v38)
      = shapeCast S1x128 (W (Proc.devRef .tc main_arg8)) shapeCasts_S128_S1x128 := by
    show StableHlo.after hostOps1 W (Proc.devRef .tc main_v38) = _
    after_results
    rfl
  rw [e]
  exact shapeCast_a_1a_apply _ _ 0 k

theorem after1_bb (k : Fin 128) : StableHlo.after hostOps1 W (Proc.devRef .tc main_v39) (ix2 0 k) = W (Proc.devRef .tc main_arg10) (ix1 k) := by
  have e : StableHlo.after hostOps1 W (Proc.devRef .tc main_v39)
      = shapeCast S1x128 (W (Proc.devRef .tc main_arg10)) shapeCasts_S128_S1x128 := by
    show StableHlo.after hostOps1 W (Proc.devRef .tc main_v39) = _
    after_results
    rfl
  rw [e]
  exact shapeCast_a_1a_apply _ _ 0 k

theorem after1_bf1 (k : Fin 128) : StableHlo.after hostOps1 W (Proc.devRef .tc main_v40) (ix2 0 k) = W (Proc.devRef .tc main_arg12) (ix1 k) := by
  have e : StableHlo.after hostOps1 W (Proc.devRef .tc main_v40)
      = shapeCast S1x128 (W (Proc.devRef .tc main_arg12)) shapeCasts_S128_S1x128 := by
    show StableHlo.after hostOps1 W (Proc.devRef .tc main_v40) = _
    after_results
    rfl
  rw [e]
  exact shapeCast_a_1a_apply _ _ 0 k

theorem after1_bf2 (o : Fin 6) : StableHlo.after hostOps1 W (Proc.devRef .tc main_v41) (ix2 0 o) = W (Proc.devRef .tc main_arg14) (ix1 o) := by
  have e : StableHlo.after hostOps1 W (Proc.devRef .tc main_v41)
      = shapeCast S1x6 (W (Proc.devRef .tc main_arg14)) shapeCasts_S6_S1x6 := by
    show StableHlo.after hostOps1 W (Proc.devRef .tc main_v41) = _
    after_results
    rfl
  rw [e]
  exact shapeCast_a_1a_apply _ _ 0 o

end Cert.KernelIdeal.HostAt

end
-- ==== Proof.TileSum.lean ====
/-
  The pooling accumulators against the specification's sums over nodes.

  After point n the sums accumulator holds, at (g, q), the specification's tile accumulator over the first n + 1 tiles:
  zero, then for each tile the sum over its rows r of onehot (r, g) · y (r, q), the one-hot entry being one exactly when
  row r's id word is g. The counts accumulator is the same with every y equal to one. Both follow by induction on the
  point from the update's value at an index and the zeroed start. After the last of the 25 points the accumulator over all
  tiles is the sum over the pairs (tile, row) whose id is g; and since tile t, row r is node 2000 t + r, a bijection
  between the 25 × 2000 pairs and the 50000 nodes (quotient and remainder by 2000), such a sum over pairs is the same sum
  over nodes.
-/
import proofs.«405799_j23536420782504_2_alg».proof.Proof.PoolData
import proofs.«405799_j23536420782504_2_alg».proof.Proof.PoolingAt
import proofs.«405799_j23536420782504_2_alg».proof.Proof.Spec
import Idealize.ShloMosaic.Lib.ValueIdx
import Mathlib.Logic.Equiv.Fin.Basic
import Mathlib.Algebra.BigOperators.Group.Finset.Basic

set_option maxRecDepth 16384

noncomputable section

namespace Cert.KernelIdeal.TileSum

open Cert.KernelIdeal Cert.KernelIdeal.Gen Idealize.ShloMosaic Idealize.ShloMosaic.TcCoe Idealize.ShloMosaic.ValueIdx

/-! ## Tiles and rows against nodes -/

section Nodes

/-- Tile `t`, row `r` is node `2000 t + r`, and there are 25 tiles. -/
theorem node_lt (p : Fin cfg1.N × Fin 2000) : 2000 * p.1.val + p.2.val < 50000 := by
  have hN : cfg1.N = 25 := N_1
  have h1 := p.1.isLt
  have h2 := p.2.isLt
  omega

def node (p : Fin cfg1.N × Fin 2000) : Fin 50000 := ⟨2000 * p.1.val + p.2.val, node_lt p⟩

/-- Every node is one row of one tile: its quotient and its remainder by 2000. -/
def nodeEquiv : Fin cfg1.N × Fin 2000 ≃ Fin 50000 where
  toFun := node
  invFun n := (⟨n.val / 2000, by have hN : cfg1.N = 25 := N_1; have := n.isLt; omega⟩, ⟨n.val % 2000, Nat.mod_lt _ (by decide)⟩)
  left_inv p := by
    have h2 := p.2.isLt
    refine Prod.ext (Fin.ext ?_) (Fin.ext ?_)
    · show (2000 * p.1.val + p.2.val) / 2000 = p.1.val
      omega
    · show (2000 * p.1.val + p.2.val) % 2000 = p.2.val
      omega
  right_inv n := by
    refine Fin.ext ?_
    show 2000 * (n.val / 2000) + n.val % 2000 = n.val
    omega

/-- A filtered sum over the pairs (tile, row) is the same filtered sum over the nodes. -/
theorem pairs_to_nodes (idN : Fin 50000 → BitVec 32) (f : Fin 50000 → EReal) (w : BitVec 32) :
    ∑ p ∈ (Finset.univ : Finset (Fin cfg1.N × Fin 2000)).filter (fun p => idN (node p) = w), f (node p)
      = ∑ n ∈ (Finset.univ : Finset (Fin 50000)).filter (fun n => idN n = w), f n := by
  refine Finset.sum_equiv nodeEquiv (fun p => ?_) (fun p _ => rfl)
  simp only [Finset.mem_filter, Finset.mem_univ, true_and]
  exact Iff.rfl

end Nodes

/-- The accumulated tiles do not depend on how the number of tiles is written. -/
theorem tileAcc_congr {T R : Nat} (id : Fin T → Fin R → BitVec 32) (y : Fin T → Fin R → EReal) (g : Fin 512)
    (t t' : Nat) (h : t = t') (ht : t ≤ T) (ht' : t' ≤ T) :
    Cert.Spec.tileAcc id y g t ht = Cert.Spec.tileAcc id y g t' ht' := by
  subst h; rfl

variable (V : (c : Dev nD) → (b : Ref sig .tc) → Buf (Elt Ideal) ((c : Thread nD τ).loc b)) (c : Dev nD)

/-- The id word of tile `t`'s row `r`, and its second-layer feature in column `q`. -/
def idT (t : Fin cfg1.N) (r : Fin 2000) : BitVec 32 := Pool.blk V c 2 t (ix2 r 0)
def yT (q : Fin 128) (t : Fin cfg1.N) (r : Fin 2000) : EReal := Pool.featAt V c t (ix2 r q)

/-- The sums after point `n` are the specification's accumulator over `n + 1` tiles. -/
theorem sums_acc (n : ℕ) (hn : n < cfg1.N) (g : Fin 512) (q : Fin 128) :
    (Pool.accAt V c n hn).1 (ix2 g q) = Cert.Spec.tileAcc (idT V c) (yT V c q) g (n + 1) hn := by
  induction n with
  | zero =>
    rw [Pool.accAt]
    show k1_pay1 (Pool.featAt V c ⟨0, hn⟩) (Pool.hotAt V c ⟨0, hn⟩) (k1_pay4 (F := Ideal)) (ix2 g q)
      = 0 + ∑ r : Fin 2000, Cert.Spec.hot (idT V c ⟨0, hn⟩ r) g * yT V c q ⟨0, hn⟩ r
    rw [PoolingAt.pay_sums_apply, PoolingAt.pay_zero_sums]
    refine congrArg (fun t : EReal => 0 + t) (Finset.sum_congr rfl fun r _ => ?_)
    exact congrArg (fun t : EReal => t * yT V c q ⟨0, hn⟩ r) (PoolingAt.pay_onehot_apply _ r g)
  | succ n ih =>
    rw [Pool.accAt]
    show k1_pay1 (Pool.featAt V c ⟨n + 1, hn⟩) (Pool.hotAt V c ⟨n + 1, hn⟩) (Pool.accAt V c n (Nat.lt_of_succ_lt hn)).1 (ix2 g q)
      = Cert.Spec.tileAcc (idT V c) (yT V c q) g (n + 1) (Nat.le_of_succ_le hn)
        + ∑ r : Fin 2000, Cert.Spec.hot (idT V c ⟨n + 1, hn⟩ r) g * yT V c q ⟨n + 1, hn⟩ r
    rw [PoolingAt.pay_sums_apply, ih (Nat.lt_of_succ_lt hn)]
    refine congrArg (fun t : EReal => Cert.Spec.tileAcc (idT V c) (yT V c q) g (n + 1) (Nat.le_of_succ_le hn) + t)
      (Finset.sum_congr rfl fun r _ => ?_)
    exact congrArg (fun t : EReal => t * yT V c q ⟨n + 1, hn⟩ r) (PoolingAt.pay_onehot_apply _ r g)

/-- The counts after point `n` are the same accumulator over rows that are all one. -/
theorem counts_acc (n : ℕ) (hn : n < cfg1.N) (g : Fin 512) :
    (Pool.accAt V c n hn).2 (ix2 g 0) = Cert.Spec.tileAcc (idT V c) (fun _ _ => (1 : EReal)) g (n + 1) hn := by
  induction n with
  | zero =>
    rw [Pool.accAt]
    show k1_pay2 (Pool.hotAt V c ⟨0, hn⟩) (k1_pay5 (F := Ideal)) (ix2 g 0)
      = 0 + ∑ r : Fin 2000, Cert.Spec.hot (idT V c ⟨0, hn⟩ r) g * 1
    rw [PoolingAt.pay_counts_apply, PoolingAt.pay_zero_counts]
    refine congrArg (fun t : EReal => 0 + t) (Finset.sum_congr rfl fun r _ => ?_)
    exact congrArg (fun t : EReal => t * 1) (PoolingAt.pay_onehot_apply _ r g)
  | succ n ih =>
    rw [Pool.accAt]
    show k1_pay2 (Pool.hotAt V c ⟨n + 1, hn⟩) (Pool.accAt V c n (Nat.lt_of_succ_lt hn)).2 (ix2 g 0)
      = Cert.Spec.tileAcc (idT V c) (fun _ _ => (1 : EReal)) g (n + 1) (Nat.le_of_succ_le hn)
        + ∑ r : Fin 2000, Cert.Spec.hot (idT V c ⟨n + 1, hn⟩ r) g * 1
    rw [PoolingAt.pay_counts_apply, ih (Nat.lt_of_succ_lt hn)]
    refine congrArg (fun t : EReal => Cert.Spec.tileAcc (idT V c) (fun _ _ => (1 : EReal)) g (n + 1) (Nat.le_of_succ_le hn) + t)
      (Finset.sum_congr rfl fun r _ => ?_)
    exact congrArg (fun t : EReal => t * 1) (PoolingAt.pay_onehot_apply _ r g)

/-- After the last of the 25 points the sums are, graph by graph, the sum over the rows of all tiles with that id. -/
theorem sums_last (h24 : 24 < cfg1.N) (g : Fin 512) (q : Fin 128) :
    (Pool.accAt V c 24 h24).1 (ix2 g q)
      = ∑ p ∈ (Finset.univ : Finset (Fin cfg1.N × Fin 2000)).filter (fun p => idT V c p.1 p.2 = BitVec.ofNat 32 g.val),
          yT V c q p.1 p.2 :=
  (sums_acc V c 24 h24 g q).trans
    ((tileAcc_congr (idT V c) (yT V c q) g (24 + 1) cfg1.N (show 25 = cfg1.N from N_1.symm) h24 le_rfl).trans
      (Cert.Spec.tileAcc_eq (idT V c) (yT V c q) g))

/-- And the counts the number of those rows. -/
theorem counts_last (h24 : 24 < cfg1.N) (g : Fin 512) :
    (Pool.accAt V c 24 h24).2 (ix2 g 0)
      = ∑ p ∈ (Finset.univ : Finset (Fin cfg1.N × Fin 2000)).filter (fun p => idT V c p.1 p.2 = BitVec.ofNat 32 g.val),
          (1 : EReal) :=
  (counts_acc V c 24 h24 g).trans
    ((tileAcc_congr (idT V c) (fun _ _ => (1 : EReal)) g (24 + 1) cfg1.N (show 25 = cfg1.N from N_1.symm) h24 le_rfl).trans
      (Cert.Spec.tileAcc_eq (idT V c) (fun _ _ => (1 : EReal)) g))

end Cert.KernelIdeal.TileSum

end
-- ==== Proof.KernelValue.lean ====
/-
  What the kernel's program leaves in its result array, on the extended reals: the network of the specification.

  The first region's output array is, row by row, the first layer of the features and their neighbour sums (each tile of
  5000 rows is the perceptron of that tile's rows, and the tiles tile the array). The second region's accumulators after
  its 25 tiles are the per-graph sums and counts of the second layer's rows (the tile-by-tile one-hot products add up to
  the sum over the rows with that id, and tile t, row r is node 2000·t + r), and its last point stores the pooled means
  through the head and the sigmoid. The neighbour aggregation is the same function of the features at both layers and is
  never opened.
-/
import proofs.«405799_j23536420782504_2_alg».proof.Proof.WholeRun
import proofs.«405799_j23536420782504_2_alg».proof.Proof.PerceptronAt
import proofs.«405799_j23536420782504_2_alg».proof.Proof.PoolingAt
import proofs.«405799_j23536420782504_2_alg».proof.Proof.BlocksAt
import proofs.«405799_j23536420782504_2_alg».proof.Proof.HostAt
import proofs.«405799_j23536420782504_2_alg».proof.Proof.Spec
import proofs.«405799_j23536420782504_2_alg».proof.Proof.TileSum
import Mathlib.Logic.Equiv.Fin.Basic

set_option maxRecDepth 16384

noncomputable section

namespace Cert.KernelIdeal.KValue

open Cert.KernelIdeal Cert.KernelIdeal.Gen Idealize.ShloMosaic Idealize.ShloMosaic.TcCoe Idealize.ShloMosaic.ValueIdx

variable (m : (ℓ : Loc nD τ sig) → Buf (Elt Ideal) ℓ) (c : Dev nD)

/-! The argument arrays. -/
abbrev aX := m ((c : Thread nD τ).loc main_arg0)
abbrev aE := m ((c : Thread nD τ).loc main_arg1)
abbrev aB := m ((c : Thread nD τ).loc main_arg2)
abbrev aW1a := m ((c : Thread nD τ).loc main_arg3)
abbrev ab1a := m ((c : Thread nD τ).loc main_arg4)
abbrev aW1b := m ((c : Thread nD τ).loc main_arg5)
abbrev ab1b := m ((c : Thread nD τ).loc main_arg6)
abbrev aW2a := m ((c : Thread nD τ).loc main_arg7)
abbrev ab2a := m ((c : Thread nD τ).loc main_arg8)
abbrev aW2b := m ((c : Thread nD τ).loc main_arg9)
abbrev ab2b := m ((c : Thread nD τ).loc main_arg10)
abbrev aWf1 := m ((c : Thread nD τ).loc main_arg11)
abbrev abf1 := m ((c : Thread nD τ).loc main_arg12)
abbrev aWf2 := m ((c : Thread nD τ).loc main_arg13)
abbrev abf2 := m ((c : Thread nD τ).loc main_arg14)

/-- The neighbour aggregation of features `h` along the program's edge list. -/
abbrev aggK (h : FVec Ideal S50000x128 .f32) : FVec Ideal S50000x128 .f32 :=
  HostAt.aggCore (HostAt.srcOf (aE m c)) (HostAt.dstOf (aE m c)) h

/-! ## What the first region is entered with -/

theorem in0_x : Whole.V1 m c main_arg0 = aX m c := HostAt.after0_x (Whole.W0 m c)
theorem in0_agg : Whole.V1 m c main_v15 = aggK m c (aX m c) := HostAt.after0_agg (Whole.W0 m c)
theorem in0_wa : (Whole.V1 m c main_v16 : S128x128.Idx → EReal) = aW1a m c := HostAt.after0_wa (Whole.W0 m c)
theorem in0_wb : (Whole.V1 m c main_v17 : S128x128.Idx → EReal) = aW1b m c := HostAt.after0_wb (Whole.W0 m c)
theorem in0_ba (k : Fin 128) : Whole.V1 m c main_v18 (ix2 0 k) = ab1a m c (ix1 k) := HostAt.after0_ba (Whole.W0 m c) k
theorem in0_bb (k : Fin 128) : Whole.V1 m c main_v19 (ix2 0 k) = ab1b m c (ix1 k) := HostAt.after0_bb (Whole.W0 m c) k

/-- The one store of a tile's body covers its block: the block holds the stored value. -/
theorem tileOut_eq (x a : Vec Ideal S5000x128 .f32) (wa : Vec Ideal S128x128 .bf16) (ba : Vec Ideal S1x128 .f32)
    (wb : Vec Ideal S128x128 .bf16) (bb : Vec Ideal S1x128 .f32) :
    Mlp.tileOut (F := Ideal) x a wa ba wb bb = k0_pay1 x a wa ba wb bb := by
  unfold Mlp.tileOut
  rw [View.canon_unit_zero Pool.zeros2]
  simp only [View.ld_unit_zero (S := S5000x128) Pool.zeros2, View.ld_unit_zero (S := S128x128) Pool.zeros2,
    View.ld_unit_zero (S := S1x128) Pool.zeros2]

/-- The first layer's features, as the first region leaves them: row `n`, column `q`. -/
def h1K (n : Fin 50000) (q : Fin 128) : EReal :=
  Cert.Spec.layer (fun n j => aX m c (ix2 n j)) (fun n j => aggK m c (aX m c) (ix2 n j)) (fun j k => aW1a m c (ix2 j k))
    (fun k => ab1a m c (ix1 k)) (fun j k => aW1b m c (ix2 j k)) (fun k => ab1b m c (ix1 k)) n q

/-- A tile of the first region's output array, for ANY entry contents `V` whose six input arrays are known: the layer of
    the features and neighbour sums at the tile's rows. -/
theorem tile_layer (V : (c : Dev nD) → (b : Ref sig .tc) → Buf (Elt Ideal) ((c : Thread nD τ).loc b))
    (X A : FVec Ideal S50000x128 .f32) (Wa Wb : S128x128.Idx → EReal) (ba bb : S128.Idx → EReal)
    (hx : V c main_arg0 = X) (ha : V c main_v15 = A) (hwa : (V c main_v16 : S128x128.Idx → EReal) = Wa)
    (hwb : (V c main_v17 : S128x128.Idx → EReal) = Wb) (hba : ∀ k : Fin 128, V c main_v18 (ix2 0 k) = ba (ix1 k))
    (hbb : ∀ k : Fin 128, V c main_v19 (ix2 0 k) = bb (ix1 k))
    (t : Fin cfg0.N) (r : Fin 5000) (q : Fin 128) (hn : 5000 * t.val + r.val < 50000) :
    (Mlp.dat V c).arrAt 6 cfg0.N (ix2 ⟨5000 * t.val + r.val, hn⟩ q)
      = Cert.Spec.layer (fun n j => X (ix2 n j)) (fun n j => A (ix2 n j)) (fun j k => Wa (ix2 j k)) (fun k => ba (ix1 k))
          (fun j k => Wb (ix2 j k)) (fun k => bb (ix1 k)) ⟨5000 * t.val + r.val, hn⟩ q := by
  subst hx ha hwa hwb
  rw [BlocksAt.mlp_out V c t r q hn, tileOut_eq, PerceptronAt.pay_tile_apply]
  unfold Cert.Spec.layer
  simp only [BlocksAt.mlp_rows0 V c t r _ hn, BlocksAt.mlp_rows1 V c t r _ hn, BlocksAt.mlp_whole2 V c t,
    BlocksAt.mlp_whole3 V c t, BlocksAt.mlp_whole4 V c t, BlocksAt.mlp_whole5 V c t, hba, hbb]

theorem h1K_tile (t : Fin cfg0.N) (r : Fin 5000) (q : Fin 128) (hn : 5000 * t.val + r.val < 50000) :
    Whole.V2 m c main_v20 (ix2 ⟨5000 * t.val + r.val, hn⟩ q) = h1K m c ⟨5000 * t.val + r.val, hn⟩ q := by
  rw [show Whole.V2 m c main_v20 = (Mlp.dat (Whole.V1 m) c).arrAt 6 cfg0.N from (Whole.hF0 m c 6).symm]
  exact tile_layer c (Whole.V1 m) (aX m c) (aggK m c (aX m c)) (aW1a m c) (aW1b m c) (ab1a m c) (ab1b m c)
    (in0_x m c) (in0_agg m c) (in0_wa m c) (in0_wb m c) (in0_ba m c) (in0_bb m c) t r q hn

theorem h1K_apply (n : Fin 50000) (q : Fin 128) : Whole.V2 m c main_v20 (ix2 n q) = h1K m c n q := by
  have hN : cfg0.N = 10 := N_0
  have hn : 5000 * (n.val / 5000) + n.val % 5000 < 50000 := by rw [Nat.div_add_mod]; exact n.isLt
  have h := h1K_tile m c ⟨n.val / 5000, by rw [hN]; have := n.isLt; omega⟩ ⟨n.val % 5000, Nat.mod_lt _ (by norm_num)⟩ q hn
  have e : (⟨5000 * (n.val / 5000) + n.val % 5000, hn⟩ : Fin 50000) = n := Fin.ext (Nat.div_add_mod _ _)
  rw [e] at h
  exact h

/-! ## What the second region is entered with -/

/-- A buffer that is no array of the first region and that the first stretch does not write still holds its launch contents
    when the first region is left. -/
theorem W2_keep (b : Ref sig .tc) (h0 : ∀ w, Pipeline.arrRef spec0 w ≠ b) (h1 : b ∉ hostOps0_W) :
    Whole.W2 m c (Proc.devRef .tc b) = m ((c : Thread nD τ).loc b) :=
  (Whole.W2_of_ne m c b h0).trans ((StableHlo.after_of_writes_sub hostOps0 _ hostOps0_writes h1).trans rfl)

theorem in1_h : Whole.V3 m c main_v20 = Whole.V2 m c main_v20 := HostAt.after1_h (Whole.W2 m c)
theorem in1_src : Whole.W2 m c (Proc.devRef .tc main_v1) = HostAt.srcOf (aE m c) :=
  (Whole.W2_of_ne m c main_v1 (by decide)).trans (HostAt.after0_src (Whole.W0 m c))
theorem in1_dst : Whole.W2 m c (Proc.devRef .tc main_v3) = HostAt.dstOf (aE m c) :=
  (Whole.W2_of_ne m c main_v3 (by decide)).trans (HostAt.after0_dst (Whole.W0 m c))
theorem in1_agg : Whole.V3 m c main_v32 = aggK m c (Whole.V2 m c main_v20) := by
  have h := HostAt.after1_agg (Whole.W2 m c)
  rw [in1_src, in1_dst] at h
  exact h
theorem in1_ids (n : Fin 50000) : Whole.V3 m c main_v33 (ix2 n 0) = aB m c (ix1 n) :=
  (HostAt.after1_ids (Whole.W2 m c) n).trans (congrFun (W2_keep m c main_arg2 (by decide) (by decide)) (ix1 n))
theorem in1_wa : (Whole.V3 m c main_v34 : S128x128.Idx → EReal) = aW2a m c :=
  (HostAt.after1_wa (Whole.W2 m c)).trans (W2_keep m c main_arg7 (by decide) (by decide))
theorem in1_wb : (Whole.V3 m c main_v35 : S128x128.Idx → EReal) = aW2b m c :=
  (HostAt.after1_wb (Whole.W2 m c)).trans (W2_keep m c main_arg9 (by decide) (by decide))
theorem in1_wf1 : (Whole.V3 m c main_v36 : S128x128.Idx → EReal) = aWf1 m c :=
  (HostAt.after1_wf1 (Whole.W2 m c)).trans (W2_keep m c main_arg11 (by decide) (by decide))
theorem in1_wf2 : (Whole.V3 m c main_v37 : S128x6.Idx → EReal) = aWf2 m c :=
  (HostAt.after1_wf2 (Whole.W2 m c)).trans (W2_keep m c main_arg13 (by decide) (by decide))
theorem in1_ba (k : Fin 128) : Whole.V3 m c main_v38 (ix2 0 k) = ab2a m c (ix1 k) :=
  (HostAt.after1_ba (Whole.W2 m c) k).trans (congrFun (W2_keep m c main_arg8 (by decide) (by decide)) (ix1 k))
theorem in1_bb (k : Fin 128) : Whole.V3 m c main_v39 (ix2 0 k) = ab2b m c (ix1 k) :=
  (HostAt.after1_bb (Whole.W2 m c) k).trans (congrFun (W2_keep m c main_arg10 (by decide) (by decide)) (ix1 k))
theorem in1_bf1 (k : Fin 128) : Whole.V3 m c main_v40 (ix2 0 k) = abf1 m c (ix1 k) :=
  (HostAt.after1_bf1 (Whole.W2 m c) k).trans (congrFun (W2_keep m c main_arg12 (by decide) (by decide)) (ix1 k))
theorem in1_bf2 (o : Fin 6) : Whole.V3 m c main_v41 (ix2 0 o) = abf2 m c (ix1 o) :=
  (HostAt.after1_bf2 (Whole.W2 m c) o).trans (congrFun (W2_keep m c main_arg14 (by decide) (by decide)) (ix1 o))

/-! ## The second layer, tile by tile -/

/-- The second layer's features: the layer of the first layer's features and THEIR neighbour sums. -/
def h2K (n : Fin 50000) (q : Fin 128) : EReal :=
  Cert.Spec.layer (fun n j => Whole.V2 m c main_v20 (ix2 n j)) (fun n j => aggK m c (Whole.V2 m c main_v20) (ix2 n j))
    (fun j k => aW2a m c (ix2 j k)) (fun k => ab2a m c (ix1 k)) (fun j k => aW2b m c (ix2 j k)) (fun k => ab2b m c (ix1 k)) n q

/-- A tile of second-layer features, for ANY entry contents `V` whose six input arrays are known. -/
theorem tile_feat (V : (c : Dev nD) → (b : Ref sig .tc) → Buf (Elt Ideal) ((c : Thread nD τ).loc b))
    (H A : FVec Ideal S50000x128 .f32) (Wa Wb : S128x128.Idx → EReal) (ba bb : S128.Idx → EReal)
    (hh : V c main_v20 = H) (ha : V c main_v32 = A) (hwa : (V c main_v34 : S128x128.Idx → EReal) = Wa)
    (hwb : (V c main_v35 : S128x128.Idx → EReal) = Wb) (hba : ∀ k : Fin 128, V c main_v38 (ix2 0 k) = ba (ix1 k))
    (hbb : ∀ k : Fin 128, V c main_v39 (ix2 0 k) = bb (ix1 k))
    (t : Fin cfg1.N) (r : Fin 2000) (q : Fin 128) (hn : 2000 * t.val + r.val < 50000) :
    Pool.featAt V c t (ix2 r q)
      = Cert.Spec.layer (fun n j => H (ix2 n j)) (fun n j => A (ix2 n j)) (fun j k => Wa (ix2 j k)) (fun k => ba (ix1 k))
          (fun j k => Wb (ix2 j k)) (fun k => bb (ix1 k)) ⟨2000 * t.val + r.val, hn⟩ q := by
  subst hh ha hwa hwb
  show k1_pay6 (F := Ideal) (Pool.blk V c 0 t) (Pool.blk V c 1 t) (Pool.blk V c 3 t) (Pool.blk V c 4 t) (Pool.blk V c 5 t)
    (Pool.blk V c 6 t) (ix2 r q) = _
  rw [PerceptronAt.pay_feat_apply]
  unfold Cert.Spec.layer
  simp only [BlocksAt.pool_rows0 V c t r _ hn, BlocksAt.pool_rows1 V c t r _ hn, BlocksAt.pool_whole3 V c t,
    BlocksAt.pool_whole4 V c t, BlocksAt.pool_whole5 V c t, BlocksAt.pool_whole6 V c t, hba, hbb]

theorem feat_apply (t : Fin cfg1.N) (r : Fin 2000) (q : Fin 128) (hn : 2000 * t.val + r.val < 50000) :
    Pool.featAt (Whole.V3 m) c t (ix2 r q) = h2K m c ⟨2000 * t.val + r.val, hn⟩ q :=
  tile_feat c (Whole.V3 m) (Whole.V2 m c main_v20) (aggK m c (Whole.V2 m c main_v20)) (aW2a m c) (aW2b m c) (ab2a m c) (ab2b m c)
    (in1_h m c) (in1_agg m c) (in1_wa m c) (in1_wb m c) (in1_ba m c) (in1_bb m c) t r q hn

theorem id_apply (t : Fin cfg1.N) (r : Fin 2000) (hn : 2000 * t.val + r.val < 50000) :
    Pool.blk (Whole.V3 m) c 2 t (ix2 r 0) = aB m c (ix1 ⟨2000 * t.val + r.val, hn⟩) :=
  (BlocksAt.pool_rows2 (Whole.V3 m) c t r hn).trans (in1_ids m c _)

/-! ## The accumulators after the last tile -/

theorem h24 : 24 < cfg1.N := by rw [show cfg1.N = 25 from N_1]; decide

/-- The graph id of node `n`. -/
abbrev idN (n : Fin 50000) : BitVec 32 := aB m c (ix1 n)

theorem sums_nodes (g : Fin 512) (q : Fin 128) :
    (Pool.accAt (Whole.V3 m) c 24 h24).1 (ix2 g q) = Cert.Spec.segSum (idN m c) (h2K m c) g q := by
  rw [TileSum.sums_last (Whole.V3 m) c h24 g q]
  unfold Cert.Spec.segSum
  rw [zero_add, ← TileSum.pairs_to_nodes (idN m c) (fun n => h2K m c n q) (BitVec.ofNat 32 g.val)]
  refine Finset.sum_congr (Finset.filter_congr fun p _ => ?_) fun p _ => ?_
  · rw [show TileSum.idT (Whole.V3 m) c p.1 p.2 = idN m c (TileSum.node p) from id_apply m c p.1 p.2 (TileSum.node_lt p)]
  · exact feat_apply m c p.1 p.2 q (TileSum.node_lt p)

theorem counts_nodes (g : Fin 512) :
    (Pool.accAt (Whole.V3 m) c 24 h24).2 (ix2 g 0) = Cert.Spec.segCount (idN m c) g := by
  rw [TileSum.counts_last (Whole.V3 m) c h24 g]
  unfold Cert.Spec.segCount
  rw [zero_add, ← TileSum.pairs_to_nodes (idN m c) (fun _ => (1 : EReal)) (BitVec.ofNat 32 g.val)]
  refine Finset.sum_congr (Finset.filter_congr fun p _ => ?_) fun p _ => rfl
  rw [show TileSum.idT (Whole.V3 m) c p.1 p.2 = idN m c (TileSum.node p) from id_apply m c p.1 p.2 (TileSum.node_lt p)]

/-! ## The result -/

/-- The second region's output array, for ANY entry contents `V` whose head arrays and final accumulators are known. -/
theorem last_out (V : (c : Dev nD) → (b : Ref sig .tc) → Buf (Elt Ideal) ((c : Thread nD τ).loc b))
    (Sg : Fin 512 → Fin 128 → EReal) (Cg : Fin 512 → EReal)
    (Wf1 : S128x128.Idx → EReal) (bf1 : S128.Idx → EReal) (Wf2 : S128x6.Idx → EReal) (bf2 : S6.Idx → EReal)
    (hS : ∀ g j, (Pool.accAt V c 24 h24).1 (ix2 g j) = Sg g j) (hC : ∀ g, (Pool.accAt V c 24 h24).2 (ix2 g 0) = Cg g)
    (hwf1 : (V c main_v36 : S128x128.Idx → EReal) = Wf1) (hbf1 : ∀ k : Fin 128, V c main_v40 (ix2 0 k) = bf1 (ix1 k))
    (hwf2 : (V c main_v37 : S128x6.Idx → EReal) = Wf2) (hbf2 : ∀ o : Fin 6, V c main_v41 (ix2 0 o) = bf2 (ix1 o))
    (g : Fin 512) (o : Fin 6) :
    (Pool.dat V c).arrAt 11 cfg1.N (ix2 g o)
      = Ideal.logistic (Cert.Spec.headPre (fun g j => Ideal.div (Sg g j) (max (Cg g) 1)) (fun j k => Wf1 (ix2 j k))
          (fun k => bf1 (ix1 k)) (fun k o => Wf2 (ix2 k o)) (fun o => bf2 (ix1 o)) g o) := by
  subst hwf1 hwf2
  rw [BlocksAt.pool_out V c]
  show k1_pay3 (F := Ideal) (Pool.accAt V c 24 h24).1 (Pool.accAt V c 24 h24).2 (Pool.blk V c 7 BlocksAt.tLast)
    (Pool.blk V c 8 BlocksAt.tLast) (Pool.blk V c 9 BlocksAt.tLast) (Pool.blk V c 10 BlocksAt.tLast) (ix2 g o) = _
  rw [PoolingAt.pay_out_apply]
  unfold Cert.Spec.headPre
  simp only [hS, hC, BlocksAt.pool_whole7 V c, BlocksAt.pool_whole8 V c, BlocksAt.pool_whole9 V c, BlocksAt.pool_whole10 V c,
    hbf1, hbf2]

/-- The program's result: the network's output of the specification, from the second layer's features. -/
theorem out_apply (g : Fin 512) (o : Fin 6) :
    (Pool.dat (Whole.V3 m) c).arrAt 11 cfg1.N (ix2 g o)
      = Cert.Spec.out (idN m c) (h2K m c) (fun j k => aWf1 m c (ix2 j k)) (fun k => abf1 m c (ix1 k))
          (fun k o => aWf2 m c (ix2 k o)) (fun o => abf2 m c (ix1 o)) g o := by
  rw [last_out c (Whole.V3 m) (Cert.Spec.segSum (idN m c) (h2K m c)) (Cert.Spec.segCount (idN m c)) (aWf1 m c) (abf1 m c)
    (aWf2 m c) (abf2 m c) (sums_nodes m c) (counts_nodes m c) (in1_wf1 m c) (in1_bf1 m c) (in1_wf2 m c) (in1_bf2 m c) g o]
  rfl

end Cert.KernelIdeal.KValue

end
-- ==== Proof.ScatterAt.lean ====
/-
  The reference's two accumulating scatters, read at one element.

  Pooling by graph id adds update row n of a 50000 × 128 array into row id(n) of a 512 × 128 array of zeros, and adds a one
  into entry id(n) of 512 zeros for the counts. The scatter's result index of an update element is, axis by axis, the start
  read SIGNED off the index operand plus the window coordinate, and the update is dropped when that leaves the operand.
  For these two sets of dimension numbers the start on the row axis is the id word of row n and the window coordinate there
  is zero; on the column axis (the sums only) the start is zero and the window coordinate is the update's column. So update
  (n, c) lands on (g, q) exactly when the signed reading of the id word is g and c = q; since g < 512 < 2³¹ the signed reading
  is g exactly when the word is the numeral g, and a negative or too large id lands nowhere. The sum over the update elements
  that land on (g, q) is then re-indexed by the row coordinate into the sum over the rows whose id is g, column q fixed, and
  the operand's zero and the ones of the counts are the extended reals 0 and 1.
-/
import proofs.«405799_j23536420782504_2_alg».proof.ReferenceIdeal
import proofs.«405799_j23536420782504_2_alg».proof.Proof.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Predicate

noncomputable section

namespace Cert.ReferenceIdeal.ScatterAt

open Cert.ReferenceIdeal Idealize.ShloMosaic Idealize.ShloMosaic.ValueIdx

variable [Facts₀]
open Facts₀

/-! ## Words and result indices in general -/

/-- A 32-bit word reads, signed, as a natural number below 2³¹ exactly when it is that numeral. -/
theorem toInt_eq_small_iff (w : BitVec 32) (g : Nat) (hg : g < 2 ^ 31) :
    w.toInt = (g : Int) ↔ w = BitVec.ofNat 32 g := by
  constructor
  · intro h
    apply BitVec.eq_of_toInt_eq
    rw [h, StableHlo.Predicate.toInt_ofNat_small g hg]
  · rintro rfl
    exact StableHlo.Predicate.toInt_ofNat_small g hg

/-- An update element lands on operand index `i` exactly when, on every axis, start plus window coordinate is `i`'s
    coordinate: the range conditions then hold because `i` is an index of the operand. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · next hh =>
      have e := congrArg Fin.val (congrFun (Option.some.inj h) a)
      have := hh a
      simp only at e
      omega
    · cases h
  · intro h
    have hh : ∀ a, 0 ≤ d.start j idx a + d.window j a ∧ d.start j idx a + d.window j a < s.size a := by
      intro a
      have := (i a).isLt
      rw [h a]
      constructor
      · omega
      · exact_mod_cast this
    rw [dif_pos hh]
    congr 1
    funext a
    apply Fin.ext
    simp only [h a]
    rfl

/-- The id column read at row `n`: the id of row `n`. -/
theorem ids_apply (B : S50000.Idx → BitVec 32) (n : Fin 50000) :
    broadcastInDim S50000x1 ![0] bcast_S50000_S50000x1_0 B (ix2 n 0) = B (ix1 n) := by
  unfold broadcastInDim
  congr 1
  funext a
  obtain rfl : a = 0 := Subsingleton.elim _ _
  refine Fin.ext ?_
  rw [dif_neg (show ¬ S50000.size 0 = 1 by decide)]
  rfl

/-- The f32 pattern `0x3F800000` is the extended real one. -/
theorem ofBits_one_f32 : Ideal.ofBits .f32 0x3F800000#32 = 1 := by
  rw [show (1 : EReal) = ((1 : ℝ) : EReal) by norm_cast]
  simp [Ideal.ofBits, Ideal.ieee, -EReal.coe_mul]; norm_num

/-! ## The row sums: rows of 50000 × 128 into 512 × 128 -/

/-- The dimension numbers of the row-sum scatter. -/
abbrev dS := scatter_S512x128_S50000x1_S50000x128_1_0_0_1

/-- On the row axis the start is the id word of the update's row, read signed. -/
theorem dS_start0 (idx : IVec S50000x1 32) (n : Fin 50000) (c : Fin 128) :
    dS.start (ix2 n c) idx 0 = (idx (ix2 n 0)).toInt := by
  unfold ScatterDims.start
  rw [dif_pos (show (0 : Fin S512x128.rank) ∈ dS.scatterDimsToOperandDims from List.mem_singleton.mpr rfl)]
  congr 2
  funext b
  refine Fin.ext ?_
  match b with
  | ⟨0, _⟩ => rfl
  | ⟨1, _⟩ => rfl

/-- On the column axis, which the index operand does not address, the start is zero. -/
theorem dS_start1 (idx : IVec S50000x1 32) (n : Fin 50000) (c : Fin 128) :
    dS.start (ix2 n c) idx 1 = 0 := by
  unfold ScatterDims.start
  rw [dif_neg (show ¬ (1 : Fin S512x128.rank) ∈ dS.scatterDimsToOperandDims from
    (by decide : ¬ (1 : Fin 2) ∈ ([0] : List (Fin 2))))]

/-- The row axis is an inserted axis: its window coordinate is zero. -/
theorem dS_window0 (n : Fin 50000) (c : Fin 128) : dS.window (ix2 n c) 0 = 0 := by
  unfold ScatterDims.window
  rw [dif_neg (show ¬ (0 : Fin S512x128.rank) ∈ dS.sKept from (by decide : ¬ (0 : Fin 2) ∈ ([1] : List (Fin 2))))]

/-- The column axis carries the update's column. -/
theorem dS_window1 (n : Fin 50000) (c : Fin 128) : dS.window (ix2 n c) 1 = c.val := by
  unfold ScatterDims.window
  rw [dif_pos (show (1 : Fin S512x128.rank) ∈ dS.sKept from (by decide : (1 : Fin 2) ∈ ([1] : List (Fin 2))))]
  rfl

/-- Update element (n, c) lands on (g, q) exactly when row n's id word is the numeral g and c = q. -/
theorem dS_resultIdx_iff (idx : IVec S50000x1 32) (n : Fin 50000) (c : Fin 128) (g : Fin 512) (q : Fin 128) :
    dS.resultIdx? (ix2 n c) idx = some (ix2 g q) ↔ idx (ix2 n 0) = BitVec.ofNat 32 g.val ∧ c = q := by
  rw [resultIdx?_eq_some_iff]
  have hg : g.val < 2 ^ 31 := by have := g.isLt; omega
  constructor
  · intro h
    have h0 := h 0
    have h1 := h 1
    rw [dS_start0, dS_window0] at h0
    rw [dS_start1, dS_window1] at h1
    refine ⟨(toInt_eq_small_iff _ g.val hg).mp ?_, Fin.ext ?_⟩
    · have e : ((ix2 g q : S512x128.Idx) 0).val = g.val := rfl
      rw [e] at h0
      simpa using h0
    · have e : ((ix2 g q : S512x128.Idx) 1).val = q.val := rfl
      rw [e] at h1
      omega
  · rintro ⟨hw, rfl⟩ a
    match a with
    | ⟨0, _⟩ =>
      have e := dS_start0 idx n c
      have e' := dS_window0 n c
      have := (toInt_eq_small_iff _ g.val hg).mpr hw
      show dS.start (ix2 n c) idx 0 + (dS.window (ix2 n c) 0 : Int) = (g.val : Int)
      rw [e, e', this]; simp
    | ⟨1, _⟩ =>
      show dS.start (ix2 n c) idx 1 + (dS.window (ix2 n c) 1 : Int) = (c.val : Int)
      rw [dS_start1, dS_window1]; simp

/-- THE ROW SUMS AT (g, q): zero plus the sum, over the rows whose id is g, of column q. -/
theorem sums_apply (B : S50000.Idx → BitVec 32) (U : FVec Ideal S50000x128 .f32) (g : Fin 512) (q : Fin 128) :
    Host.scatterAdd (F := Ideal) scatter_S512x128_S50000x1_S50000x128_1_0_0_1 (broadcastInDim S512x128 ![] bcast_S_S512x128 (constant S_ .f32 0x00000000#32)) (broadcastInDim S50000x1 ![0] bcast_S50000_S50000x1_0 B) U (ix2 g q)
      = Cert.Spec.segSum (fun n => B (ix1 n)) (fun n j => U (ix2 n j)) g q := by
  show Ideal.hostScatterAdd dS _ _ U (ix2 g q) = _
  unfold Ideal.hostScatterAdd Cert.Spec.segSum
  refine congrArg₂ (· + ·) Ideal.ofBits_zero_f32 ?_
  -- the update elements that land on (g, q) are the (n, q) with id n = g: re-index by the row coordinate
  refine Finset.sum_nbij' (fun j => j 0) (fun n => ix2 n q) ?_ ?_ ?_ ?_ ?_
  · intro j hj
    obtain ⟨n, c, rfl⟩ : ∃ (n : Fin 50000) (c : Fin 128), j = ix2 n c := ⟨j 0, j 1, eq_ix2 j⟩
    rw [Finset.mem_filter] at hj ⊢
    have := (dS_resultIdx_iff _ n c g q).mp hj.2
    rw [ids_apply] at this
    exact ⟨Finset.mem_univ _, this.1⟩
  · intro n hn
    rw [Finset.mem_filter] at hn ⊢
    refine ⟨Finset.mem_univ _, (dS_resultIdx_iff _ n q g q).mpr ⟨?_, rfl⟩⟩
    rw [ids_apply]; exact hn.2
  · intro j hj
    obtain ⟨n, c, rfl⟩ : ∃ (n : Fin 50000) (c : Fin 128), j = ix2 n c := ⟨j 0, j 1, eq_ix2 j⟩
    rw [Finset.mem_filter] at hj
    have := ((dS_resultIdx_iff _ n c g q).mp hj.2).2
    subst this
    rfl
  · intro n _
    rfl
  · intro j hj
    obtain ⟨n, c, rfl⟩ : ∃ (n : Fin 50000) (c : Fin 128), j = ix2 n c := ⟨j 0, j 1, eq_ix2 j⟩
    rw [Finset.mem_filter] at hj
    have := ((dS_resultIdx_iff _ n c g q).mp hj.2).2
    subst this
    rfl

/-! ## The counts: 50000 ones into 512 -/

/-- The dimension numbers of the count scatter. -/
abbrev dC := scatter_S512_S50000x1_S50000_n_0_0_1

/-- On the one operand axis the start is the id word of the update's row, read signed. -/
theorem dC_start0 (idx : IVec S50000x1 32) (n : Fin 50000) :
    dC.start (ix1 n) idx 0 = (idx (ix2 n 0)).toInt := by
  unfold ScatterDims.start
  rw [dif_pos (show (0 : Fin S512.rank) ∈ dC.scatterDimsToOperandDims from List.mem_singleton.mpr rfl)]
  congr 2
  funext b
  refine Fin.ext ?_
  match b with
  | ⟨0, _⟩ => rfl
  | ⟨1, _⟩ => rfl

/-- That axis is an inserted axis: its window coordinate is zero. -/
theorem dC_window0 (n : Fin 50000) : dC.window (ix1 n) 0 = 0 := by
  unfold ScatterDims.window
  rw [dif_neg (show ¬ (0 : Fin S512.rank) ∈ dC.sKept from (by decide : ¬ (0 : Fin 1) ∈ ([] : List (Fin 1))))]

/-- Update element n lands on g exactly when row n's id word is the numeral g. -/
theorem dC_resultIdx_iff (idx : IVec S50000x1 32) (n : Fin 50000) (g : Fin 512) :
    dC.resultIdx? (ix1 n) idx = some (ix1 g) ↔ idx (ix2 n 0) = BitVec.ofNat 32 g.val := by
  rw [resultIdx?_eq_some_iff]
  have hg : g.val < 2 ^ 31 := by have := g.isLt; omega
  constructor
  · intro h
    have h0 := h 0
    rw [dC_start0, dC_window0] at h0
    refine (toInt_eq_small_iff _ g.val hg).mp ?_
    have e : ((ix1 g : S512.Idx) 0).val = g.val := rfl
    rw [e] at h0
    simpa using h0
  · intro hw a
    obtain rfl : a = 0 := Subsingleton.elim _ _
    have := (toInt_eq_small_iff _ g.val hg).mpr hw
    show dC.start (ix1 n) idx 0 + (dC.window (ix1 n) 0 : Int) = (g.val : Int)
    rw [dC_start0, dC_window0, this]; simp

/-- THE COUNTS AT g: zero plus a one for every row whose id is g. -/
theorem counts_apply (B : S50000.Idx → BitVec 32) (g : Fin 512) :
    Host.scatterAdd (F := Ideal) scatter_S512_S50000x1_S50000_n_0_0_1 (broadcastInDim S512 ![] bcast_S_S512 (constant S_ .f32 0x00000000#32)) (broadcastInDim S50000x1 ![0] bcast_S50000_S50000x1_0 B) (broadcastInDim S50000 ![] bcast_S_S50000 (constant S_ .f32 0x3F800000#32)) (ix1 g)
      = Cert.Spec.segCount (fun n => B (ix1 n)) g := by
  show Ideal.hostScatterAdd dC _ _ _ (ix1 g) = _
  unfold Ideal.hostScatterAdd Cert.Spec.segCount
  refine congrArg₂ (· + ·) Ideal.ofBits_zero_f32 ?_
  -- the update elements that land on g are the rows n with id n = g, and each carries a one
  refine Finset.sum_nbij' (fun j => j 0) (fun n => ix1 n) ?_ ?_ ?_ ?_ ?_
  · intro j hj
    obtain ⟨n, rfl⟩ : ∃ n : Fin 50000, j = ix1 n := ⟨j 0, eq_ix1 j⟩
    rw [Finset.mem_filter] at hj ⊢
    have := (dC_resultIdx_iff _ n g).mp hj.2
    rw [ids_apply] at this
    exact ⟨Finset.mem_univ _, this⟩
  · intro n hn
    rw [Finset.mem_filter] at hn ⊢
    refine ⟨Finset.mem_univ _, (dC_resultIdx_iff _ n g).mpr ?_⟩
    rw [ids_apply]; exact hn.2
  · intro j _
    exact (eq_ix1 j).symm
  · intro n _
    rfl
  · intro j _
    exact ofBits_one_f32

end Cert.ReferenceIdeal.ScatterAt

end
-- ==== Proof.RefValue.lean ====
/-
  The reference network read at an index.

  The reference computes two graph-isomorphism layers, pools the second layer's rows by graph id, and applies a
  two-matrix head followed by the logistic function. Here each of these stages is read coordinate by coordinate and
  identified with the plain formula of the specification. The neighbour aggregation (gather the source rows along the
  edge list, scatter-add them at the target ids) is carried as one function `agg` of the edge list and the features and
  is never opened: a layer is stated over `agg E h` read at a coordinate, whatever that sum is.
-/
import proofs.«405799_j23536420782504_2_alg».proof.Proof.Gen.ReferenceIdeal.Read
import proofs.«405799_j23536420782504_2_alg».proof.Proof.LibPlainDot
import proofs.«405799_j23536420782504_2_alg».proof.Proof.Spec
import proofs.«405799_j23536420782504_2_alg».proof.Proof.ScatterAt
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Value Cert.ReferenceIdeal.Read Idealize.ShloMosaic Idealize.ShloMosaic.ValueIdx

/-- The neighbour aggregation of features `h` along the edge list `E`: the rows of `h` at the source ids (row 0 of `E`,
    a negative id counted from the end) gathered edge by edge, then added into zeros at the target ids (row 1 of `E`). -/
def agg (E : S2x1600000.Idx → BitVec 32) (h : FVec Ideal S50000x128 .f32) : FVec Ideal S50000x128 .f32 :=
  Host.scatterAdd (F := Ideal) scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0
      (shapeCast _ (extractStridedSlice S1x1600000 ![1, 0] E slices_S2x1600000_S1x1600000_1_0) shapeCasts_S1x1600000_S1600000))
    (Host.gather gather_S50000x128_S1600000x1_S1600000x128_1_0_n_n_0_1_1128 h
      (broadcastInDim S1600000x1 ![0] bcast_S1600000_S1600000x1_0
        (select
          (cmpi .slt (shapeCast _ (extractStridedSlice S1x1600000 ![0, 0] E slices_S2x1600000_S1x1600000_0_0) shapeCasts_S1x1600000_S1600000)
            (broadcastInDim S1600000 ![] bcast_S_S1600000 (constantI S_ 32 0#32)))
          (addi (shapeCast _ (extractStridedSlice S1x1600000 ![0, 0] E slices_S2x1600000_S1x1600000_0_0) shapeCasts_S1x1600000_S1600000)
            (broadcastInDim S1600000 ![] bcast_S_S1600000 (constantI S_ 32 50000#32)))
          (shapeCast _ (extractStridedSlice S1x1600000 ![0, 0] E slices_S2x1600000_S1x1600000_0_0) shapeCasts_S1x1600000_S1600000))))

/-- The first layer's aggregation stage is `agg` of the edge list and the features. -/
theorem stage13_eq (h : FVec Ideal S50000x128 .f32) (E : S2x1600000.Idx → BitVec 32) :
    val_main_v13 (F := Ideal) h E = agg E h := rfl

/-! ## Index equations: the generated operand indices at a coordinate pair -/

theorem lidx15 (n : Fin 50000) (k j : Fin 128) : lidx_main_v15 (ix2 n k) j = ix2 n j :=
  funext fun a => Fin.ext (by match a with | ⟨0, _⟩ => rfl | ⟨1, _⟩ => rfl)
theorem ridx15 (n : Fin 50000) (k j : Fin 128) : ridx_main_v15 (ix2 n k) j = ix2 j k :=
  funext fun a => Fin.ext (by match a with | ⟨0, _⟩ => rfl | ⟨1, _⟩ => rfl)
theorem lidx20 (n : Fin 50000) (q k : Fin 128) : lidx_main_v20 (ix2 n q) k = ix2 n k :=
  funext fun a => Fin.ext (by match a with | ⟨0, _⟩ => rfl | ⟨1, _⟩ => rfl)
theorem ridx20 (n : Fin 50000) (q k : Fin 128) : ridx_main_v20 (ix2 n q) k = ix2 k q :=
  funext fun a => Fin.ext (by match a with | ⟨0, _⟩ => rfl | ⟨1, _⟩ => rfl)
theorem idx17 (n : Fin 50000) (k : Fin 128) : idx_main_v17 (ix2 n k) = ix2 (0 : Fin 1) k :=
  funext fun a => Fin.ext (by match a with | ⟨0, _⟩ => rfl | ⟨1, _⟩ => rfl)
theorem idx16 (k : Fin 128) : idx_main_v16 (ix2 (0 : Fin 1) k) = ix1 k :=
  funext fun a => Fin.ext (by match a with | ⟨0, _⟩ => rfl)
theorem idx22 (n : Fin 50000) (k : Fin 128) : idx_main_v22 (ix2 n k) = ix2 (0 : Fin 1) k :=
  funext fun a => Fin.ext (by match a with | ⟨0, _⟩ => rfl | ⟨1, _⟩ => rfl)
theorem idx21 (k : Fin 128) : idx_main_v21 (ix2 (0 : Fin 1) k) = ix1 k :=
  funext fun a => Fin.ext (by match a with | ⟨0, _⟩ => rfl)

/-! ## One layer -/

/-- The hidden activation of a layer on features `h`: relu((h + agg h)·Wa + ba) at row `n`, column `k`. -/
theorem hidden_apply (h : FVec Ideal S50000x128 .f32) (E : S2x1600000.Idx → BitVec 32)
    (Wa : FVec Ideal S128x128 .f32) (ba : FVec Ideal S128 .f32) (n : Fin 50000) (k : Fin 128) :
    val_main_v19 (F := Ideal) h E Wa ba (ix2 n k)
      = max (∑ j : Fin 128, (h (ix2 n j) + agg E h (ix2 n j)) * Wa (ix2 j k) + ba (ix1 k)) 0 := by
  rw [val_main_v19_apply, val_main_v18_apply, val_main_v15_apply, val_main_v17_apply, val_main_v16_apply,
    val_main_call0_v0_apply, val_main_call0_cst_apply]
  simp only [lidx15, ridx15, idx17, idx16, val_main_v14_apply, stage13_eq, Ideal.addf_def, Ideal.maximumf_def,
    Ideal.ofBits_def, Ideal.ofBits_zero_f32]

/-- A layer on features `h` with neighbour sums `agg E h` is the specification's layer, coordinate by coordinate. -/
theorem layer_apply (h : FVec Ideal S50000x128 .f32) (E : S2x1600000.Idx → BitVec 32)
    (Wa : FVec Ideal S128x128 .f32) (ba : FVec Ideal S128 .f32) (Wb : FVec Ideal S128x128 .f32) (bb : FVec Ideal S128 .f32)
    (n : Fin 50000) (q : Fin 128) :
    val_main_v24 (F := Ideal) h E Wa ba Wb bb (ix2 n q)
      = Cert.Spec.layer (fun n j => h (ix2 n j)) (fun n j => agg E h (ix2 n j)) (fun j k => Wa (ix2 j k)) (fun k => ba (ix1 k))
          (fun j k => Wb (ix2 j k)) (fun k => bb (ix1 k)) n q := by
  rw [val_main_v24_apply, val_main_v23_apply, val_main_v20_apply, val_main_v22_apply, val_main_v21_apply,
    val_main_call1_v0_apply, val_main_call1_cst_apply]
  simp only [lidx20, ridx20, idx22, idx21, hidden_apply, Ideal.addf_def, Ideal.maximumf_def,
    Ideal.ofBits_def, Ideal.ofBits_zero_f32]
  rfl

/-! ## The two layers of the reference -/

variable (m : (ℓ : Loc nD τ sig) → Buf (Elt Ideal) ℓ) (c : Dev nD)

set_option quotPrecheck false in
local notation "X" => (m ((c.tc : Thread nD τ).loc main_arg0) : FVec Ideal S50000x128 .f32)
set_option quotPrecheck false in
local notation "E" => (m ((c.tc : Thread nD τ).loc main_arg1) : S2x1600000.Idx → BitVec 32)
set_option quotPrecheck false in
local notation "B" => (m ((c.tc : Thread nD τ).loc main_arg2) : S50000.Idx → BitVec 32)
set_option quotPrecheck false in
local notation "W1a" => (m ((c.tc : Thread nD τ).loc main_arg3) : FVec Ideal S128x128 .f32)
set_option quotPrecheck false in
local notation "b1a" => (m ((c.tc : Thread nD τ).loc main_arg4) : FVec Ideal S128 .f32)
set_option quotPrecheck false in
local notation "W1b" => (m ((c.tc : Thread nD τ).loc main_arg5) : FVec Ideal S128x128 .f32)
set_option quotPrecheck false in
local notation "b1b" => (m ((c.tc : Thread nD τ).loc main_arg6) : FVec Ideal S128 .f32)
set_option quotPrecheck false in
local notation "W2a" => (m ((c.tc : Thread nD τ).loc main_arg7) : FVec Ideal S128x128 .f32)
set_option quotPrecheck false in
local notation "b2a" => (m ((c.tc : Thread nD τ).loc main_arg8) : FVec Ideal S128 .f32)
set_option quotPrecheck false in
local notation "W2b" => (m ((c.tc : Thread nD τ).loc main_arg9) : FVec Ideal S128x128 .f32)
set_option quotPrecheck false in
local notation "b2b" => (m ((c.tc : Thread nD τ).loc main_arg10) : FVec Ideal S128 .f32)
set_option quotPrecheck false in
local notation "Wf1" => (m ((c.tc : Thread nD τ).loc main_arg11) : FVec Ideal S128x128 .f32)
set_option quotPrecheck false in
local notation "bf1" => (m ((c.tc : Thread nD τ).loc main_arg12) : FVec Ideal S128 .f32)
set_option quotPrecheck false in
local notation "Wf2" => (m ((c.tc : Thread nD τ).loc main_arg13) : FVec Ideal S128x6 .f32)
set_option quotPrecheck false in
local notation "bf2" => (m ((c.tc : Thread nD τ).loc main_arg14) : FVec Ideal S6 .f32)

/-- The first layer's output (after its trailing relu), as the reference computes it from the arguments. -/
def h1 : FVec Ideal S50000x128 .f32 := val_main_v24 (F := Ideal) X E W1a b1a W1b b1b

theorem h1_apply (n : Fin 50000) (q : Fin 128) :
    h1 m c (ix2 n q)
      = Cert.Spec.layer (fun n j => X (ix2 n j)) (fun n j => agg E X (ix2 n j)) (fun j k => W1a (ix2 j k)) (fun k => b1a (ix1 k))
          (fun j k => W1b (ix2 j k)) (fun k => b1b (ix1 k)) n q :=
  layer_apply X E W1a b1a W1b b1b n q

/-- The second layer's output: the same layer, with its own weights, on the first layer's output. -/
def h2 : FVec Ideal S50000x128 .f32 := val_main_v24 (F := Ideal) (h1 m c) E W2a b2a W2b b2b

theorem h2_apply (n : Fin 50000) (q : Fin 128) :
    h2 m c (ix2 n q)
      = Cert.Spec.layer (fun n j => h1 m c (ix2 n j)) (fun n j => agg E (h1 m c) (ix2 n j)) (fun j k => W2a (ix2 j k))
          (fun k => b2a (ix1 k)) (fun j k => W2b (ix2 j k)) (fun k => b2b (ix1 k)) n q :=
  layer_apply (h1 m c) E W2a b2a W2b b2b n q

/-- The reference's second-layer stage is the layer applied to the first layer's output: the same operations in the same
    order, with the second weights. -/
theorem stage45_eq :
    val_main_v45 (F := Ideal) X E W1a b1a W1b b1b W2a b2a W2b b2b = h2 m c := rfl

/-! ## Pooling, the head and the logistic function -/

/-- The one word of the constant one is the extended real one. -/
theorem ofBits_one_f32 : Ideal.ofBits .f32 0x3F800000#32 = 1 := by
  simp [Ideal.ofBits, Ideal.ieee, -EReal.coe_mul]; norm_num

theorem idx56 (g : Fin 512) (j : Fin 128) : idx_main_v56 (ix2 g j) = ix2 g (0 : Fin 1) :=
  funext fun a => Fin.ext (by match a with | ⟨0, _⟩ => rfl | ⟨1, _⟩ => rfl)
theorem idx55 (g : Fin 512) : idx_main_v55 (ix2 g (0 : Fin 1)) = ix1 g :=
  funext fun a => Fin.ext (by match a with | ⟨0, _⟩ => rfl)
theorem lidx58 (g : Fin 512) (k j : Fin 128) : lidx_main_v58 (ix2 g k) j = ix2 g j :=
  funext fun a => Fin.ext (by match a with | ⟨0, _⟩ => rfl | ⟨1, _⟩ => rfl)
theorem ridx58 (g : Fin 512) (k j : Fin 128) : ridx_main_v58 (ix2 g k) j = ix2 j k :=
  funext fun a => Fin.ext (by match a with | ⟨0, _⟩ => rfl | ⟨1, _⟩ => rfl)
theorem idx60 (g : Fin 512) (k : Fin 128) : idx_main_v60 (ix2 g k) = ix2 (0 : Fin 1) k :=
  funext fun a => Fin.ext (by match a with | ⟨0, _⟩ => rfl | ⟨1, _⟩ => rfl)
theorem idx59 (k : Fin 128) : idx_main_v59 (ix2 (0 : Fin 1) k) = ix1 k :=
  funext fun a => Fin.ext (by match a with | ⟨0, _⟩ => rfl)
theorem lidx63 (g : Fin 512) (o : Fin 6) (k : Fin 128) : lidx_main_v63 (ix2 g o) k = ix2 g k :=
  funext fun a => Fin.ext (by match a with | ⟨0, _⟩ => rfl | ⟨1, _⟩ => rfl)
theorem ridx63 (g : Fin 512) (o : Fin 6) (k : Fin 128) : ridx_main_v63 (ix2 g o) k = ix2 k o :=
  funext fun a => Fin.ext (by match a with | ⟨0, _⟩ => rfl | ⟨1, _⟩ => rfl)
theorem idx65 (g : Fin 512) (o : Fin 6) : idx_main_v65 (ix2 g o) = ix2 (0 : Fin 1) o :=
  funext fun a => Fin.ext (by match a with | ⟨0, _⟩ => rfl | ⟨1, _⟩ => rfl)
theorem idx64 (o : Fin 6) : idx_main_v64 (ix2 (0 : Fin 1) o) = ix1 o :=
  funext fun a => Fin.ext (by match a with | ⟨0, _⟩ => rfl)

/-- The row sums by graph id: the scatter-add of the second layer's rows into zeros. -/
theorem stage48_apply (g : Fin 512) (j : Fin 128) :
    val_main_v48 (F := Ideal) X E B W1a b1a W1b b1b W2a b2a W2b b2b (ix2 g j)
      = Cert.Spec.segSum (fun n => B (ix1 n)) (fun n j => h2 m c (ix2 n j)) g j :=
  Cert.ReferenceIdeal.ScatterAt.sums_apply B (h2 m c) g j

/-- The row counts by graph id: the scatter-add of ones into zeros. -/
theorem stage52_apply (g : Fin 512) :
    val_main_v52 (F := Ideal) B (ix1 g) = Cert.Spec.segCount (fun n => B (ix1 n)) g :=
  Cert.ReferenceIdeal.ScatterAt.counts_apply B g

/-- The pooled features: sums over max(count, 1). -/
theorem pooled_apply (g : Fin 512) (j : Fin 128) :
    val_main_v57 (F := Ideal) X E B W1a b1a W1b b1b W2a b2a W2b b2b (ix2 g j)
      = Cert.Spec.pooled (fun n => B (ix1 n)) (fun n j => h2 m c (ix2 n j)) g j := by
  rw [val_main_v57_apply, val_main_v56_apply, idx56, val_main_v55_apply, idx55, val_main_v54_apply, val_main_v53_apply,
    val_main_cst_7_apply, stage48_apply, stage52_apply]
  simp only [Ideal.hostDivf_def, Ideal.maximumf_def, Ideal.ofBits_def, ofBits_one_f32]
  rfl

/-- The head's hidden activation: relu(p·Wf1 + bf1) at graph `g`, column `k`. -/
theorem headHidden_apply (g : Fin 512) (k : Fin 128) :
    val_main_v62 (F := Ideal) X E B W1a b1a W1b b1b W2a b2a W2b b2b Wf1 bf1 (ix2 g k)
      = max (∑ j : Fin 128, Cert.Spec.pooled (fun n => B (ix1 n)) (fun n j => h2 m c (ix2 n j)) g j * Wf1 (ix2 j k) + bf1 (ix1 k)) 0 := by
  rw [val_main_v62_apply, val_main_v61_apply, val_main_v58_apply, val_main_v60_apply, val_main_v59_apply,
    val_main_call4_v0_apply, val_main_call4_cst_apply]
  simp only [lidx58, ridx58, idx60, idx59, pooled_apply, Ideal.addf_def, Ideal.maximumf_def, Ideal.ofBits_def,
    Ideal.ofBits_zero_f32]

/-- The head before the logistic function. -/
theorem headPre_apply (g : Fin 512) (o : Fin 6) :
    val_main_v66 (F := Ideal) X E B W1a b1a W1b b1b W2a b2a W2b b2b Wf1 bf1 Wf2 bf2 (ix2 g o)
      = Cert.Spec.headPre (Cert.Spec.pooled (fun n => B (ix1 n)) (fun n j => h2 m c (ix2 n j))) (fun j k => Wf1 (ix2 j k))
          (fun k => bf1 (ix1 k)) (fun k o => Wf2 (ix2 k o)) (fun o => bf2 (ix1 o)) g o := by
  rw [val_main_v66_apply, val_main_v63_apply, val_main_v65_apply, val_main_v64_apply]
  simp only [lidx63, ridx63, idx65, idx64, headHidden_apply, Ideal.addf_def]
  rfl

/-- The reference's result at graph `g`, class `o`: the specification's network on the second layer's output. -/
theorem out_apply (g : Fin 512) (o : Fin 6) :
    Cert.ReferenceIdeal.Value.res_out0 (F := Ideal) m c (ix2 g o)
      = Cert.Spec.out (fun n => B (ix1 n)) (fun n j => h2 m c (ix2 n j)) (fun j k => Wf1 (ix2 j k)) (fun k => bf1 (ix1 k))
          (fun k o => Wf2 (ix2 k o)) (fun o => bf2 (ix1 o)) g o := by
  refine (congrFun (val_main_v72_eq (F := Ideal) m c) (ix2 g o)).trans ?_
  rw [val_main_v72_apply, val_main_v71_apply, val_main_cst_9_apply, val_main_v70_apply, val_main_v69_apply,
    val_main_cst_8_apply, val_main_v68_apply, val_main_v67_apply, headPre_apply]
  simp only [Ideal.hostDivf_def, Ideal.addf_def, Ideal.hostUnary_exp_def, Ideal.hostNegf_def, Ideal.negf_def,
    Ideal.ofBits_def, ofBits_one_f32]
  rfl

end Cert.ReferenceIdeal.RefValue

end
-- ==== Proof.Bridge.lean ====
/-
  The two programs compute one function of their arguments.

  Both aggregate a node's neighbours by the same gather of source rows and the same scatter-sum at the target ids, so the
  aggregation is literally one term on the two sides. The reference's first layer and the first kernel region's output array
  are then the same array (each is the layer of the features and their aggregation), hence so are their aggregations and the
  second layers; the reference pools by a scatter-sum over the graph ids and the kernel by accumulating one-hot products tile
  by tile, which both come to the sum over the rows of each graph, and the heads and the sigmoid are the same formula.
-/
import proofs.«405799_j23536420782504_2_alg».proof.Proof.KernelValue
import proofs.«405799_j23536420782504_2_alg».proof.Proof.RefValue

set_option maxRecDepth 16384

noncomputable section

namespace Cert.Bridge

open Idealize.ShloMosaic Idealize.ShloMosaic.TcCoe Idealize.ShloMosaic.ValueIdx Idealize.SL.Sem

/-- The neighbour aggregation of the kernel's host code is the reference's. -/
theorem agg_eq (E : Cert.KernelIdeal.S2x1600000.Idx → BitVec 32) (h : FVec Ideal Cert.KernelIdeal.S50000x128 .f32) :
    Cert.KernelIdeal.HostAt.aggCore (Cert.KernelIdeal.HostAt.srcOf E) (Cert.KernelIdeal.HostAt.dstOf E) h = Cert.ReferenceIdeal.RefValue.agg E h := rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- From memories that agree on the fifteen arguments, the reference's result is the kernel's result array. -/
theorem result_eq
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Value.res_main_v72 (F := Ideal) m' c
      = (Cert.KernelIdeal.Pool.dat (Cert.KernelIdeal.Whole.V3 m) c).arrAt 11 Cert.KernelIdeal.cfg1.N := by
  obtain ⟨e0, e1, e2, e3, e4, e5, e6, e7, e8, e9, e10, e11, e12, e13, e14⟩ := hagree
  -- the first layer: one array
  have hH1 : Cert.ReferenceIdeal.RefValue.h1 m' c = Cert.KernelIdeal.Whole.V2 m c Cert.KernelIdeal.main_v20 := by
    funext i
    obtain ⟨n, q, rfl⟩ : ∃ (n : Fin 50000) (q : Fin 128), i = ix2 n q := ⟨i 0, i 1, eq_ix2 i⟩
    rw [Cert.ReferenceIdeal.RefValue.h1_apply m' c n q, Cert.KernelIdeal.KValue.h1K_apply m c n q]
    unfold Cert.KernelIdeal.KValue.h1K
    rw [e0, e1, e3, e4, e5, e6]
    rfl
  -- the second layer: the same value at every row and column
  have hH2 : ∀ (n : Fin 50000) (q : Fin 128), Cert.ReferenceIdeal.RefValue.h2 m' c (ix2 n q) = Cert.KernelIdeal.KValue.h2K m c n q := by
    intro n q
    rw [Cert.ReferenceIdeal.RefValue.h2_apply m' c n q]
    unfold Cert.KernelIdeal.KValue.h2K
    rw [hH1, e1, e7, e8, e9, e10]
    rfl
  funext i
  obtain ⟨g, o, rfl⟩ : ∃ (g : Fin 512) (o : Fin 6), i = ix2 g o := ⟨i 0, i 1, eq_ix2 i⟩
  rw [show Cert.ReferenceIdeal.Value.res_main_v72 (F := Ideal) m' c = Cert.ReferenceIdeal.Value.res_out0 (F := Ideal) m' c from rfl,
    Cert.ReferenceIdeal.RefValue.out_apply m' c g o, Cert.KernelIdeal.KValue.out_apply m c g o]
  simp only [hH2]
  rw [e2, e11, e12, e13, e14]

end Cert.Bridge

end
-- ==== Proof.lean ====
/-
  A two-layer graph-isomorphism network with mean pooling and a two-layer sigmoid head, as a TPU program of two kernel
  regions among host operations, against its plain reference.

  Frames. The kernel's program is host operations, a region that pushes tiles of 5000 nodes through the first layer's
  perceptron, host operations, and a region that pushes tiles of 2000 nodes through the second layer's perceptron while
  accumulating per-graph sums and counts in two buffers it keeps between grid points, writing the pooled, classified output at
  the last point. Each region's body runs at every grid point from what the pipeline hands it; the second region's invariant
  carries the two accumulators' exact contents from point to point. The program therefore terminates without a fault, writes
  none of its arguments, and leaves its result array at what the last point stored — at the word-level values and at the
  ideal ones alike, the argument being generic in the float instance. The reference is host operations only.

  Equivalence. On the extended reals a change of float format is the identity, the matrix unit's product into zero is the
  plain sum of products, and a one-hot product is a filtered sum; so the kernel's result array and the reference's result are
  the same function of the arguments, index by index. No finiteness of the inputs is used.
-/
import proofs.«405799_j23536420782504_2_alg».proof.Defs
import proofs.«405799_j23536420782504_2_alg».proof.Proof.Gen.Kernel
import proofs.«405799_j23536420782504_2_alg».proof.Proof.Gen.KernelIdeal
import proofs.«405799_j23536420782504_2_alg».proof.Proof.Gen.ReferenceIdeal
import proofs.«405799_j23536420782504_2_alg».proof.Proof.Gen.Pre_finite_inputs
import proofs.«405799_j23536420782504_2_alg».proof.Proof.Gen.ReferenceIdeal.Run
import proofs.«405799_j23536420782504_2_alg».proof.Proof.Gen.ReferenceIdeal.Read
import proofs.«405799_j23536420782504_2_alg».proof.Proof.KWholeRun
import proofs.«405799_j23536420782504_2_alg».proof.Proof.WholeRun
import proofs.«405799_j23536420782504_2_alg».proof.Proof.Bridge
import Idealize.ShloMosaic.Adequacy
import Idealize.ShloMosaic.Init

noncomputable section

namespace Cert.Proof

open Idealize.ShloMosaic Idealize.SL.Sem

/-- The word-level program runs to the end and writes no argument. -/
theorem frame_k : Cert.frame_Kernel := fun m ρ _ =>
  (θ_run (Cert.Kernel.defs (F := Bits)) _ _).mono (fun _ h c => (h c).2) (Cert.Kernel.Whole.run_result (F := Bits) m ρ)

/-- So does the idealized program. -/
theorem frame_ki : Cert.frame_KernelIdeal := fun m ρ _ =>
  (θ_run (Cert.KernelIdeal.defs (F := Ideal)) _ _).mono (fun _ h c => (h c).2) (Cert.KernelIdeal.Whole.run_result (F := Ideal) m ρ)

/-- The reference is host operations only: its run with the result dropped. -/
theorem frame_r : Cert.frame_ReferenceIdeal := fun m ρ _ =>
  (θ_run (Cert.ReferenceIdeal.defs (F := Ideal)) _ _).mono (fun _ h c => (h c).2) (Cert.ReferenceIdeal.Value.run (F := Ideal) m ρ)

/-- The idealization rewrote no operation. -/
theorem preserves : Cert.preserves_Kernel_KernelIdeal := trivial

/-- From memories agreeing on the arguments both programs end, the kernel's result array at what its second region's last
    point stored and the reference's result at its composed term, and these are one array. -/
theorem algebraic : Cert.algebraic_KernelIdeal_ReferenceIdeal := by
  intro m ρ m' ρ' _ hagree
  refine ⟨fun c => (Cert.KernelIdeal.Pool.dat (Cert.KernelIdeal.Whole.V3 m) c).arrAt 11 Cert.KernelIdeal.cfg1.N,
    Cert.KernelIdeal.Whole.run_result (F := Ideal) m ρ, ?_⟩
  refine (θ_run (Cert.ReferenceIdeal.defs (F := Ideal)) _ _).mono
    (fun _ h c => ⟨(h c).1.trans (Cert.Bridge.result_eq m m' c (hagree c)), (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
